-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x50x6 : Shape := ⟨3, ![4096, 50, 6]⟩
abbrev S1000000x8 : Shape := ⟨2, ![1000000, 8]⟩
abbrev S500000x8 : Shape := ⟨2, ![500000, 8]⟩
abbrev S100000x8 : Shape := ⟨2, ![100000, 8]⟩
abbrev S10000x8 : Shape := ⟨2, ![10000, 8]⟩
abbrev S1000x8 : Shape := ⟨2, ![1000, 8]⟩
abbrev S100x8 : Shape := ⟨2, ![100, 8]⟩
abbrev S48x32 : Shape := ⟨2, ![48, 32]⟩
abbrev S32 : Shape := ⟨1, ![32]⟩
abbrev S32x1 : Shape := ⟨2, ![32, 1]⟩
abbrev S1 : Shape := ⟨1, ![1]⟩
abbrev S_ : Shape := ⟨0, ![]⟩
abbrev S4096x50x1 : Shape := ⟨3, ![4096, 50, 1]⟩
abbrev S4096x50 : Shape := ⟨2, ![4096, 50]⟩

class Facts : Prop where
  bcast_S_S1000000x8 : S_.BroadcastsInDim S1000000x8 (![] : Fin 0 → Fin S1000000x8.rank)
  reducesTo_S1000000x8_S_d0_1 : S1000000x8.ReducesTo [0, 1] S_
  h_S_ : 0 < S_.numel
  bcast_S_S500000x8 : S_.BroadcastsInDim S500000x8 (![] : Fin 0 → Fin S500000x8.rank)
  reducesTo_S500000x8_S_d0_1 : S500000x8.ReducesTo [0, 1] S_
  bcast_S_S100000x8 : S_.BroadcastsInDim S100000x8 (![] : Fin 0 → Fin S100000x8.rank)
  reducesTo_S100000x8_S_d0_1 : S100000x8.ReducesTo [0, 1] S_
  bcast_S_S10000x8 : S_.BroadcastsInDim S10000x8 (![] : Fin 0 → Fin S10000x8.rank)
  reducesTo_S10000x8_S_d0_1 : S10000x8.ReducesTo [0, 1] S_
  bcast_S_S1000x8 : S_.BroadcastsInDim S1000x8 (![] : Fin 0 → Fin S1000x8.rank)
  reducesTo_S1000x8_S_d0_1 : S1000x8.ReducesTo [0, 1] S_
  bcast_S_S100x8 : S_.BroadcastsInDim S100x8 (![] : Fin 0 → Fin S100x8.rank)
  reducesTo_S100x8_S_d0_1 : S100x8.ReducesTo [0, 1] S_
  bcast_S_S48x32 : S_.BroadcastsInDim S48x32 (![] : Fin 0 → Fin S48x32.rank)
  reducesTo_S48x32_S_d0_1 : S48x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  slices_S4096x50x6_S4096x50x1_0_0_0 : S4096x50x6.Slices ![0, 0, 0] S4096x50x1
  shapeCasts_S4096x50x1_S4096x50 : S4096x50x1.ShapeCasts S4096x50
  bcast_S_S4096x50 : S_.BroadcastsInDim S4096x50 (![] : Fin 0 → Fin S4096x50.rank)
  reducesTo_S4096x50_S_d0_1 : S4096x50.ReducesTo [0, 1] S_
  slices_S4096x50x6_S4096x50x1_0_0_1 : S4096x50x6.Slices ![0, 0, 1] S4096x50x1
  slices_S4096x50x6_S4096x50x1_0_0_2 : S4096x50x6.Slices ![0, 0, 2] S4096x50x1
  slices_S4096x50x6_S4096x50x1_0_0_3 : S4096x50x6.Slices ![0, 0, 3] S4096x50x1
  slices_S4096x50x6_S4096x50x1_0_0_4 : S4096x50x6.Slices ![0, 0, 4] S4096x50x1
  slices_S4096x50x6_S4096x50x1_0_0_5 : S4096x50x6.Slices ![0, 0, 5] S4096x50x1

variable [Facts]

def fn_part6 {F : FTy → Type} [FloatOps F] (main_arg0 : IVec S4096x50x6 32) (main_v103 : IVec S_ 1) (main_v107 : IVec S4096x50 1) : IVec S_ 1 :=
  let main_v108 : IVec S4096x50x1 32 := (extractStridedSlice S4096x50x1 ![0, 0, 5] · slices_S4096x50x6_S4096x50x1_0_0_5) main_arg0
  let main_v109 : IVec S4096x50 32 := shapeCast S4096x50 main_v108 shapeCasts_S4096x50x1_S4096x50
  let main_c_34 : IVec S_ 32 := constantI S_ 32 100#32
  let main_v110 : IVec S4096x50 32 := broadcastInDim S4096x50 ![] bcast_S_S4096x50 main_c_34
  let main_v111 : IVec S4096x50 1 := cmpi .slt main_v109 main_v110
  let main_v112 : IVec S4096x50 1 := andi main_v107 main_v111
  let main_c_35 : IVec S_ 1 := constantI S_ 1 1#1
  let main_v113 : IVec S_ 1 := (fun x v => Host.reduce IntOp.andi x v reducesTo_S4096x50_S_d0_1 h_S_) main_v112 main_c_35
  let main_v114 : IVec S_ 1 := andi main_v103 main_v113
  main_v114

def fn_part5 {F : FTy → Type} [FloatOps F] (main_arg0 : IVec S4096x50x6 32) (main_v81 : IVec S_ 1) (main_v85 : IVec S4096x50 1) (main_v87 : IVec S4096x50 32) (main_v88 : IVec S4096x50 32) : IVec S_ 1 :=
  let main_v89 : IVec S4096x50 1 := cmpi .slt main_v87 main_v88
  let main_v90 : IVec S4096x50 1 := andi main_v85 main_v89
  let main_c_29 : IVec S_ 1 := constantI S_ 1 1#1
  let main_v91 : IVec S_ 1 := (fun x v => Host.reduce IntOp.andi x v reducesTo_S4096x50_S_d0_1 h_S_) main_v90 main_c_29
  let main_v92 : IVec S_ 1 := andi main_v81 main_v91
  let main_v93 : IVec S4096x50x1 32 := (extractStridedSlice S4096x50x1 ![0, 0, 4] · slices_S4096x50x6_S4096x50x1_0_0_4) main_arg0
  let main_v94 : IVec S4096x50 32 := shapeCast S4096x50 main_v93 shapeCasts_S4096x50x1_S4096x50
  let main_c_30 : IVec S_ 32 := constantI S_ 32 0#32
  let main_v95 : IVec S4096x50 32 := broadcastInDim S4096x50 ![] bcast_S_S4096x50 main_c_30
  let main_v96 : IVec S4096x50 1 := cmpi .sge main_v94 main_v95
  let main_v97 : IVec S4096x50x1 32 := (extractStridedSlice S4096x50x1 ![0, 0, 4] · slices_S4096x50x6_S4096x50x1_0_0_4) main_arg0
  let main_v98 : IVec S4096x50 32 := shapeCast S4096x50 main_v97 shapeCasts_S4096x50x1_S4096x50
  let main_c_31 : IVec S_ 32 := constantI S_ 32 1000#32
  let main_v99 : IVec S4096x50 32 := broadcastInDim S4096x50 ![] bcast_S_S4096x50 main_c_31
  let main_v100 : IVec S4096x50 1 := cmpi .slt main_v98 main_v99
  let main_v101 : IVec S4096x50 1 := andi main_v96 main_v100
  let main_c_32 : IVec S_ 1 := constantI S_ 1 1#1
  let main_v102 : IVec S_ 1 := (fun x v => Host.reduce IntOp.andi x v reducesTo_S4096x50_S_d0_1 h_S_) main_v101 main_c_32
  let main_v103 : IVec S_ 1 := andi main_v92 main_v102
  let main_v104 : IVec S4096x50x1 32 := (extractStridedSlice S4096x50x1 ![0, 0, 5] · slices_S4096x50x6_S4096x50x1_0_0_5) main_arg0
  let main_v105 : IVec S4096x50 32 := shapeCast S4096x50 main_v104 shapeCasts_S4096x50x1_S4096x50
  let main_c_33 : IVec S_ 32 := constantI S_ 32 0#32
  let main_v106 : IVec S4096x50 32 := broadcastInDim S4096x50 ![] bcast_S_S4096x50 main_c_33
  let main_v107 : IVec S4096x50 1 := cmpi .sge main_v105 main_v106
  fn_part6 (F := F) main_arg0 main_v103 main_v107

def fn_part4 {F : FTy → Type} [FloatOps F] (main_arg0 : IVec S4096x50x6 32) (main_v59 : IVec S_ 1) (main_v69 : IVec S_ 1) : IVec S_ 1 :=
  let main_v70 : IVec S_ 1 := andi main_v59 main_v69
  let main_v71 : IVec S4096x50x1 32 := (extractStridedSlice S4096x50x1 ![0, 0, 2] · slices_S4096x50x6_S4096x50x1_0_0_2) main_arg0
  let main_v72 : IVec S4096x50 32 := shapeCast S4096x50 main_v71 shapeCasts_S4096x50x1_S4096x50
  let main_c_24 : IVec S_ 32 := constantI S_ 32 0#32
  let main_v73 : IVec S4096x50 32 := broadcastInDim S4096x50 ![] bcast_S_S4096x50 main_c_24
  let main_v74 : IVec S4096x50 1 := cmpi .sge main_v72 main_v73
  let main_v75 : IVec S4096x50x1 32 := (extractStridedSlice S4096x50x1 ![0, 0, 2] · slices_S4096x50x6_S4096x50x1_0_0_2) main_arg0
  let main_v76 : IVec S4096x50 32 := shapeCast S4096x50 main_v75 shapeCasts_S4096x50x1_S4096x50
  let main_c_25 : IVec S_ 32 := constantI S_ 32 100000#32
  let main_v77 : IVec S4096x50 32 := broadcastInDim S4096x50 ![] bcast_S_S4096x50 main_c_25
  let main_v78 : IVec S4096x50 1 := cmpi .slt main_v76 main_v77
  let main_v79 : IVec S4096x50 1 := andi main_v74 main_v78
  let main_c_26 : IVec S_ 1 := constantI S_ 1 1#1
  let main_v80 : IVec S_ 1 := (fun x v => Host.reduce IntOp.andi x v reducesTo_S4096x50_S_d0_1 h_S_) main_v79 main_c_26
  let main_v81 : IVec S_ 1 := andi main_v70 main_v80
  let main_v82 : IVec S4096x50x1 32 := (extractStridedSlice S4096x50x1 ![0, 0, 3] · slices_S4096x50x6_S4096x50x1_0_0_3) main_arg0
  let main_v83 : IVec S4096x50 32 := shapeCast S4096x50 main_v82 shapeCasts_S4096x50x1_S4096x50
  let main_c_27 : IVec S_ 32 := constantI S_ 32 0#32
  let main_v84 : IVec S4096x50 32 := broadcastInDim S4096x50 ![] bcast_S_S4096x50 main_c_27
  let main_v85 : IVec S4096x50 1 := cmpi .sge main_v83 main_v84
  let main_v86 : IVec S4096x50x1 32 := (extractStridedSlice S4096x50x1 ![0, 0, 3] · slices_S4096x50x6_S4096x50x1_0_0_3) main_arg0
  let main_v87 : IVec S4096x50 32 := shapeCast S4096x50 main_v86 shapeCasts_S4096x50x1_S4096x50
  let main_c_28 : IVec S_ 32 := constantI S_ 32 10000#32
  let main_v88 : IVec S4096x50 32 := broadcastInDim S4096x50 ![] bcast_S_S4096x50 main_c_28
  fn_part5 (F := F) main_arg0 main_v81 main_v85 main_v87 main_v88

def fn_part3 {F : FTy → Type} [FloatOps F] (main_arg0 : IVec S4096x50x6 32) (main_v48 : IVec S_ 1) (main_v50 : IVec S4096x50 32) (main_c_18 : IVec S_ 32) : IVec S_ 1 :=
  let main_v51 : IVec S4096x50 32 := broadcastInDim S4096x50 ![] bcast_S_S4096x50 main_c_18
  let main_v52 : IVec S4096x50 1 := cmpi .sge main_v50 main_v51
  let main_v53 : IVec S4096x50x1 32 := (extractStridedSlice S4096x50x1 ![0, 0, 0] · slices_S4096x50x6_S4096x50x1_0_0_0) main_arg0
  let main_v54 : IVec S4096x50 32 := shapeCast S4096x50 main_v53 shapeCasts_S4096x50x1_S4096x50
  let main_c_19 : IVec S_ 32 := constantI S_ 32 1000000#32
  let main_v55 : IVec S4096x50 32 := broadcastInDim S4096x50 ![] bcast_S_S4096x50 main_c_19
  let main_v56 : IVec S4096x50 1 := cmpi .slt main_v54 main_v55
  let main_v57 : IVec S4096x50 1 := andi main_v52 main_v56
  let main_c_20 : IVec S_ 1 := constantI S_ 1 1#1
  let main_v58 : IVec S_ 1 := (fun x v => Host.reduce IntOp.andi x v reducesTo_S4096x50_S_d0_1 h_S_) main_v57 main_c_20
  let main_v59 : IVec S_ 1 := andi main_v48 main_v58
  let main_v60 : IVec S4096x50x1 32 := (extractStridedSlice S4096x50x1 ![0, 0, 1] · slices_S4096x50x6_S4096x50x1_0_0_1) main_arg0
  let main_v61 : IVec S4096x50 32 := shapeCast S4096x50 main_v60 shapeCasts_S4096x50x1_S4096x50
  let main_c_21 : IVec S_ 32 := constantI S_ 32 0#32
  let main_v62 : IVec S4096x50 32 := broadcastInDim S4096x50 ![] bcast_S_S4096x50 main_c_21
  let main_v63 : IVec S4096x50 1 := cmpi .sge main_v61 main_v62
  let main_v64 : IVec S4096x50x1 32 := (extractStridedSlice S4096x50x1 ![0, 0, 1] · slices_S4096x50x6_S4096x50x1_0_0_1) main_arg0
  let main_v65 : IVec S4096x50 32 := shapeCast S4096x50 main_v64 shapeCasts_S4096x50x1_S4096x50
  let main_c_22 : IVec S_ 32 := constantI S_ 32 500000#32
  let main_v66 : IVec S4096x50 32 := broadcastInDim S4096x50 ![] bcast_S_S4096x50 main_c_22
  let main_v67 : IVec S4096x50 1 := cmpi .slt main_v65 main_v66
  let main_v68 : IVec S4096x50 1 := andi main_v63 main_v67
  let main_c_23 : IVec S_ 1 := constantI S_ 1 1#1
  let main_v69 : IVec S_ 1 := (fun x v => Host.reduce IntOp.andi x v reducesTo_S4096x50_S_d0_1 h_S_) main_v68 main_c_23
  fn_part4 (F := F) main_arg0 main_v59 main_v69

def fn_part2 {F : FTy → Type} [FloatOps F] (main_arg0 : IVec S4096x50x6 32) (main_arg8 : FVec F S32 .f32) (main_arg9 : FVec F S32x1 .f32) (main_arg10 : FVec F S1 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x1 .f32 := Host.absf main_arg9
  let main_cst_14 : FVec F S_ .f32 := constant S_ .f32 0x7F800000#32
  let main_v40 : FVec F S32x1 .f32 := broadcastInDim S32x1 ![] bcast_S_S32x1 main_cst_14
  let main_v41 : IVec S32x1 1 := cmpf .olt main_v39 main_v40
  let main_c_15 : IVec S_ 1 := constantI S_ 1 1#1
  let main_v42 : IVec S_ 1 := (fun x v => Host.reduce IntOp.andi x v reducesTo_S32x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : IVec S4096x50x1 32 := (extractStridedSlice S4096x50x1 ![0, 0, 0] · slices_S4096x50x6_S4096x50x1_0_0_0) main_arg0
  let main_v50 : IVec S4096x50 32 := shapeCast S4096x50 main_v49 shapeCasts_S4096x50x1_S4096x50
  let main_c_18 : IVec S_ 32 := constantI S_ 32 0#32
  fn_part3 (F := F) main_arg0 main_v48 main_v50 main_c_18

def fn_part1 {F : FTy → Type} [FloatOps F] (main_arg0 : IVec S4096x50x6 32) (main_arg5 : FVec F S1000x8 .f32) (main_arg6 : FVec F S100x8 .f32) (main_arg7 : FVec F S48x32 .f32) (main_arg8 : FVec F S32 .f32) (main_arg9 : FVec F S32x1 .f32) (main_arg10 : FVec F S1 .f32) (main_v13 : IVec S_ 1) (main_v16 : IVec S10000x8 1) : IVec S_ 1 :=
  let main_c_5 : IVec S_ 1 := constantI S_ 1 1#1
  let main_v17 : IVec S_ 1 := (fun x v => Host.reduce IntOp.andi x v reducesTo_S10000x8_S_d0_1 h_S_) main_v16 main_c_5
  let main_v18 : IVec S_ 1 := andi main_v13 main_v17
  let main_v19 : FVec F S1000x8 .f32 := Host.absf main_arg5
  let main_cst_6 : FVec F S_ .f32 := constant S_ .f32 0x7F800000#32
  let main_v20 : FVec F S1000x8 .f32 := broadcastInDim S1000x8 ![] bcast_S_S1000x8 main_cst_6
  let main_v21 : IVec S1000x8 1 := cmpf .olt main_v19 main_v20
  let main_c_7 : IVec S_ 1 := constantI S_ 1 1#1
  let main_v22 : IVec S_ 1 := (fun x v => Host.reduce IntOp.andi x v reducesTo_S1000x8_S_d0_1 h_S_) main_v21 main_c_7
  let main_v23 : IVec S_ 1 := andi main_v18 main_v22
  let main_v24 : FVec F S100x8 .f32 := Host.absf main_arg6
  let main_cst_8 : FVec F S_ .f32 := constant S_ .f32 0x7F800000#32
  let main_v25 : FVec F S100x8 .f32 := broadcastInDim S100x8 ![] bcast_S_S100x8 main_cst_8
  let main_v26 : IVec S100x8 1 := cmpf .olt main_v24 main_v25
  let main_c_9 : IVec S_ 1 := constantI S_ 1 1#1
  let main_v27 : IVec S_ 1 := (fun x v => Host.reduce IntOp.andi x v reducesTo_S100x8_S_d0_1 h_S_) main_v26 main_c_9
  let main_v28 : IVec S_ 1 := andi main_v23 main_v27
  let main_v29 : FVec F S48x32 .f32 := Host.absf main_arg7
  let main_cst_10 : FVec F S_ .f32 := constant S_ .f32 0x7F800000#32
  let main_v30 : FVec F S48x32 .f32 := broadcastInDim S48x32 ![] bcast_S_S48x32 main_cst_10
  let main_v31 : IVec S48x32 1 := cmpf .olt main_v29 main_v30
  let main_c_11 : IVec S_ 1 := constantI S_ 1 1#1
  let main_v32 : IVec S_ 1 := (fun x v => Host.reduce IntOp.andi x v reducesTo_S48x32_S_d0_1 h_S_) main_v31 main_c_11
  let main_v33 : IVec S_ 1 := andi main_v28 main_v32
  fn_part2 (F := F) main_arg0 main_arg8 main_arg9 main_arg10 main_v33

def fn {F : FTy → Type} [FloatOps F] (main_arg0 : IVec S4096x50x6 32) (main_arg1 : FVec F S1000000x8 .f32) (main_arg2 : FVec F S500000x8 .f32) (main_arg3 : FVec F S100000x8 .f32) (main_arg4 : FVec F S10000x8 .f32) (main_arg5 : FVec F S1000x8 .f32) (main_arg6 : FVec F S100x8 .f32) (main_arg7 : FVec F S48x32 .f32) (main_arg8 : FVec F S32 .f32) (main_arg9 : FVec F S32x1 .f32) (main_arg10 : FVec F S1 .f32) : IVec S_ 1 :=
  let main_v0 : FVec F S1000000x8 .f32 := Host.absf main_arg1
  let main_cst : FVec F S_ .f32 := constant S_ .f32 0x7F800000#32
  let main_v1 : FVec F S1000000x8 .f32 := broadcastInDim S1000000x8 ![] bcast_S_S1000000x8 main_cst
  let main_v2 : IVec S1000000x8 1 := cmpf .olt main_v0 main_v1
  let main_c : IVec S_ 1 := constantI S_ 1 1#1
  let main_v3 : IVec S_ 1 := (fun x v => Host.reduce IntOp.andi x v reducesTo_S1000000x8_S_d0_1 h_S_) main_v2 main_c
  let main_v4 : FVec F S500000x8 .f32 := Host.absf main_arg2
  let main_cst_0 : FVec F S_ .f32 := constant S_ .f32 0x7F800000#32
  let main_v5 : FVec F S500000x8 .f32 := broadcastInDim S500000x8 ![] bcast_S_S500000x8 main_cst_0
  let main_v6 : IVec S500000x8 1 := cmpf .olt main_v4 main_v5
  let main_c_1 : IVec S_ 1 := constantI S_ 1 1#1
  let main_v7 : IVec S_ 1 := (fun x v => Host.reduce IntOp.andi x v reducesTo_S500000x8_S_d0_1 h_S_) main_v6 main_c_1
  let main_v8 : IVec S_ 1 := andi main_v3 main_v7
  let main_v9 : FVec F S100000x8 .f32 := Host.absf main_arg3
  let main_cst_2 : FVec F S_ .f32 := constant S_ .f32 0x7F800000#32
  let main_v10 : FVec F S100000x8 .f32 := broadcastInDim S100000x8 ![] bcast_S_S100000x8 main_cst_2
  let main_v11 : IVec S100000x8 1 := cmpf .olt main_v9 main_v10
  let main_c_3 : IVec S_ 1 := constantI S_ 1 1#1
  let main_v12 : IVec S_ 1 := (fun x v => Host.reduce IntOp.andi x v reducesTo_S100000x8_S_d0_1 h_S_) main_v11 main_c_3
  let main_v13 : IVec S_ 1 := andi main_v8 main_v12
  let main_v14 : FVec F S10000x8 .f32 := Host.absf main_arg4
  let main_cst_4 : FVec F S_ .f32 := constant S_ .f32 0x7F800000#32
  let main_v15 : FVec F S10000x8 .f32 := broadcastInDim S10000x8 ![] bcast_S_S10000x8 main_cst_4
  let main_v16 : IVec S10000x8 1 := cmpf .olt main_v14 main_v15
  fn_part1 (F := F) main_arg0 main_arg5 main_arg6 main_arg7 main_arg8 main_arg9 main_arg10 main_v13 main_v16
-- ==== Kernel.lean ====
abbrev S4096x50x6 : Shape := ⟨3, ![4096, 50, 6]⟩
abbrev S1000000x8 : Shape := ⟨2, ![1000000, 8]⟩
abbrev S500000x8 : Shape := ⟨2, ![500000, 8]⟩
abbrev S100000x8 : Shape := ⟨2, ![100000, 8]⟩
abbrev S10000x8 : Shape := ⟨2, ![10000, 8]⟩
abbrev S1000x8 : Shape := ⟨2, ![1000, 8]⟩
abbrev S100x8 : Shape := ⟨2, ![100, 8]⟩
abbrev S48x32 : Shape := ⟨2, ![48, 32]⟩
abbrev S32 : Shape := ⟨1, ![32]⟩
abbrev S32x1 : Shape := ⟨2, ![32, 1]⟩
abbrev S1 : Shape := ⟨1, ![1]⟩
abbrev S204800x6 : Shape := ⟨2, ![204800, 6]⟩
abbrev S204800x1 : Shape := ⟨2, ![204800, 1]⟩
abbrev S204800 : Shape := ⟨1, ![204800]⟩
abbrev S_ : Shape := ⟨0, ![]⟩
abbrev S1x1 : Shape := ⟨2, ![1, 1]⟩
abbrev S204800x8 : Shape := ⟨2, ![204800, 8]⟩
abbrev S204800x32 : Shape := ⟨2, ![204800, 32]⟩
abbrev S204800x2 : Shape := ⟨2, ![204800, 2]⟩
abbrev S4096x32 : Shape := ⟨2, ![4096, 32]⟩
abbrev S4096x2 : Shape := ⟨2, ![4096, 2]⟩
abbrev S4096x1 : Shape := ⟨2, ![4096, 1]⟩
abbrev S1x1000 : Shape := ⟨2, ![1, 1000]⟩
abbrev S4096x1000 : Shape := ⟨2, ![4096, 1000]⟩
abbrev S4096x8 : Shape := ⟨2, ![4096, 8]⟩
abbrev S1x100 : Shape := ⟨2, ![1, 100]⟩
abbrev S4096x100 : Shape := ⟨2, ![4096, 100]⟩
abbrev S4096x48 : Shape := ⟨2, ![4096, 48]⟩
abbrev S1x32 : Shape := ⟨2, ![1, 32]⟩
abbrev S4096x50 : Shape := ⟨2, ![4096, 50]⟩

abbrev nBuf : Space → Nat
  | .hbm => 116
  | .vmem => 12
  | .smem => 0
  | _ => 0

abbrev bufTy : (tb : Table) → Fin (tcTables nBuf tb) → BufTy
  | .hbm, ⟨0, _⟩ => ⟨S4096x50x6, .i32⟩
  | .hbm, ⟨1, _⟩ => ⟨S1000000x8, .f32⟩
  | .hbm, ⟨2, _⟩ => ⟨S500000x8, .f32⟩
  | .hbm, ⟨3, _⟩ => ⟨S100000x8, .f32⟩
  | .hbm, ⟨4, _⟩ => ⟨S10000x8, .f32⟩
  | .hbm, ⟨5, _⟩ => ⟨S1000x8, .f32⟩
  | .hbm, ⟨6, _⟩ => ⟨S100x8, .f32⟩
  | .hbm, ⟨7, _⟩ => ⟨S48x32, .f32⟩
  | .hbm, ⟨8, _⟩ => ⟨S32, .f32⟩
  | .hbm, ⟨9, _⟩ => ⟨S32x1, .f32⟩
  | .hbm, ⟨10, _⟩ => ⟨S1, .f32⟩
  | .hbm, ⟨11, _⟩ => ⟨S204800x6, .i32⟩
  | .hbm, ⟨12, _⟩ => ⟨S204800x1, .i32⟩
  | .hbm, ⟨13, _⟩ => ⟨S204800, .i32⟩
  | .hbm, ⟨14, _⟩ => ⟨S_, .i32⟩
  | .hbm, ⟨15, _⟩ => ⟨S204800, .i32⟩
  | .hbm, ⟨16, _⟩ => ⟨S204800, .i1⟩
  | .hbm, ⟨17, _⟩ => ⟨S_, .i32⟩
  | .hbm, ⟨18, _⟩ => ⟨S204800, .i32⟩
  | .hbm, ⟨19, _⟩ => ⟨S204800, .i32⟩
  | .hbm, ⟨20, _⟩ => ⟨S204800, .i32⟩
  | .hbm, ⟨21, _⟩ => ⟨S204800x1, .i32⟩
  | .hbm, ⟨22, _⟩ => ⟨S1, .i32⟩
  | .hbm, ⟨23, _⟩ => ⟨S_, .i32⟩
  | .hbm, ⟨24, _⟩ => ⟨S204800x1, .i32⟩
  | .hbm, ⟨25, _⟩ => ⟨S204800x1, .i1⟩
  | .hbm, ⟨26, _⟩ => ⟨S1x1, .i32⟩
  | .hbm, ⟨27, _⟩ => ⟨S204800x1, .i32⟩
  | .hbm, ⟨28, _⟩ => ⟨S204800x1, .i1⟩
  | .hbm, ⟨29, _⟩ => ⟨S204800x1, .i1⟩
  | .hbm, ⟨30, _⟩ => ⟨S_, .i1⟩
  | .hbm, ⟨31, _⟩ => ⟨S204800, .i1⟩
  | .hbm, ⟨32, _⟩ => ⟨S204800x8, .f32⟩
  | .hbm, ⟨33, _⟩ => ⟨S204800x8, .i1⟩
  | .hbm, ⟨34, _⟩ => ⟨S_, .f32⟩
  | .hbm, ⟨35, _⟩ => ⟨S204800x8, .f32⟩
  | .hbm, ⟨36, _⟩ => ⟨S204800x8, .f32⟩
  | .hbm, ⟨37, _⟩ => ⟨S204800x1, .i32⟩
  | .hbm, ⟨38, _⟩ => ⟨S204800, .i32⟩
  | .hbm, ⟨39, _⟩ => ⟨S_, .i32⟩
  | .hbm, ⟨40, _⟩ => ⟨S204800, .i32⟩
  | .hbm, ⟨41, _⟩ => ⟨S204800, .i1⟩
  | .hbm, ⟨42, _⟩ => ⟨S_, .i32⟩
  | .hbm, ⟨43, _⟩ => ⟨S204800, .i32⟩
  | .hbm, ⟨44, _⟩ => ⟨S204800, .i32⟩
  | .hbm, ⟨45, _⟩ => ⟨S204800, .i32⟩
  | .hbm, ⟨46, _⟩ => ⟨S204800x1, .i32⟩
  | .hbm, ⟨47, _⟩ => ⟨S1, .i32⟩
  | .hbm, ⟨48, _⟩ => ⟨S_, .i32⟩
  | .hbm, ⟨49, _⟩ => ⟨S204800x1, .i32⟩
  | .hbm, ⟨50, _⟩ => ⟨S204800x1, .i1⟩
  | .hbm, ⟨51, _⟩ => ⟨S1x1, .i32⟩
  | .hbm, ⟨52, _⟩ => ⟨S204800x1, .i32⟩
  | .hbm, ⟨53, _⟩ => ⟨S204800x1, .i1⟩
  | .hbm, ⟨54, _⟩ => ⟨S204800x1, .i1⟩
  | .hbm, ⟨55, _⟩ => ⟨S_, .i1⟩
  | .hbm, ⟨56, _⟩ => ⟨S204800, .i1⟩
  | .hbm, ⟨57, _⟩ => ⟨S204800x8, .f32⟩
  | .hbm, ⟨58, _⟩ => ⟨S204800x8, .i1⟩
  | .hbm, ⟨59, _⟩ => ⟨S_, .f32⟩
  | .hbm, ⟨60, _⟩ => ⟨S204800x8, .f32⟩
  | .hbm, ⟨61, _⟩ => ⟨S204800x8, .f32⟩
  | .hbm, ⟨62, _⟩ => ⟨S204800x1, .i32⟩
  | .hbm, ⟨63, _⟩ => ⟨S204800, .i32⟩
  | .hbm, ⟨64, _⟩ => ⟨S_, .i32⟩
  | .hbm, ⟨65, _⟩ => ⟨S204800, .i32⟩
  | .hbm, ⟨66, _⟩ => ⟨S204800, .i1⟩
  | .hbm, ⟨67, _⟩ => ⟨S_, .i32⟩
  | .hbm, ⟨68, _⟩ => ⟨S204800, .i32⟩
  | .hbm, ⟨69, _⟩ => ⟨S204800, .i32⟩
  | .hbm, ⟨70, _⟩ => ⟨S204800, .i32⟩
  | .hbm, ⟨71, _⟩ => ⟨S204800x1, .i32⟩
  | .hbm, ⟨72, _⟩ => ⟨S1, .i32⟩
  | .hbm, ⟨73, _⟩ => ⟨S_, .i32⟩
  | .hbm, ⟨74, _⟩ => ⟨S204800x1, .i32⟩
  | .hbm, ⟨75, _⟩ => ⟨S204800x1, .i1⟩
  | .hbm, ⟨76, _⟩ => ⟨S1x1, .i32⟩
  | .hbm, ⟨77, _⟩ => ⟨S204800x1, .i32⟩
  | .hbm, ⟨78, _⟩ => ⟨S204800x1, .i1⟩
  | .hbm, ⟨79, _⟩ => ⟨S204800x1, .i1⟩
  | .hbm, ⟨80, _⟩ => ⟨S_, .i1⟩
  | .hbm, ⟨81, _⟩ => ⟨S204800, .i1⟩
  | .hbm, ⟨82, _⟩ => ⟨S204800x8, .f32⟩
  | .hbm, ⟨83, _⟩ => ⟨S204800x8, .i1⟩
  | .hbm, ⟨84, _⟩ => ⟨S_, .f32⟩
  | .hbm, ⟨85, _⟩ => ⟨S204800x8, .f32⟩
  | .hbm, ⟨86, _⟩ => ⟨S204800x8, .f32⟩
  | .hbm, ⟨87, _⟩ => ⟨S204800x1, .i32⟩
  | .hbm, ⟨88, _⟩ => ⟨S204800, .i32⟩
  | .hbm, ⟨89, _⟩ => ⟨S_, .i32⟩
  | .hbm, ⟨90, _⟩ => ⟨S204800, .i32⟩
  | .hbm, ⟨91, _⟩ => ⟨S204800, .i1⟩
  | .hbm, ⟨92, _⟩ => ⟨S_, .i32⟩
  | .hbm, ⟨93, _⟩ => ⟨S204800, .i32⟩
  | .hbm, ⟨94, _⟩ => ⟨S204800, .i32⟩
  | .hbm, ⟨95, _⟩ => ⟨S204800, .i32⟩
  | .hbm, ⟨96, _⟩ => ⟨S204800x1, .i32⟩
  | .hbm, ⟨97, _⟩ => ⟨S1, .i32⟩
  | .hbm, ⟨98, _⟩ => ⟨S_, .i32⟩
  | .hbm, ⟨99, _⟩ => ⟨S204800x1, .i32⟩
  | .hbm, ⟨100, _⟩ => ⟨S204800x1, .i1⟩
  | .hbm, ⟨101, _⟩ => ⟨S1x1, .i32⟩
  | .hbm, ⟨102, _⟩ => ⟨S204800x1, .i32⟩
  | .hbm, ⟨103, _⟩ => ⟨S204800x1, .i1⟩
  | .hbm, ⟨104, _⟩ => ⟨S204800x1, .i1⟩
  | .hbm, ⟨105, _⟩ => ⟨S_, .i1⟩
  | .hbm, ⟨106, _⟩ => ⟨S204800, .i1⟩
  | .hbm, ⟨107, _⟩ => ⟨S204800x8, .f32⟩
  | .hbm, ⟨108, _⟩ => ⟨S204800x8, .i1⟩
  | .hbm, ⟨109, _⟩ => ⟨S_, .f32⟩
  | .hbm, ⟨110, _⟩ => ⟨S204800x8, .f32⟩
  | .hbm, ⟨111, _⟩ => ⟨S204800x8, .f32⟩
  | .hbm, ⟨112, _⟩ => ⟨S204800x32, .f32⟩
  | .hbm, ⟨113, _⟩ => ⟨S204800x2, .i32⟩
  | .hbm, ⟨114, _⟩ => ⟨S204800x1, .f32⟩
  | .hbm, ⟨115, _⟩ => ⟨S4096x50, .f32⟩
  | .local _ .vmem, ⟨0, _⟩ => ⟨S4096x32, .f32⟩
  | .local _ .vmem, ⟨1, _⟩ => ⟨S4096x32, .f32⟩
  | .local _ .vmem, ⟨2, _⟩ => ⟨S4096x2, .i32⟩
  | .local _ .vmem, ⟨3, _⟩ => ⟨S4096x2, .i32⟩
  | .local _ .vmem, ⟨4, _⟩ => ⟨S1000x8, .f32⟩
  | .local _ .vmem, ⟨5, _⟩ => ⟨S100x8, .f32⟩
  | .local _ .vmem, ⟨6, _⟩ => ⟨S48x32, .f32⟩
  | .local _ .vmem, ⟨7, _⟩ => ⟨S32, .f32⟩
  | .local _ .vmem, ⟨8, _⟩ => ⟨S32x1, .f32⟩
  | .local _ .vmem, ⟨9, _⟩ => ⟨S1, .f32⟩
  | .local _ .vmem, ⟨10, _⟩ => ⟨S4096x1, .f32⟩
  | .local _ .vmem, ⟨11, _⟩ => ⟨S4096x1, .f32⟩
  | _, _ => ⟨S4096x50x6, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v9 : Ref sig .tc := ⟨.hbm, 86, rfl⟩
abbrev main_v10 : Ref sig .tc := ⟨.hbm, 87, rfl⟩
abbrev main_v11 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_3 : Ref sig .tc := ⟨.hbm, 105, rfl⟩
abbrev main_call3_v12 : Ref sig .tc := ⟨.hbm, 106, rfl⟩
abbrev main_call3_v13 : Ref sig .tc := ⟨.hbm, 107, rfl⟩
abbrev main_call3_v14 : Ref sig .tc := ⟨.hbm, 108, rfl⟩
abbrev main_call3_cst : Ref sig .tc := ⟨.hbm, 109, rfl⟩
abbrev main_call3_v15 : Ref sig .tc := ⟨.hbm, 110, rfl⟩
abbrev main_v12 : Ref sig .tc := ⟨.hbm, 111, rfl⟩
abbrev main_v13 : Ref sig .tc := ⟨.hbm, 112, rfl⟩
abbrev main_v14 : Ref sig .tc := ⟨.hbm, 113, rfl⟩
abbrev main_v15 : Ref sig .tc := ⟨.hbm, 114, rfl⟩
abbrev main_v16 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1000x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S4096x50x6_S204800x6 : S4096x50x6.ShapeCasts S204800x6
  slices_S204800x6_S204800x1_0_0 : S204800x6.Slices ![0, 0] S204800x1
  shapeCasts_S204800x1_S204800 : S204800x1.ShapeCasts S204800
  bcast_S_S204800 : S_.BroadcastsInDim S204800 (![] : Fin 0 → Fin S204800.rank)
  bcast_S204800_S204800x1_0 : S204800.BroadcastsInDim S204800x1 (![0] : Fin 1 → Fin S204800x1.rank)
  bcast_S_S204800x1 : S_.BroadcastsInDim S204800x1 (![] : Fin 0 → Fin S204800x1.rank)
  bcast_S1_S1x1_1 : S1.BroadcastsInDim S1x1 (![1] : Fin 1 → Fin S1x1.rank)
  bcast_S1x1_S204800x1_0_1 : S1x1.BroadcastsInDim S204800x1 (![0, 1] : Fin 2 → Fin S204800x1.rank)
  reducesTo_S204800x1_S204800_d1 : S204800x1.ReducesTo [1] S204800
  h_S_ : 0 < S_.numel
  bcast_S204800_S204800x8_0 : S204800.BroadcastsInDim S204800x8 (![0] : Fin 1 → Fin S204800x8.rank)
  bcast_S_S204800x8 : S_.BroadcastsInDim S204800x8 (![] : Fin 0 → Fin S204800x8.rank)
  slices_S204800x6_S204800x1_0_1 : S204800x6.Slices ![0, 1] S204800x1
  slices_S204800x6_S204800x1_0_2 : S204800x6.Slices ![0, 2] S204800x1
  slices_S204800x6_S204800x1_0_3 : S204800x6.Slices ![0, 3] S204800x1
  concatenates_S204800x8_S204800x8_S204800x8_S204800x8_S204800x32_d1 : Shape.Concatenates [S204800x8, S204800x8, S204800x8, S204800x8] S204800x32 1
  slices_S204800x6_S204800x2_0_4 : S204800x6.Slices ![0, 4] S204800x2
  inb_S4096x2_S4096x2_0_0 : ∀ a, (![0, 0] : Fin 2 → Nat) a + S4096x2.size a ≤ S4096x2.size a
  h_S4096x2 : 0 < S4096x2.numel
  shapeCasts_S4096x2_S4096x2 : S4096x2.ShapeCasts S4096x2
  slices_S4096x2_o0_0_S4096x1 : S4096x2.Slices ![0, 0] S4096x1
  iota_S1x1000_d1_w32 : S1x1000.Iotas .tc 32 [1]
  broadcasts_S4096x1_S4096x1000 : S4096x1.Broadcasts S4096x1000
  broadcasts_S1x1000_S4096x1000 : S1x1000.Broadcasts S4096x1000
  natLt_1_32 : 1 < 32
  inb_S1000x8_S1000x8_0_0 : ∀ a, (![0, 0] : Fin 2 → Nat) a + S1000x8.size a ≤ S1000x8.size a
  h_S1000x8 : 0 < S1000x8.numel
  slices_S4096x2_o0_1_S4096x1 : S4096x2.Slices ![0, 1] S4096x1
  iota_S1x100_d1_w32 : S1x100.Iotas .tc 32 [1]
  broadcasts_S4096x1_S4096x100 : S4096x1.Broadcasts S4096x100
  broadcasts_S1x100_S4096x100 : S1x100.Broadcasts S4096x100
  inb_S100x8_S100x8_0_0 : ∀ a, (![0, 0] : Fin 2 → Nat) a + S100x8.size a ≤ S100x8.size a
  h_S100x8 : 0 < S100x8.numel
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  concatenates_S4096x32_S4096x8_S4096x8_S4096x48_d1 : Shape.Concatenates [S4096x32, S4096x8, S4096x8] S4096x48 1
  inb_S48x32_S48x32_0_0 : ∀ a, (![0, 0] : Fin 2 → Nat) a + S48x32.size a ≤ S48x32.size a
  h_S48x32 : 0 < S48x32.numel
  inb_S32_S32_0 : ∀ a, (![0] : Fin 1 → Nat) a + S32.size a ≤ S32.size a
  h_S32 : 0 < S32.numel
  shapeCasts_S32_S1x32 : S32.ShapeCasts S1x32
  broadcasts_S1x32_S4096x32 : S1x32.Broadcasts S4096x32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S204800x1_S4096x50 : S204800x1.ShapeCasts S4096x50
  gather_S1000000x8_S204800x1_S204800x8_1_0_n_n_0_1_18_wf : GatherDims.WF S1000000x8 S204800x1 S204800x8 [1] [0] [] [0] [] 1 ![1, 8]
  gather_S500000x8_S204800x1_S204800x8_1_0_n_n_0_1_18_wf : GatherDims.WF S500000x8 S204800x1 S204800x8 [1] [0] [] [0] [] 1 ![1, 8]
  gather_S100000x8_S204800x1_S204800x8_1_0_n_n_0_1_18_wf : GatherDims.WF S100000x8 S204800x1 S204800x8 [1] [0] [] [0] [] 1 ![1, 8]
  gather_S10000x8_S204800x1_S204800x8_1_0_n_n_0_1_18_wf : GatherDims.WF S10000x8 S204800x1 S204800x8 [1] [0] [] [0] [] 1 ![1, 8]
  dot_S4096x1000_S1000x8_S4096x8_1_0_0_1_n_n_wf : DotDims.WF S4096x1000 S1000x8 S4096x8 [1] [0] [0] [1] [] []
  dot_S4096x100_S100x8_S4096x8_1_0_0_1_n_n_wf : DotDims.WF S4096x100 S100x8 S4096x8 [1] [0] [0] [1] [] []
  dot_S4096x48_S48x32_S4096x32_1_0_0_1_n_n_wf : DotDims.WF S4096x48 S48x32 S4096x32 [1] [0] [0] [1] [] []
  dot_S4096x32_S32x1_S4096x1_1_0_0_1_n_n_wf : DotDims.WF S4096x32 S32x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S204800x32.size a
  hwx0_0 : ∀ i : grid0.Coords, EltTy.bits .f32 = 32 ∨ (Rect.block (s := S204800x32) S4096x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x2.size a ≤ S204800x2.size a
  hwx0_1 : ∀ i : grid0.Coords, EltTy.bits .i32 = 32 ∨ (Rect.block (s := S204800x2) S4096x2.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x8.size a ≤ S1000x8.size a
  hwx0_2 : ∀ i : grid0.Coords, EltTy.bits .f32 = 32 ∨ (Rect.block (s := S1000x8) S1000x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x8.size a ≤ S100x8.size a
  hwx0_3 : ∀ i : grid0.Coords, EltTy.bits .f32 = 32 ∨ (Rect.block (s := S100x8) S100x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S48x32.size a ≤ S48x32.size a
  hwx0_4 : ∀ i : grid0.Coords, EltTy.bits .f32 = 32 ∨ (Rect.block (s := S48x32) S48x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S32x1.size a
  hwx0_6 : ∀ i : grid0.Coords, EltTy.bits .f32 = 32 ∨ (Rect.block (s := S32x1) S32x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x1.size a ≤ S204800x1.size a
  hwx0_8 : ∀ i : grid0.Coords, EltTy.bits .f32 = 32 ∨ (Rect.block (s := S204800x1) S4096x1.size (cc0_transform_8 i) (hinb0_8 i)).WholeWords (EltTy.packing .f32)

variable [Facts₀]

def gather_S1000000x8_S204800x1_S204800x8_1_0_n_n_0_1_18 : GatherDims S1000000x8 S204800x1 S204800x8 where
  offsetDims := [1]
  collapsedSliceDims := [0]
  operandBatchingDims := []
  startIndicesBatchingDims := []
  startIndexMap := [0]
  indexVectorDim := 1
  sliceSizes := ![1, 8]
  wf := gather_S1000000x8_S204800x1_S204800x8_1_0_n_n_0_1_18_wf
def gather_S500000x8_S204800x1_S204800x8_1_0_n_n_0_1_18 : GatherDims S500000x8 S204800x1 S204800x8 where
  offsetDims := [1]
  collapsedSliceDims := [0]
  operandBatchingDims := []
  startIndicesBatchingDims := []
  startIndexMap := [0]
  indexVectorDim := 1
  sliceSizes := ![1, 8]
  wf := gather_S500000x8_S204800x1_S204800x8_1_0_n_n_0_1_18_wf
def gather_S100000x8_S204800x1_S204800x8_1_0_n_n_0_1_18 : GatherDims S100000x8 S204800x1 S204800x8 where
  offsetDims := [1]
  collapsedSliceDims := [0]
  operandBatchingDims := []
  startIndicesBatchingDims := []
  startIndexMap := [0]
  indexVectorDim := 1
  sliceSizes := ![1, 8]
  wf := gather_S100000x8_S204800x1_S204800x8_1_0_n_n_0_1_18_wf
def gather_S10000x8_S204800x1_S204800x8_1_0_n_n_0_1_18 : GatherDims S10000x8 S204800x1 S204800x8 where
  offsetDims := [1]
  collapsedSliceDims := [0]
  operandBatchingDims := []
  startIndicesBatchingDims := []
  startIndexMap := [0]
  indexVectorDim := 1
  sliceSizes := ![1, 8]
  wf := gather_S10000x8_S204800x1_S204800x8_1_0_n_n_0_1_18_wf
def dot_S4096x1000_S1000x8_S4096x8_1_0_0_1_n_n : DotDims S4096x1000 S1000x8 S4096x8 where
  lhsContracting := [1]
  rhsContracting := [0]
  lhsNonContracting := [0]
  rhsNonContracting := [1]
  lhsBatch := []
  rhsBatch := []
  wf := dot_S4096x1000_S1000x8_S4096x8_1_0_0_1_n_n_wf
def dot_S4096x100_S100x8_S4096x8_1_0_0_1_n_n : DotDims S4096x100 S100x8 S4096x8 where
  lhsContracting := [1]
  rhsContracting := [0]
  lhsNonContracting := [0]
  rhsNonContracting := [1]
  lhsBatch := []
  rhsBatch := []
  wf := dot_S4096x100_S100x8_S4096x8_1_0_0_1_n_n_wf
def dot_S4096x48_S48x32_S4096x32_1_0_0_1_n_n : DotDims S4096x48 S48x32 S4096x32 where
  lhsContracting := [1]
  rhsContracting := [0]
  lhsNonContracting := [0]
  rhsNonContracting := [1]
  lhsBatch := []
  rhsBatch := []
  wf := dot_S4096x48_S48x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

abbrev win0_0 : Pipeline.Window sig grid0 :=
  Pipeline.Window.ofSpec (Memref.whole main_v13) S4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4096x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1000x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S100x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S48x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S32x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S4096x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x50x6 : Shape := ⟨3, ![4096, 50, 6]⟩
abbrev S1000000x8 : Shape := ⟨2, ![1000000, 8]⟩
abbrev S500000x8 : Shape := ⟨2, ![500000, 8]⟩
abbrev S100000x8 : Shape := ⟨2, ![100000, 8]⟩
abbrev S10000x8 : Shape := ⟨2, ![10000, 8]⟩
abbrev S1000x8 : Shape := ⟨2, ![1000, 8]⟩
abbrev S100x8 : Shape := ⟨2, ![100, 8]⟩
abbrev S48x32 : Shape := ⟨2, ![48, 32]⟩
abbrev S32 : Shape := ⟨1, ![32]⟩
abbrev S32x1 : Shape := ⟨2, ![32, 1]⟩
abbrev S1 : Shape := ⟨1, ![1]⟩
abbrev S4096x50x1 : Shape := ⟨3, ![4096, 50, 1]⟩
abbrev S4096x50 : Shape := ⟨2, ![4096, 50]⟩
abbrev S_ : Shape := ⟨0, ![]⟩
abbrev S4096x50x8 : Shape := ⟨3, ![4096, 50, 8]⟩
abbrev S4096x50x48 : Shape := ⟨3, ![4096, 50, 48]⟩
abbrev S204800x48 : Shape := ⟨2, ![204800, 48]⟩
abbrev S204800x32 : Shape := ⟨2, ![204800, 32]⟩
abbrev S1x32 : Shape := ⟨2, ![1, 32]⟩
abbrev S204800x1 : Shape := ⟨2, ![204800, 1]⟩
abbrev S1x1 : Shape := ⟨2, ![1, 1]⟩

abbrev nBuf : Space → Nat
  | .hbm => 103
  | .vmem => 0
  | .smem => 0
  | _ => 0

abbrev bufTy : (tb : Table) → Fin (tcTables nBuf tb) → BufTy
  | .hbm, ⟨0, _⟩ => ⟨S4096x50x6, .i32⟩
  | .hbm, ⟨1, _⟩ => ⟨S1000000x8, .f32⟩
  | .hbm, ⟨2, _⟩ => ⟨S500000x8, .f32⟩
  | .hbm, ⟨3, _⟩ => ⟨S100000x8, .f32⟩
  | .hbm, ⟨4, _⟩ => ⟨S10000x8, .f32⟩
  | .hbm, ⟨5, _⟩ => ⟨S1000x8, .f32⟩
  | .hbm, ⟨6, _⟩ => ⟨S100x8, .f32⟩
  | .hbm, ⟨7, _⟩ => ⟨S48x32, .f32⟩
  | .hbm, ⟨8, _⟩ => ⟨S32, .f32⟩
  | .hbm, ⟨9, _⟩ => ⟨S32x1, .f32⟩
  | .hbm, ⟨10, _⟩ => ⟨S1, .f32⟩
  | .hbm, ⟨11, _⟩ => ⟨S4096x50x1, .i32⟩
  | .hbm, ⟨12, _⟩ => ⟨S4096x50, .i32⟩
  | .hbm, ⟨13, _⟩ => ⟨S_, .i32⟩
  | .hbm, ⟨14, _⟩ => ⟨S4096x50, .i32⟩
  | .hbm, ⟨15, _⟩ => ⟨S4096x50, .i1⟩
  | .hbm, ⟨16, _⟩ => ⟨S_, .i32⟩
  | .hbm, ⟨17, _⟩ => ⟨S4096x50, .i32⟩
  | .hbm, ⟨18, _⟩ => ⟨S4096x50, .i32⟩
  | .hbm, ⟨19, _⟩ => ⟨S4096x50, .i32⟩
  | .hbm, ⟨20, _⟩ => ⟨S4096x50x1, .i32⟩
  | .hbm, ⟨21, _⟩ => ⟨S4096x50x8, .f32⟩
  | .hbm, ⟨22, _⟩ => ⟨S4096x50x1, .i32⟩
  | .hbm, ⟨23, _⟩ => ⟨S4096x50, .i32⟩
  | .hbm, ⟨24, _⟩ => ⟨S_, .i32⟩
  | .hbm, ⟨25, _⟩ => ⟨S4096x50, .i32⟩
  | .hbm, ⟨26, _⟩ => ⟨S4096x50, .i1⟩
  | .hbm, ⟨27, _⟩ => ⟨S_, .i32⟩
  | .hbm, ⟨28, _⟩ => ⟨S4096x50, .i32⟩
  | .hbm, ⟨29, _⟩ => ⟨S4096x50, .i32⟩
  | .hbm, ⟨30, _⟩ => ⟨S4096x50, .i32⟩
  | .hbm, ⟨31, _⟩ => ⟨S4096x50x1, .i32⟩
  | .hbm, ⟨32, _⟩ => ⟨S4096x50x8, .f32⟩
  | .hbm, ⟨33, _⟩ => ⟨S4096x50x1, .i32⟩
  | .hbm, ⟨34, _⟩ => ⟨S4096x50, .i32⟩
  | .hbm, ⟨35, _⟩ => ⟨S_, .i32⟩
  | .hbm, ⟨36, _⟩ => ⟨S4096x50, .i32⟩
  | .hbm, ⟨37, _⟩ => ⟨S4096x50, .i1⟩
  | .hbm, ⟨38, _⟩ => ⟨S_, .i32⟩
  | .hbm, ⟨39, _⟩ => ⟨S4096x50, .i32⟩
  | .hbm, ⟨40, _⟩ => ⟨S4096x50, .i32⟩
  | .hbm, ⟨41, _⟩ => ⟨S4096x50, .i32⟩
  | .hbm, ⟨42, _⟩ => ⟨S4096x50x1, .i32⟩
  | .hbm, ⟨43, _⟩ => ⟨S4096x50x8, .f32⟩
  | .hbm, ⟨44, _⟩ => ⟨S4096x50x1, .i32⟩
  | .hbm, ⟨45, _⟩ => ⟨S4096x50, .i32⟩
  | .hbm, ⟨46, _⟩ => ⟨S_, .i32⟩
  | .hbm, ⟨47, _⟩ => ⟨S4096x50, .i32⟩
  | .hbm, ⟨48, _⟩ => ⟨S4096x50, .i1⟩
  | .hbm, ⟨49, _⟩ => ⟨S_, .i32⟩
  | .hbm, ⟨50, _⟩ => ⟨S4096x50, .i32⟩
  | .hbm, ⟨51, _⟩ => ⟨S4096x50, .i32⟩
  | .hbm, ⟨52, _⟩ => ⟨S4096x50, .i32⟩
  | .hbm, ⟨53, _⟩ => ⟨S4096x50x1, .i32⟩
  | .hbm, ⟨54, _⟩ => ⟨S4096x50x8, .f32⟩
  | .hbm, ⟨55, _⟩ => ⟨S4096x50x1, .i32⟩
  | .hbm, ⟨56, _⟩ => ⟨S4096x50, .i32⟩
  | .hbm, ⟨57, _⟩ => ⟨S_, .i32⟩
  | .hbm, ⟨58, _⟩ => ⟨S4096x50, .i32⟩
  | .hbm, ⟨59, _⟩ => ⟨S4096x50, .i1⟩
  | .hbm, ⟨60, _⟩ => ⟨S_, .i32⟩
  | .hbm, ⟨61, _⟩ => ⟨S4096x50, .i32⟩
  | .hbm, ⟨62, _⟩ => ⟨S4096x50, .i32⟩
  | .hbm, ⟨63, _⟩ => ⟨S4096x50, .i32⟩
  | .hbm, ⟨64, _⟩ => ⟨S4096x50x1, .i32⟩
  | .hbm, ⟨65, _⟩ => ⟨S4096x50x8, .f32⟩
  | .hbm, ⟨66, _⟩ => ⟨S4096x50x1, .i32⟩
  | .hbm, ⟨67, _⟩ => ⟨S4096x50, .i32⟩
  | .hbm, ⟨68, _⟩ => ⟨S_, .i32⟩
  | .hbm, ⟨69, _⟩ => ⟨S4096x50, .i32⟩
  | .hbm, ⟨70, _⟩ => ⟨S4096x50, .i1⟩
  | .hbm, ⟨71, _⟩ => ⟨S_, .i32⟩
  | .hbm, ⟨72, _⟩ => ⟨S4096x50, .i32⟩
  | .hbm, ⟨73, _⟩ => ⟨S4096x50, .i32⟩
  | .hbm, ⟨74, _⟩ => ⟨S4096x50, .i32⟩
  | .hbm, ⟨75, _⟩ => ⟨S4096x50x1, .i32⟩
  | .hbm, ⟨76, _⟩ => ⟨S4096x50x8, .f32⟩
  | .hbm, ⟨77, _⟩ => ⟨S4096x50x48, .f32⟩
  | .hbm, ⟨78, _⟩ => ⟨S204800x48, .f32⟩
  | .hbm, ⟨79, _⟩ => ⟨S204800x32, .f32⟩
  | .hbm, ⟨80, _⟩ => ⟨S1x32, .f32⟩
  | .hbm, ⟨81, _⟩ => ⟨S204800x32, .f32⟩
  | .hbm, ⟨82, _⟩ => ⟨S204800x32, .f32⟩
  | .hbm, ⟨83, _⟩ => ⟨S_, .f32⟩
  | .hbm, ⟨84, _⟩ => ⟨S204800x32, .f32⟩
  | .hbm, ⟨85, _⟩ => ⟨S204800x32, .i1⟩
  | .hbm, ⟨86, _⟩ => ⟨S_, .f32⟩
  | .hbm, ⟨87, _⟩ => ⟨S204800x32, .f32⟩
  | .hbm, ⟨88, _⟩ => ⟨S204800x32, .i1⟩
  | .hbm, ⟨89, _⟩ => ⟨S_, .f32⟩
  | .hbm, ⟨90, _⟩ => ⟨S_, .f32⟩
  | .hbm, ⟨91, _⟩ => ⟨S204800x32, .f32⟩
  | .hbm, ⟨92, _⟩ => ⟨S204800x32, .f32⟩
  | .hbm, ⟨93, _⟩ => ⟨S204800x32, .f32⟩
  | .hbm, ⟨94, _⟩ => ⟨S_, .f32⟩
  | .hbm, ⟨95, _⟩ => ⟨S204800x32, .f32⟩
  | .hbm, ⟨96, _⟩ => ⟨S204800x32, .f32⟩
  | .hbm, ⟨97, _⟩ => ⟨S204800x32, .f32⟩
  | .hbm, ⟨98, _⟩ => ⟨S204800x1, .f32⟩
  | .hbm, ⟨99, _⟩ => ⟨S1x1, .f32⟩
  | .hbm, ⟨100, _⟩ => ⟨S204800x1, .f32⟩
  | .hbm, ⟨101, _⟩ => ⟨S204800x1, .f32⟩
  | .hbm, ⟨102, _⟩ => ⟨S4096x50, .f32⟩
  | _, _ => ⟨S4096x50x6, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call0_cst : Ref sig .tc := ⟨.hbm, 83, rfl⟩
abbrev main_call0_v0 : Ref sig .tc := ⟨.hbm, 84, rfl⟩
abbrev main_call0_v1 : Ref sig .tc := ⟨.hbm, 85, rfl⟩
abbrev main_call0_cst_0 : Ref sig .tc := ⟨.hbm, 86, rfl⟩
abbrev main_call0_v2 : Ref sig .tc := ⟨.hbm, 87, rfl⟩
abbrev main_call0_v3 : Ref sig .tc := ⟨.hbm, 88, rfl⟩
abbrev main_call0_cst_1 : Ref sig .tc := ⟨.hbm, 89, rfl⟩
abbrev main_call0_call0_v0 : Ref sig .tc := ⟨.hbm, 90, rfl⟩
abbrev main_call0_call0_v1 : Ref sig .tc := ⟨.hbm, 91, rfl⟩
abbrev main_call0_v4 : Ref sig .tc := ⟨.hbm, 92, rfl⟩
abbrev main_call0_v5 : Ref sig .tc := ⟨.hbm, 93, rfl⟩
abbrev main_call0_cst_2 : Ref sig .tc := ⟨.hbm, 94, rfl⟩
abbrev main_call0_v6 : Ref sig .tc := ⟨.hbm, 95, rfl⟩
abbrev main_call0_v7 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩

abbrev nD : Nat := 1
abbrev τ : Topo := Topo.v7x

variable {F : FTy → Type} [FloatOps F]

class Facts₀ : Prop where
  slices_S4096x50x6_S4096x50x1_0_0_0 : S4096x50x6.Slices ![0, 0, 0] S4096x50x1
  shapeCasts_S4096x50x1_S4096x50 : S4096x50x1.ShapeCasts S4096x50
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  slices_S4096x50x6_S4096x50x1_0_0_1 : S4096x50x6.Slices ![0, 0, 1] S4096x50x1
  slices_S4096x50x6_S4096x50x1_0_0_2 : S4096x50x6.Slices ![0, 0, 2] S4096x50x1
  slices_S4096x50x6_S4096x50x1_0_0_3 : S4096x50x6.Slices ![0, 0, 3] S4096x50x1
  slices_S4096x50x6_S4096x50x1_0_0_4 : S4096x50x6.Slices ![0, 0, 4] S4096x50x1
  slices_S4096x50x6_S4096x50x1_0_0_5 : S4096x50x6.Slices ![0, 0, 5] S4096x50x1
  concatenates_S4096x50x8_S4096x50x8_S4096x50x8_S4096x50x8_S4096x50x8_S4096x50x8_S4096x50x48_d2 : Shape.Concatenates [S4096x50x8, S4096x50x8, S4096x50x8, S4096x50x8, S4096x50x8, S4096x50x8] S4096x50x48 2
  shapeCasts_S4096x50x48_S204800x48 : S4096x50x48.ShapeCasts S204800x48
  bcast_S32_S1x32_1 : S32.BroadcastsInDim S1x32 (![1] : Fin 1 → Fin S1x32.rank)
  bcast_S1x32_S204800x32_0_1 : S1x32.BroadcastsInDim S204800x32 (![0, 1] : Fin 2 → Fin S204800x32.rank)
  bcast_S_S204800x32 : S_.BroadcastsInDim S204800x32 (![] : Fin 0 → Fin S204800x32.rank)
  bcast_S1_S1x1_1 : S1.BroadcastsInDim S1x1 (![1] : Fin 1 → Fin S1x1.rank)
  bcast_S1x1_S204800x1_0_1 : S1x1.BroadcastsInDim S204800x1 (![0, 1] : Fin 2 → Fin S204800x1.rank)
  shapeCasts_S204800x1_S4096x50 : S204800x1.ShapeCasts S4096x50
  gather_S1000000x8_S4096x50x1_S4096x50x8_2_0_n_n_0_2_18_wf : GatherDims.WF S1000000x8 S4096x50x1 S4096x50x8 [2] [0] [] [0] [] 2 ![1, 8]
  gather_S500000x8_S4096x50x1_S4096x50x8_2_0_n_n_0_2_18_wf : GatherDims.WF S500000x8 S4096x50x1 S4096x50x8 [2] [0] [] [0] [] 2 ![1, 8]
  gather_S100000x8_S4096x50x1_S4096x50x8_2_0_n_n_0_2_18_wf : GatherDims.WF S100000x8 S4096x50x1 S4096x50x8 [2] [0] [] [0] [] 2 ![1, 8]
  gather_S10000x8_S4096x50x1_S4096x50x8_2_0_n_n_0_2_18_wf : GatherDims.WF S10000x8 S4096x50x1 S4096x50x8 [2] [0] [] [0] [] 2 ![1, 8]
  gather_S1000x8_S4096x50x1_S4096x50x8_2_0_n_n_0_2_18_wf : GatherDims.WF S1000x8 S4096x50x1 S4096x50x8 [2] [0] [] [0] [] 2 ![1, 8]
  gather_S100x8_S4096x50x1_S4096x50x8_2_0_n_n_0_2_18_wf : GatherDims.WF S100x8 S4096x50x1 S4096x50x8 [2] [0] [] [0] [] 2 ![1, 8]
  dot_S204800x48_S48x32_S204800x32_1_0_0_1_n_n_wf : DotDims.WF S204800x48 S48x32 S204800x32 [1] [0] [0] [1] [] []
  dot_S204800x32_S32x1_S204800x1_1_0_0_1_n_n_wf : DotDims.WF S204800x32 S32x1 S204800x1 [1] [0] [0] [1] [] []

variable [Facts₀]

def gather_S1000000x8_S4096x50x1_S4096x50x8_2_0_n_n_0_2_18 : GatherDims S1000000x8 S4096x50x1 S4096x50x8 where
  offsetDims := [2]
  collapsedSliceDims := [0]
  operandBatchingDims := []
  startIndicesBatchingDims := []
  startIndexMap := [0]
  indexVectorDim := 2
  sliceSizes := ![1, 8]
  wf := gather_S1000000x8_S4096x50x1_S4096x50x8_2_0_n_n_0_2_18_wf
def gather_S500000x8_S4096x50x1_S4096x50x8_2_0_n_n_0_2_18 : GatherDims S500000x8 S4096x50x1 S4096x50x8 where
  offsetDims := [2]
  collapsedSliceDims := [0]
  operandBatchingDims := []
  startIndicesBatchingDims := []
  startIndexMap := [0]
  indexVectorDim := 2
  sliceSizes := ![1, 8]
  wf := gather_S500000x8_S4096x50x1_S4096x50x8_2_0_n_n_0_2_18_wf
def gather_S100000x8_S4096x50x1_S4096x50x8_2_0_n_n_0_2_18 : GatherDims S100000x8 S4096x50x1 S4096x50x8 where
  offsetDims := [2]
  collapsedSliceDims := [0]
  operandBatchingDims := []
  startIndicesBatchingDims := []
  startIndexMap := [0]
  indexVectorDim := 2
  sliceSizes := ![1, 8]
  wf := gather_S100000x8_S4096x50x1_S4096x50x8_2_0_n_n_0_2_18_wf
def gather_S10000x8_S4096x50x1_S4096x50x8_2_0_n_n_0_2_18 : GatherDims S10000x8 S4096x50x1 S4096x50x8 where
  offsetDims := [2]
  collapsedSliceDims := [0]
  operandBatchingDims := []
  startIndicesBatchingDims := []
  startIndexMap := [0]
  indexVectorDim := 2
  sliceSizes := ![1, 8]
  wf := gather_S10000x8_S4096x50x1_S4096x50x8_2_0_n_n_0_2_18_wf
def gather_S1000x8_S4096x50x1_S4096x50x8_2_0_n_n_0_2_18 : GatherDims S1000x8 S4096x50x1 S4096x50x8 where
  offsetDims := [2]
  collapsedSliceDims := [0]
  operandBatchingDims := []
  startIndicesBatchingDims := []
  startIndexMap := [0]
  indexVectorDim := 2
  sliceSizes := ![1, 8]
  wf := gather_S1000x8_S4096x50x1_S4096x50x8_2_0_n_n_0_2_18_wf
def gather_S100x8_S4096x50x1_S4096x50x8_2_0_n_n_0_2_18 : GatherDims S100x8 S4096x50x1 S4096x50x8 where
  offsetDims := [2]
  collapsedSliceDims := [0]
  operandBatchingDims := []
  startIndicesBatchingDims := []
  startIndexMap := [0]
  indexVectorDim := 2
  sliceSizes := ![1, 8]
  wf := gather_S100x8_S4096x50x1_S4096x50x8_2_0_n_n_0_2_18_wf
def dot_S204800x48_S48x32_S204800x32_1_0_0_1_n_n : DotDims S204800x48 S48x32 S204800x32 where
  lhsContracting := [1]
  rhsContracting := [0]
  lhsNonContracting := [0]
  rhsNonContracting := [1]
  lhsBatch := []
  rhsBatch := []
  wf := dot_S204800x48_S48x32_S204800x32_1_0_0_1_n_n_wf
def dot_S204800x32_S32x1_S204800x1_1_0_0_1_n_n : DotDims S204800x32 S32x1 S204800x1 where
  lhsContracting := [1]
  rhsContracting := [0]
  lhsNonContracting := [0]
  rhsNonContracting := [1]
  lhsBatch := []
  rhsBatch := []
  wf := dot_S204800x32_S32x1_S204800x1_1_0_0_1_n_n_wf

class Facts : Prop extends Facts₀ where

variable [Facts]
-- ==== Proof.KFrameB.lean ====
/-
  The frame of the kernel program: its host lines, the one pallas region over 50 grid points, and the closing reshape
  run to the end without a fault and leave the eleven argument arrays as they were; and what the region leaves in its
  output array.

  The region stages eight inputs — a block of 4096 rows of the 32 host-gathered features and of the two small-table
  ids, moving with the grid point, and six arrays fetched whole once (the two small tables, both weight matrices, both
  biases) — and one output, the block of 4096 results at the point. The body loads every input block whole, computes,
  and stores the output block whole; so after the body each input buffer holds its block and the output buffer holds
  `storedBlock` of the input blocks. The host lines before the region write only their own result buffers, never an
  argument; the one line after it reshapes the output array.
-/
import proofs.«407622_j82471962018216_3_alg».proof.Proof.Gen.Kernel.Launch
import proofs.«407622_j82471962018216_3_alg».proof.Proof.Gen.Kernel.Skeleton
import proofs.«407622_j82471962018216_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The host lines before the region, stretch by stretch: the reshape of the ids, then per large table the column of
    ids and the row gather, then the four gathered arrays side by side and the two small-table id columns. -/
abbrev linesBefore : List (List (HloOp τ sig (Elt F))) :=
  [hostOps0, hostOps0_1, hostOps0_2, hostOps0_3, hostOps0_4, hostOps0_5, hostOps0_6, hostOps0_7, hostOps0_8]

/-- A core's buffer contents when the region is entered: the launch contents after those lines. -/
abbrev atEntry0 (c : Dev nD) : Valuation τ sig (Elt F) :=
  StableHlo.after (List.flatten [hostOps0, hostOps0_1, hostOps0_2, hostOps0_3, hostOps0_4, hostOps0_5, hostOps0_6, hostOps0_7, hostOps0_8]) (fun b => m (c, b))
/-- The same, read at a TensorCore reference. -/
abbrev atEntry (c : Dev nD) (b : Ref sig .tc) : Buf (Elt F) ((c : Thread nD τ).loc b) := atEntry0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is those lines, the region, and one more line: it reduces to the region continued by that line, at the
    contents the earlier lines leave. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main linesBefore [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The line after the region touches the region's arrays and the buffers that bypass it only, -/
theorem after_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem after_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the region's arrays (it writes the reshaped result only). -/
theorem after_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The arguments at the region's entry and at the end -/

/-- No line before the region writes argument 0: the region finds it as launched. -/
theorem entry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the region writes argument 1: the region finds it as launched. -/
theorem entry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the region writes argument 2: the region finds it as launched. -/
theorem entry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the region writes argument 3: the region finds it as launched. -/
theorem entry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the region writes argument 4: the region finds it as launched. -/
theorem entry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the region writes argument 5: the region finds it as launched. -/
theorem entry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the region writes argument 6: the region finds it as launched. -/
theorem entry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the region writes argument 7: the region finds it as launched. -/
theorem entry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the region writes argument 8: the region finds it as launched. -/
theorem entry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the region writes argument 9: the region finds it as launched. -/
theorem entry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the region writes argument 10: the region finds it as launched. -/
theorem entry_arg10 (c : Dev nD) : atEntry m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 0, which the region does not stage, ends as launched. -/
theorem end_arg0 (dats : (p : Fin _) → (c : Dev nD) → Dat τ (Elt F) Unit ℕ (UR sig nD τ) ℕ (cfgs p) c) (c : Dev nD) :
    Pipeline.afterTail₀ cfgs dats 0 (atEntry0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (atEntry0 m c) _ main_arg0 (by exact (by decide : ∀ w, Pipeline.arrRef spec0 w ≠ main_arg0))]
  exact entry_arg0 m c

/-- Nor does the line after it: argument 1, which the region does not stage, ends as launched. -/
theorem end_arg1 (dats : (p : Fin _) → (c : Dev nD) → Dat τ (Elt F) Unit ℕ (UR sig nD τ) ℕ (cfgs p) c) (c : Dev nD) :
    Pipeline.afterTail₀ cfgs dats 0 (atEntry0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (atEntry0 m c) _ main_arg1 (by exact (by decide : ∀ w, Pipeline.arrRef spec0 w ≠ main_arg1))]
  exact entry_arg1 m c

/-- Nor does the line after it: argument 2, which the region does not stage, ends as launched. -/
theorem end_arg2 (dats : (p : Fin _) → (c : Dev nD) → Dat τ (Elt F) Unit ℕ (UR sig nD τ) ℕ (cfgs p) c) (c : Dev nD) :
    Pipeline.afterTail₀ cfgs dats 0 (atEntry0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (atEntry0 m c) _ main_arg2 (by exact (by decide : ∀ w, Pipeline.arrRef spec0 w ≠ main_arg2))]
  exact entry_arg2 m c

/-- Nor does the line after it: argument 3, which the region does not stage, ends as launched. -/
theorem end_arg3 (dats : (p : Fin _) → (c : Dev nD) → Dat τ (Elt F) Unit ℕ (UR sig nD τ) ℕ (cfgs p) c) (c : Dev nD) :
    Pipeline.afterTail₀ cfgs dats 0 (atEntry0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (atEntry0 m c) _ main_arg3 (by exact (by decide : ∀ w, Pipeline.arrRef spec0 w ≠ main_arg3))]
  exact entry_arg3 m c

/-- Nor does the line after it: argument 4, which the region does not stage, ends as launched. -/
theorem end_arg4 (dats : (p : Fin _) → (c : Dev nD) → Dat τ (Elt F) Unit ℕ (UR sig nD τ) ℕ (cfgs p) c) (c : Dev nD) :
    Pipeline.afterTail₀ cfgs dats 0 (atEntry0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (atEntry0 m c) _ main_arg4 (by exact (by decide : ∀ w, Pipeline.arrRef spec0 w ≠ main_arg4))]
  exact entry_arg4 m c

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current staging buffer holds its block at every point, fetched there or not (where it is not
    fetched its block index has not moved), for any proof data over the entry contents that leaves the block in place. -/
theorem before0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, fetched there or not (where it is not
    fetched its block index has not moved), for any proof data over the entry contents that leaves the block in place. -/
theorem before1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every point, fetched there or not (where it is not
    fetched its block index has not moved), for any proof data over the entry contents that leaves the block in place. -/
theorem before2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds its block at every point, fetched there or not (where it is not
    fetched its block index has not moved), for any proof data over the entry contents that leaves the block in place. -/
theorem before3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's current staging buffer holds its block at every point, fetched there or not (where it is not
    fetched its block index has not moved), for any proof data over the entry contents that leaves the block in place. -/
theorem before4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Input window 5's current staging buffer holds its block at every point, fetched there or not (where it is not
    fetched its block index has not moved), for any proof data over the entry contents that leaves the block in place. -/
theorem before5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- Input window 6's current staging buffer holds its block at every point, fetched there or not (where it is not
    fetched its block index has not moved), for any proof data over the entry contents that leaves the block in place. -/
theorem before6_of {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-- Input window 7's current staging buffer holds its block at every point, fetched there or not (where it is not
    fetched its block index has not moved), for any proof data over the entry contents that leaves the block in place. -/
theorem before7_of {c : Dev nD} (dat : Dat τ (Elt F) Unit ℕ (UR sig nD τ) ℕ cfg0 c) (hA : dat.A 7 = atEntry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from the region's run -/

/-- For any proof data over the entry contents, a run that ends with every array of the region at what the proof
    data says and every other buffer as the closing line leaves it ends with the eleven arguments as launched: a staged
    argument is an input window's array, which the region never writes; an unstaged one bypasses the region. -/
theorem frame_of (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (Pipeline.afterTail₀ cfgs dats 0 (atEntry0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (end_arg0 m dats c),
      ((h c).2 main_arg1 (Pipeline.mem_restRefs_of main_arg1 (by decide) (by decide))).trans (end_arg1 m dats c),
      ((h c).2 main_arg2 (Pipeline.mem_restRefs_of main_arg2 (by decide) (by decide))).trans (end_arg2 m dats c),
      ((h c).2 main_arg3 (Pipeline.mem_restRefs_of main_arg3 (by decide) (by decide))).trans (end_arg3 m dats c),
      ((h c).2 main_arg4 (Pipeline.mem_restRefs_of main_arg4 (by decide) (by decide))).trans (end_arg4 m dats c),
      ((h c).1 2).trans (((dats 0 c).arrAt_in 2 rfl _).trans ((hA c 2).trans (entry_arg5 m c))),
      ((h c).1 3).trans (((dats 0 c).arrAt_in 3 rfl _).trans ((hA c 3).trans (entry_arg6 m c))),
      ((h c).1 4).trans (((dats 0 c).arrAt_in 4 rfl _).trans ((hA c 4).trans (entry_arg7 m c))),
      ((h c).1 5).trans (((dats 0 c).arrAt_in 5 rfl _).trans ((hA c 5).trans (entry_arg8 m c))),
      ((h c).1 6).trans (((dats 0 c).arrAt_in 6 rfl _).trans ((hA c 6).trans (entry_arg9 m c))),
      ((h c).1 7).trans (((dats 0 c).arrAt_in 7 rfl _).trans ((hA c 7).trans (entry_arg10 m c)))⟩) h

/-! ## The body -/

abbrev rPre : Rect S4096x32 := Rect.unit (s := S4096x32) ![0, 0] S4096x32.size inb_S4096x32_S4096x32_0_0
abbrev rIds : Rect S4096x2 := Rect.unit (s := S4096x2) ![0, 0] S4096x2.size inb_S4096x2_S4096x2_0_0
abbrev rT4 : Rect S1000x8 := Rect.unit (s := S1000x8) ![0, 0] S1000x8.size inb_S1000x8_S1000x8_0_0
abbrev rT5 : Rect S100x8 := Rect.unit (s := S100x8) ![0, 0] S100x8.size inb_S100x8_S100x8_0_0
abbrev rW1 : Rect S48x32 := Rect.unit (s := S48x32) ![0, 0] S48x32.size inb_S48x32_S48x32_0_0
abbrev rB1 : Rect S32 := Rect.unit (s := S32) ![0] S32.size inb_S32_S32_0
abbrev rW2 : Rect S32x1 := Rect.unit (s := S32x1) ![0, 0] S32x1.size inb_S32x1_S32x1_0_0
abbrev rB2 : Rect S1 := Rect.unit (s := S1) ![0] S1.size inb_S1_S1_0
abbrev rOut : Rect S4096x1 := Rect.unit (s := S4096x1) ![0, 0] S4096x1.size inb_S4096x1_S4096x1_0_0

/-- What the body leaves in the output buffer, from the eight input blocks: its one store covers the buffer. -/
def storedBlock (x0 : Vec F S4096x32 .f32) (x1 : Vec F S4096x2 .i32) (x2 : Vec F S1000x8 .f32) (x3 : Vec F S100x8 .f32) (x4 : Vec F S48x32 .f32)
    (x5 : Vec F S32 .f32) (x6 : Vec F S32x1 .f32) (x7 : Vec F S1 .f32) : Vec F S4096x1 .f32 :=
  View.canon [⟨rOut, k0_pay1 (k0_pay2 (View.ld x1 rIds) (View.ld x2 rT4) (View.ld x3 rT5) (View.ld x0 rPre) (View.ld x4 rW1) (View.ld x5 rB1) (View.ld x6 rW2)) (k0_pay3 (View.ld x7 rB2))⟩]

/-- The store's rectangle is the whole buffer. -/
theorem stored_cover (p0 : Vec F S4096x1 .f32) (y : S4096x1.Idx) :
    ∃ pc ∈ ([⟨rOut, p0⟩] : List (View.Piece (Elt F) S4096x1 .f32)), y ∈ pc.1.set :=
  View.cover_of_tiled [⟨rOut, p0⟩] S4096x1.size (by rfl) y

set_option maxHeartbeats 4000000 in
/-- The body on whole staging buffers, the inputs' at contents `x0 … x7` and the output's at anything, runs to its end
    holding the inputs' as they were and the output's at `storedBlock` of them. -/
theorem body_triple (c : Dev nD) (E : Set ℕ) (i : grid0.Coords)
    (arg1 : Memref sig .tc .vmem S4096x32 .f32) (harg1 : arg1.IsWhole) (arg2 : Memref sig .tc .vmem S4096x2 .i32) (harg2 : arg2.IsWhole) (arg3 : Memref sig .tc .vmem S1000x8 .f32) (harg3 : arg3.IsWhole) (arg4 : Memref sig .tc .vmem S100x8 .f32) (harg4 : arg4.IsWhole) (arg5 : Memref sig .tc .vmem S48x32 .f32) (harg5 : arg5.IsWhole) (arg6 : Memref sig .tc .vmem S32 .f32) (harg6 : arg6.IsWhole) (arg7 : Memref sig .tc .vmem S32x1 .f32) (harg7 : arg7.IsWhole) (arg8 : Memref sig .tc .vmem S1 .f32) (harg8 : arg8.IsWhole) (arg9 : Memref sig .tc .vmem S4096x1 .f32) (harg9 : arg9.IsWhole)
    (x0 : Vec F S4096x32 .f32) (x1 : Vec F S4096x2 .i32) (x2 : Vec F S1000x8 .f32) (x3 : Vec F S100x8 .f32) (x4 : Vec F S48x32 .f32) (x5 : Vec F S32 .f32) (x6 : Vec F S32x1 .f32) (x7 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (storedBlock x0 x1 x2 x3 x4 x5 x6 x7)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (stored_cover _)

/-! ## The region's proof data -/

/-- On core `c`: the arrays as the region finds them; after the body at point `t` each input buffer at its block and
    the output buffer at `storedBlock` of the input blocks; the invariant says nothing beyond the class's own; nothing
    owed; full shares. -/
def data (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => storedBlock (blockAt m c 0 t) (blockAt m c 1 t) (blockAt m c 2 t) (blockAt m c 3 t) (blockAt m c 4 t) (blockAt m c 5 t) (blockAt m c 6 t) (blockAt m c 7 t)
  Φ _ := Pipeline.ΦA spec0 c
  q _ := fullShare
  owed _ := 0

theorem data_A (c : Dev nD) (w : Fin cfg0.W) : (data m 0 c).A w = atEntry m c (Pipeline.arrRef spec0 w) := by
  dsimp only [data]

theorem after0 (c : Dev nD) (t : Fin cfg0.N) : (data m 0 c).after 0 t = blockAt m c 0 t := by dsimp only [data]
theorem after1 (c : Dev nD) (t : Fin cfg0.N) : (data m 0 c).after 1 t = blockAt m c 1 t := by dsimp only [data]
theorem after2 (c : Dev nD) (t : Fin cfg0.N) : (data m 0 c).after 2 t = blockAt m c 2 t := by dsimp only [data]
theorem after3 (c : Dev nD) (t : Fin cfg0.N) : (data m 0 c).after 3 t = blockAt m c 3 t := by dsimp only [data]
theorem after4 (c : Dev nD) (t : Fin cfg0.N) : (data m 0 c).after 4 t = blockAt m c 4 t := by dsimp only [data]
theorem after5 (c : Dev nD) (t : Fin cfg0.N) : (data m 0 c).after 5 t = blockAt m c 5 t := by dsimp only [data]
theorem after6 (c : Dev nD) (t : Fin cfg0.N) : (data m 0 c).after 6 t = blockAt m c 6 t := by dsimp only [data]
theorem after7 (c : Dev nD) (t : Fin cfg0.N) : (data m 0 c).after 7 t = blockAt m c 7 t := by dsimp only [data]
theorem after8 (c : Dev nD) (t : Fin cfg0.N) : (data m 0 c).after 8 t = storedBlock (blockAt m c 0 t) (blockAt m c 1 t) (blockAt m c 2 t) (blockAt m c 3 t) (blockAt m c 4 t) (blockAt m c 5 t) (blockAt m c 6 t) (blockAt m c 7 t) := by dsimp only [data]

theorem before0 (c : Dev nD) (t : Fin cfg0.N) (d) : (data m 0 c).before 0 t d = blockAt m c 0 t :=
  before0_of m (data m 0 c) (data_A m c 0) (after0 m c) t d
theorem before1 (c : Dev nD) (t : Fin cfg0.N) (d) : (data m 0 c).before 1 t d = blockAt m c 1 t :=
  before1_of m (data m 0 c) (data_A m c 1) (after1 m c) t d
theorem before2 (c : Dev nD) (t : Fin cfg0.N) (d) : (data m 0 c).before 2 t d = blockAt m c 2 t :=
  before2_of m (data m 0 c) (data_A m c 2) (after2 m c) t d
theorem before3 (c : Dev nD) (t : Fin cfg0.N) (d) : (data m 0 c).before 3 t d = blockAt m c 3 t :=
  before3_of m (data m 0 c) (data_A m c 3) (after3 m c) t d
theorem before4 (c : Dev nD) (t : Fin cfg0.N) (d) : (data m 0 c).before 4 t d = blockAt m c 4 t :=
  before4_of m (data m 0 c) (data_A m c 4) (after4 m c) t d
theorem before5 (c : Dev nD) (t : Fin cfg0.N) (d) : (data m 0 c).before 5 t d = blockAt m c 5 t :=
  before5_of m (data m 0 c) (data_A m c 5) (after5 m c) t d
theorem before6 (c : Dev nD) (t : Fin cfg0.N) (d) : (data m 0 c).before 6 t d = blockAt m c 6 t :=
  before6_of m (data m 0 c) (data_A m c 6) (after6 m c) t d
theorem before7 (c : Dev nD) (t : Fin cfg0.N) (d) : (data m 0 c).before 7 t d = blockAt m c 7 t :=
  before7_of m (data m 0 c) (data_A m c 7) (after7 m c) t d

/-! ## The body obligation -/

/-- What the body is called with at point `t`, the windows one by one, -/
def bodyPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d))
    ∗ (∃ d, owns (c : Thread nD τ) (st0_8 t) fullShare ((data m 0 c).before 8 t d)))

/-- and what it returns. -/
def bodyPost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t)
    ∗ owns (c : Thread nD τ) (st0_7 t) fullShare ((data m 0 c).after 7 t)
    ∗ owns (c : Thread nD τ) (st0_8 t) fullShare ((data m 0 c).after 8 t))

set_option maxHeartbeats 1000000 in
/-- The body at any point: the inputs' buffers hold their blocks, so `body_triple` applies; the invariant and what the
    core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (data m 0 c).Φ t.succ = (data m 0 c).Φ t.castSucc from rfl,
    show (data m 0 c).owesAt () t.succ = (data m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_triple c Set.univ (grid0.coords t) _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation (c : Dev nD) : BodyObligation (data (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of the program terminates, and every final state
    has each array of the region at what the proof data computes — an input as the region found it, the output
    overwritten block by block by what the body stored — and every other buffer as the closing line leaves it. -/
theorem run_region : θ_run defs (onTc (τ := τ) (main (F := F))) (s₀ m ρ) (Pipeline.FramePost cfgs (data m) 0 (Pipeline.afterTail₀ cfgs (data m) 0 (atEntry0 m) [hostOps1])) :=
  Pipeline.θ_run_frame_around cfgs (data m) (0 : Fin 1) launch0 defs₀ Variants.none m ρ main
    (hbody := fun c => (body_obligation m c).loose) (hshare := fun c => (data m 0 c).share_full fun _ => rfl)
    (howed := fun _ _ => rfl) (V₀ := atEntry0 m) (opss := [hostOps1]) (hsub := after_sub) (hfresh := after_fresh) (hkeep := after_keeps)
    (hmain := main_around m Variants.none) (hA := data_A m) (hΦ := fun _ _ => rfl)

/-- The program runs to the end, faults nowhere, and leaves its eleven arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (data m) (data_A m) (run_region m ρ)

end Cert.Kernel.Hand

end
-- ==== Proof.KFrameI.lean ====
/-
  The frame of the kernel program: its host lines, the one pallas region over 50 grid points, and the closing reshape
  run to the end without a fault and leave the eleven argument arrays as they were; and what the region leaves in its
  output array.

  The region stages eight inputs — a block of 4096 rows of the 32 host-gathered features and of the two small-table
  ids, moving with the grid point, and six arrays fetched whole once (the two small tables, both weight matrices, both
  biases) — and one output, the block of 4096 results at the point. The body loads every input block whole, computes,
  and stores the output block whole; so after the body each input buffer holds its block and the output buffer holds
  `storedBlock` of the input blocks. The host lines before the region write only their own result buffers, never an
  argument; the one line after it reshapes the output array.
-/
import proofs.«407622_j82471962018216_3_alg».proof.Proof.Gen.KernelIdeal.Launch
import proofs.«407622_j82471962018216_3_alg».proof.Proof.Gen.KernelIdeal.Skeleton
import proofs.«407622_j82471962018216_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The host lines before the region, stretch by stretch: the reshape of the ids, then per large table the column of
    ids and the row gather, then the four gathered arrays side by side and the two small-table id columns. -/
abbrev linesBefore : List (List (HloOp τ sig (Elt F))) :=
  [hostOps0, hostOps0_1, hostOps0_2, hostOps0_3, hostOps0_4, hostOps0_5, hostOps0_6, hostOps0_7, hostOps0_8]

/-- A core's buffer contents when the region is entered: the launch contents after those lines. -/
abbrev atEntry0 (c : Dev nD) : Valuation τ sig (Elt F) :=
  StableHlo.after (List.flatten [hostOps0, hostOps0_1, hostOps0_2, hostOps0_3, hostOps0_4, hostOps0_5, hostOps0_6, hostOps0_7, hostOps0_8]) (fun b => m (c, b))
/-- The same, read at a TensorCore reference. -/
abbrev atEntry (c : Dev nD) (b : Ref sig .tc) : Buf (Elt F) ((c : Thread nD τ).loc b) := atEntry0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is those lines, the region, and one more line: it reduces to the region continued by that line, at the
    contents the earlier lines leave. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main linesBefore [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The line after the region touches the region's arrays and the buffers that bypass it only, -/
theorem after_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem after_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the region's arrays (it writes the reshaped result only). -/
theorem after_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The arguments at the region's entry and at the end -/

/-- No line before the region writes argument 0: the region finds it as launched. -/
theorem entry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the region writes argument 1: the region finds it as launched. -/
theorem entry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the region writes argument 2: the region finds it as launched. -/
theorem entry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the region writes argument 3: the region finds it as launched. -/
theorem entry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the region writes argument 4: the region finds it as launched. -/
theorem entry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the region writes argument 5: the region finds it as launched. -/
theorem entry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the region writes argument 6: the region finds it as launched. -/
theorem entry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the region writes argument 7: the region finds it as launched. -/
theorem entry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the region writes argument 8: the region finds it as launched. -/
theorem entry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the region writes argument 9: the region finds it as launched. -/
theorem entry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the region writes argument 10: the region finds it as launched. -/
theorem entry_arg10 (c : Dev nD) : atEntry m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 0, which the region does not stage, ends as launched. -/
theorem end_arg0 (dats : (p : Fin _) → (c : Dev nD) → Dat τ (Elt F) Unit ℕ (UR sig nD τ) ℕ (cfgs p) c) (c : Dev nD) :
    Pipeline.afterTail₀ cfgs dats 0 (atEntry0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (atEntry0 m c) _ main_arg0 (by exact (by decide : ∀ w, Pipeline.arrRef spec0 w ≠ main_arg0))]
  exact entry_arg0 m c

/-- Nor does the line after it: argument 1, which the region does not stage, ends as launched. -/
theorem end_arg1 (dats : (p : Fin _) → (c : Dev nD) → Dat τ (Elt F) Unit ℕ (UR sig nD τ) ℕ (cfgs p) c) (c : Dev nD) :
    Pipeline.afterTail₀ cfgs dats 0 (atEntry0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (atEntry0 m c) _ main_arg1 (by exact (by decide : ∀ w, Pipeline.arrRef spec0 w ≠ main_arg1))]
  exact entry_arg1 m c

/-- Nor does the line after it: argument 2, which the region does not stage, ends as launched. -/
theorem end_arg2 (dats : (p : Fin _) → (c : Dev nD) → Dat τ (Elt F) Unit ℕ (UR sig nD τ) ℕ (cfgs p) c) (c : Dev nD) :
    Pipeline.afterTail₀ cfgs dats 0 (atEntry0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (atEntry0 m c) _ main_arg2 (by exact (by decide : ∀ w, Pipeline.arrRef spec0 w ≠ main_arg2))]
  exact entry_arg2 m c

/-- Nor does the line after it: argument 3, which the region does not stage, ends as launched. -/
theorem end_arg3 (dats : (p : Fin _) → (c : Dev nD) → Dat τ (Elt F) Unit ℕ (UR sig nD τ) ℕ (cfgs p) c) (c : Dev nD) :
    Pipeline.afterTail₀ cfgs dats 0 (atEntry0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (atEntry0 m c) _ main_arg3 (by exact (by decide : ∀ w, Pipeline.arrRef spec0 w ≠ main_arg3))]
  exact entry_arg3 m c

/-- Nor does the line after it: argument 4, which the region does not stage, ends as launched. -/
theorem end_arg4 (dats : (p : Fin _) → (c : Dev nD) → Dat τ (Elt F) Unit ℕ (UR sig nD τ) ℕ (cfgs p) c) (c : Dev nD) :
    Pipeline.afterTail₀ cfgs dats 0 (atEntry0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (atEntry0 m c) _ main_arg4 (by exact (by decide : ∀ w, Pipeline.arrRef spec0 w ≠ main_arg4))]
  exact entry_arg4 m c

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current staging buffer holds its block at every point, fetched there or not (where it is not
    fetched its block index has not moved), for any proof data over the entry contents that leaves the block in place. -/
theorem before0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, fetched there or not (where it is not
    fetched its block index has not moved), for any proof data over the entry contents that leaves the block in place. -/
theorem before1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every point, fetched there or not (where it is not
    fetched its block index has not moved), for any proof data over the entry contents that leaves the block in place. -/
theorem before2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds its block at every point, fetched there or not (where it is not
    fetched its block index has not moved), for any proof data over the entry contents that leaves the block in place. -/
theorem before3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's current staging buffer holds its block at every point, fetched there or not (where it is not
    fetched its block index has not moved), for any proof data over the entry contents that leaves the block in place. -/
theorem before4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Input window 5's current staging buffer holds its block at every point, fetched there or not (where it is not
    fetched its block index has not moved), for any proof data over the entry contents that leaves the block in place. -/
theorem before5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- Input window 6's current staging buffer holds its block at every point, fetched there or not (where it is not
    fetched its block index has not moved), for any proof data over the entry contents that leaves the block in place. -/
theorem before6_of {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-- Input window 7's current staging buffer holds its block at every point, fetched there or not (where it is not
    fetched its block index has not moved), for any proof data over the entry contents that leaves the block in place. -/
theorem before7_of {c : Dev nD} (dat : Dat τ (Elt F) Unit ℕ (UR sig nD τ) ℕ cfg0 c) (hA : dat.A 7 = atEntry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from the region's run -/

/-- For any proof data over the entry contents, a run that ends with every array of the region at what the proof
    data says and every other buffer as the closing line leaves it ends with the eleven arguments as launched: a staged
    argument is an input window's array, which the region never writes; an unstaged one bypasses the region. -/
theorem frame_of (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (Pipeline.afterTail₀ cfgs dats 0 (atEntry0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (end_arg0 m dats c),
      ((h c).2 main_arg1 (Pipeline.mem_restRefs_of main_arg1 (by decide) (by decide))).trans (end_arg1 m dats c),
      ((h c).2 main_arg2 (Pipeline.mem_restRefs_of main_arg2 (by decide) (by decide))).trans (end_arg2 m dats c),
      ((h c).2 main_arg3 (Pipeline.mem_restRefs_of main_arg3 (by decide) (by decide))).trans (end_arg3 m dats c),
      ((h c).2 main_arg4 (Pipeline.mem_restRefs_of main_arg4 (by decide) (by decide))).trans (end_arg4 m dats c),
      ((h c).1 2).trans (((dats 0 c).arrAt_in 2 rfl _).trans ((hA c 2).trans (entry_arg5 m c))),
      ((h c).1 3).trans (((dats 0 c).arrAt_in 3 rfl _).trans ((hA c 3).trans (entry_arg6 m c))),
      ((h c).1 4).trans (((dats 0 c).arrAt_in 4 rfl _).trans ((hA c 4).trans (entry_arg7 m c))),
      ((h c).1 5).trans (((dats 0 c).arrAt_in 5 rfl _).trans ((hA c 5).trans (entry_arg8 m c))),
      ((h c).1 6).trans (((dats 0 c).arrAt_in 6 rfl _).trans ((hA c 6).trans (entry_arg9 m c))),
      ((h c).1 7).trans (((dats 0 c).arrAt_in 7 rfl _).trans ((hA c 7).trans (entry_arg10 m c)))⟩) h

/-! ## The body -/

abbrev rPre : Rect S4096x32 := Rect.unit (s := S4096x32) ![0, 0] S4096x32.size inb_S4096x32_S4096x32_0_0
abbrev rIds : Rect S4096x2 := Rect.unit (s := S4096x2) ![0, 0] S4096x2.size inb_S4096x2_S4096x2_0_0
abbrev rT4 : Rect S1000x8 := Rect.unit (s := S1000x8) ![0, 0] S1000x8.size inb_S1000x8_S1000x8_0_0
abbrev rT5 : Rect S100x8 := Rect.unit (s := S100x8) ![0, 0] S100x8.size inb_S100x8_S100x8_0_0
abbrev rW1 : Rect S48x32 := Rect.unit (s := S48x32) ![0, 0] S48x32.size inb_S48x32_S48x32_0_0
abbrev rB1 : Rect S32 := Rect.unit (s := S32) ![0] S32.size inb_S32_S32_0
abbrev rW2 : Rect S32x1 := Rect.unit (s := S32x1) ![0, 0] S32x1.size inb_S32x1_S32x1_0_0
abbrev rB2 : Rect S1 := Rect.unit (s := S1) ![0] S1.size inb_S1_S1_0
abbrev rOut : Rect S4096x1 := Rect.unit (s := S4096x1) ![0, 0] S4096x1.size inb_S4096x1_S4096x1_0_0

/-- What the body leaves in the output buffer, from the eight input blocks: its one store covers the buffer. -/
def storedBlock (x0 : Vec F S4096x32 .f32) (x1 : Vec F S4096x2 .i32) (x2 : Vec F S1000x8 .f32) (x3 : Vec F S100x8 .f32) (x4 : Vec F S48x32 .f32)
    (x5 : Vec F S32 .f32) (x6 : Vec F S32x1 .f32) (x7 : Vec F S1 .f32) : Vec F S4096x1 .f32 :=
  View.canon [⟨rOut, k0_pay1 (k0_pay2 (View.ld x1 rIds) (View.ld x2 rT4) (View.ld x3 rT5) (View.ld x0 rPre) (View.ld x4 rW1) (View.ld x5 rB1) (View.ld x6 rW2)) (k0_pay3 (View.ld x7 rB2))⟩]

/-- The store's rectangle is the whole buffer. -/
theorem stored_cover (p0 : Vec F S4096x1 .f32) (y : S4096x1.Idx) :
    ∃ pc ∈ ([⟨rOut, p0⟩] : List (View.Piece (Elt F) S4096x1 .f32)), y ∈ pc.1.set :=
  View.cover_of_tiled [⟨rOut, p0⟩] S4096x1.size (by rfl) y

set_option maxHeartbeats 4000000 in
/-- The body on whole staging buffers, the inputs' at contents `x0 … x7` and the output's at anything, runs to its end
    holding the inputs' as they were and the output's at `storedBlock` of them. -/
theorem body_triple (c : Dev nD) (E : Set ℕ) (i : grid0.Coords)
    (arg1 : Memref sig .tc .vmem S4096x32 .f32) (harg1 : arg1.IsWhole) (arg2 : Memref sig .tc .vmem S4096x2 .i32) (harg2 : arg2.IsWhole) (arg3 : Memref sig .tc .vmem S1000x8 .f32) (harg3 : arg3.IsWhole) (arg4 : Memref sig .tc .vmem S100x8 .f32) (harg4 : arg4.IsWhole) (arg5 : Memref sig .tc .vmem S48x32 .f32) (harg5 : arg5.IsWhole) (arg6 : Memref sig .tc .vmem S32 .f32) (harg6 : arg6.IsWhole) (arg7 : Memref sig .tc .vmem S32x1 .f32) (harg7 : arg7.IsWhole) (arg8 : Memref sig .tc .vmem S1 .f32) (harg8 : arg8.IsWhole) (arg9 : Memref sig .tc .vmem S4096x1 .f32) (harg9 : arg9.IsWhole)
    (x0 : Vec F S4096x32 .f32) (x1 : Vec F S4096x2 .i32) (x2 : Vec F S1000x8 .f32) (x3 : Vec F S100x8 .f32) (x4 : Vec F S48x32 .f32) (x5 : Vec F S32 .f32) (x6 : Vec F S32x1 .f32) (x7 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (storedBlock x0 x1 x2 x3 x4 x5 x6 x7)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (stored_cover _)

/-! ## The region's proof data -/

/-- On core `c`: the arrays as the region finds them; after the body at point `t` each input buffer at its block and
    the output buffer at `storedBlock` of the input blocks; the invariant says nothing beyond the class's own; nothing
    owed; full shares. -/
def data (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => storedBlock (blockAt m c 0 t) (blockAt m c 1 t) (blockAt m c 2 t) (blockAt m c 3 t) (blockAt m c 4 t) (blockAt m c 5 t) (blockAt m c 6 t) (blockAt m c 7 t)
  Φ _ := Pipeline.ΦA spec0 c
  q _ := fullShare
  owed _ := 0

theorem data_A (c : Dev nD) (w : Fin cfg0.W) : (data m 0 c).A w = atEntry m c (Pipeline.arrRef spec0 w) := by
  dsimp only [data]

theorem after0 (c : Dev nD) (t : Fin cfg0.N) : (data m 0 c).after 0 t = blockAt m c 0 t := by dsimp only [data]
theorem after1 (c : Dev nD) (t : Fin cfg0.N) : (data m 0 c).after 1 t = blockAt m c 1 t := by dsimp only [data]
theorem after2 (c : Dev nD) (t : Fin cfg0.N) : (data m 0 c).after 2 t = blockAt m c 2 t := by dsimp only [data]
theorem after3 (c : Dev nD) (t : Fin cfg0.N) : (data m 0 c).after 3 t = blockAt m c 3 t := by dsimp only [data]
theorem after4 (c : Dev nD) (t : Fin cfg0.N) : (data m 0 c).after 4 t = blockAt m c 4 t := by dsimp only [data]
theorem after5 (c : Dev nD) (t : Fin cfg0.N) : (data m 0 c).after 5 t = blockAt m c 5 t := by dsimp only [data]
theorem after6 (c : Dev nD) (t : Fin cfg0.N) : (data m 0 c).after 6 t = blockAt m c 6 t := by dsimp only [data]
theorem after7 (c : Dev nD) (t : Fin cfg0.N) : (data m 0 c).after 7 t = blockAt m c 7 t := by dsimp only [data]
theorem after8 (c : Dev nD) (t : Fin cfg0.N) : (data m 0 c).after 8 t = storedBlock (blockAt m c 0 t) (blockAt m c 1 t) (blockAt m c 2 t) (blockAt m c 3 t) (blockAt m c 4 t) (blockAt m c 5 t) (blockAt m c 6 t) (blockAt m c 7 t) := by dsimp only [data]

theorem before0 (c : Dev nD) (t : Fin cfg0.N) (d) : (data m 0 c).before 0 t d = blockAt m c 0 t :=
  before0_of m (data m 0 c) (data_A m c 0) (after0 m c) t d
theorem before1 (c : Dev nD) (t : Fin cfg0.N) (d) : (data m 0 c).before 1 t d = blockAt m c 1 t :=
  before1_of m (data m 0 c) (data_A m c 1) (after1 m c) t d
theorem before2 (c : Dev nD) (t : Fin cfg0.N) (d) : (data m 0 c).before 2 t d = blockAt m c 2 t :=
  before2_of m (data m 0 c) (data_A m c 2) (after2 m c) t d
theorem before3 (c : Dev nD) (t : Fin cfg0.N) (d) : (data m 0 c).before 3 t d = blockAt m c 3 t :=
  before3_of m (data m 0 c) (data_A m c 3) (after3 m c) t d
theorem before4 (c : Dev nD) (t : Fin cfg0.N) (d) : (data m 0 c).before 4 t d = blockAt m c 4 t :=
  before4_of m (data m 0 c) (data_A m c 4) (after4 m c) t d
theorem before5 (c : Dev nD) (t : Fin cfg0.N) (d) : (data m 0 c).before 5 t d = blockAt m c 5 t :=
  before5_of m (data m 0 c) (data_A m c 5) (after5 m c) t d
theorem before6 (c : Dev nD) (t : Fin cfg0.N) (d) : (data m 0 c).before 6 t d = blockAt m c 6 t :=
  before6_of m (data m 0 c) (data_A m c 6) (after6 m c) t d
theorem before7 (c : Dev nD) (t : Fin cfg0.N) (d) : (data m 0 c).before 7 t d = blockAt m c 7 t :=
  before7_of m (data m 0 c) (data_A m c 7) (after7 m c) t d

/-! ## The body obligation -/

/-- What the body is called with at point `t`, the windows one by one, -/
def bodyPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d))
    ∗ (∃ d, owns (c : Thread nD τ) (st0_8 t) fullShare ((data m 0 c).before 8 t d)))

/-- and what it returns. -/
def bodyPost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t)
    ∗ owns (c : Thread nD τ) (st0_7 t) fullShare ((data m 0 c).after 7 t)
    ∗ owns (c : Thread nD τ) (st0_8 t) fullShare ((data m 0 c).after 8 t))

set_option maxHeartbeats 1000000 in
/-- The body at any point: the inputs' buffers hold their blocks, so `body_triple` applies; the invariant and what the
    core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (data m 0 c).Φ t.succ = (data m 0 c).Φ t.castSucc from rfl,
    show (data m 0 c).owesAt () t.succ = (data m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_triple c Set.univ (grid0.coords t) _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation (c : Dev nD) : BodyObligation (data (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of the program terminates, and every final state
    has each array of the region at what the proof data computes — an input as the region found it, the output
    overwritten block by block by what the body stored — and every other buffer as the closing line leaves it. -/
theorem run_region : θ_run defs (onTc (τ := τ) (main (F := F))) (s₀ m ρ) (Pipeline.FramePost cfgs (data m) 0 (Pipeline.afterTail₀ cfgs (data m) 0 (atEntry0 m) [hostOps1])) :=
  Pipeline.θ_run_frame_around cfgs (data m) (0 : Fin 1) launch0 defs₀ Variants.none m ρ main
    (hbody := fun c => (body_obligation m c).loose) (hshare := fun c => (data m 0 c).share_full fun _ => rfl)
    (howed := fun _ _ => rfl) (V₀ := atEntry0 m) (opss := [hostOps1]) (hsub := after_sub) (hfresh := after_fresh) (hkeep := after_keeps)
    (hmain := main_around m Variants.none) (hA := data_A m) (hΦ := fun _ _ => rfl)

/-- The program runs to the end, faults nowhere, and leaves its eleven arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (data m) (data_A m) (run_region m ρ)

end Cert.KernelIdeal.Hand

end
-- ==== Proof.Spec.lean ====
/-
  The function both programs compute, index by index over literal shapes, with no program in sight.

  A batch of 4096 sequences of 50 tokens; each token carries six integer feature ids, one per embedding table
  (1 000 000, 500 000, 100 000, 10 000, 1000 and 100 rows of 8 reals). A token's 48 features are the six rows its
  ids name, side by side. A two-layer tower follows: 32 hidden units `elu (features · w1 + b1)`, then one output
  `hidden · w2 + b2`. `G` is that output at token `(b, t)`.

  A row is looked up with the id read as a signed integer and clamped into the table (`rowOf`): inside the range
  `0 ≤ id < rows` (`InRange`) the clamp is the identity, and this is the form a gather of rows takes.
-/
import Idealize.ShloMosaic.PureOps.Ideal
import Idealize.ShloMosaic.Lib.ValueIdx

noncomputable section

namespace Cert.Tower

open Idealize.ShloMosaic Idealize.ShloMosaic.ValueIdx

/-- The ids: 4096 sequences, 50 tokens, six feature columns. -/
abbrev Ids : Type := IVec ⟨3, ![4096, 50, 6]⟩ 32
/-- An embedding table of `n` rows of 8 extended reals. -/
abbrev Tab (n : Nat) : Type := FVec Ideal ⟨2, ![n, 8]⟩ .f32

/-- Rows of the table of feature column `f`. -/
def rows : Fin 6 → Nat := ![1000000, 500000, 100000, 10000, 1000, 100]

/-- Every id names a row of its own column's table. -/
def InRange (ids : Ids) : Prop :=
  ∀ (b : Fin 4096) (t : Fin 50) (f : Fin 6), 0 ≤ (ids (ix3 b t f)).toInt ∧ (ids (ix3 b t f)).toInt < (rows f : Int)

/-- The row an id names in a table of `n` rows: the id read signed, clamped into `[0, n - 1]`. -/
def rowOf (n : Nat) (hn : 0 < n) (w : BitVec 32) : Fin n := ⟨min w.toInt.toNat (n - 1), by omega⟩

/-- Entry `d` of the row id `w` names in table `e`. -/
def look {n : Nat} (hn : 0 < n) (e : Tab n) (w : BitVec 32) (d : Fin 8) : EReal := e (ix2 (rowOf n hn w) d)

/-- Inside the range the clamp is the identity. -/
theorem rowOf_val {n : Nat} (hn : 0 < n) (w : BitVec 32) (h0 : 0 ≤ w.toInt) (h1 : w.toInt < (n : Int)) :
    ((rowOf n hn w).val : Int) = w.toInt := by
  unfold rowOf
  simp only
  omega

/-- Feature `k` of token `(b, t)`: entry `k % 8` of the row that the id of column `k / 8` names. -/
def feat (ids : Ids) (e0 : Tab 1000000) (e1 : Tab 500000) (e2 : Tab 100000) (e3 : Tab 10000) (e4 : Tab 1000) (e5 : Tab 100)
    (b : Fin 4096) (t : Fin 50) (k : Fin 48) : EReal :=
  if h0 : k.val < 8 then look (by decide) e0 (ids (ix3 b t 0)) ⟨k.val, h0⟩
  else if h1 : k.val < 16 then look (by decide) e1 (ids (ix3 b t 1)) ⟨k.val - 8, by omega⟩
  else if h2 : k.val < 24 then look (by decide) e2 (ids (ix3 b t 2)) ⟨k.val - 16, by omega⟩
  else if h3 : k.val < 32 then look (by decide) e3 (ids (ix3 b t 3)) ⟨k.val - 24, by omega⟩
  else if h4 : k.val < 40 then look (by decide) e4 (ids (ix3 b t 4)) ⟨k.val - 32, by omega⟩
  else look (by decide) e5 (ids (ix3 b t 5)) ⟨k.val - 40, by omega⟩

/-- The exponential linear unit with unit slope: `x` above zero, `eˣ - 1` at and below. -/
def elu (x : EReal) : EReal := if 0 < x then x else Ideal.exp x - 1

/-- Hidden unit `j` of a token whose 48 features are `f`. -/
def hidRow (f : Fin 48 → EReal) (w1 : FVec Ideal ⟨2, ![48, 32]⟩ .f32) (b1 : FVec Ideal ⟨1, ![32]⟩ .f32) (j : Fin 32) : EReal :=
  elu ((∑ k : Fin 48, f k * w1 (ix2 k j)) + b1 (ix1 j))

/-- The tower's output for a token whose 48 features are `f`. -/
def outRow (f : Fin 48 → EReal) (w1 : FVec Ideal ⟨2, ![48, 32]⟩ .f32) (b1 : FVec Ideal ⟨1, ![32]⟩ .f32)
    (w2 : FVec Ideal ⟨2, ![32, 1]⟩ .f32) (b2 : FVec Ideal ⟨1, ![1]⟩ .f32) : EReal :=
  (∑ j : Fin 32, hidRow f w1 b1 j * w2 (ix2 j 0)) + b2 (ix1 0)

/-- The tower's output at token `(b, t)`. -/
def out (ids : Ids) (e0 : Tab 1000000) (e1 : Tab 500000) (e2 : Tab 100000) (e3 : Tab 10000) (e4 : Tab 1000) (e5 : Tab 100)
    (w1 : FVec Ideal ⟨2, ![48, 32]⟩ .f32) (b1 : FVec Ideal ⟨1, ![32]⟩ .f32) (w2 : FVec Ideal ⟨2, ![32, 1]⟩ .f32)
    (b2 : FVec Ideal ⟨1, ![1]⟩ .f32) (b : Fin 4096) (t : Fin 50) : EReal :=
  outRow (feat ids e0 e1 e2 e3 e4 e5 b t) w1 b1 w2 b2

/-- The result array `[4096, 50]`. -/
def G (ids : Ids) (e0 : Tab 1000000) (e1 : Tab 500000) (e2 : Tab 100000) (e3 : Tab 10000) (e4 : Tab 1000) (e5 : Tab 100)
    (w1 : FVec Ideal ⟨2, ![48, 32]⟩ .f32) (b1 : FVec Ideal ⟨1, ![32]⟩ .f32) (w2 : FVec Ideal ⟨2, ![32, 1]⟩ .f32)
    (b2 : FVec Ideal ⟨1, ![1]⟩ .f32) : FVec Ideal ⟨2, ![4096, 50]⟩ .f32 :=
  fun i => out ids e0 e1 e2 e3 e4 e5 w1 b1 w2 b2 (i 0) (i 1)

end Cert.Tower

end
-- ==== Proof.KerBlock.lean ====
import proofs.«407622_j82471962018216_3_alg».proof.Proof.Gen.KernelIdeal.Skeleton
import proofs.«407622_j82471962018216_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

namespace Cert.KernelIdeal.Hand

open Cert.KernelIdeal Cert.KernelIdeal.Gen Cert.Tower Idealize.ShloMosaic Idealize.ShloMosaic.ValueIdx

/-!
  What the kernel body stores, at an index.

  The body gathers the rows of its two small tables by one-hot products, sets them beside the 32 entries gathered
  before it, and runs the two-layer tower. Read at row `p` of a block this is `Cert.Tower.outRow` on the row's 48
  features (`blkFeat`), provided the row's two small ids are inside their tables: a one-hot row times a table is then
  the row the id names.
-/

/-- The 48 features of row p of a block: its 32 host-gathered entries, then the rows its two small ids name. -/
def blkFeat (x : Vec Ideal S4096x32 .f32) (sid : Vec Ideal S4096x2 .i32) (t4 : Vec Ideal S1000x8 .f32) (t5 : Vec Ideal S100x8 .f32)
    (p : Fin 4096) (k : Fin 48) : EReal :=
  if h : k.val < 32 then x (ix2 p ⟨k.val, h⟩)
  else if h1 : k.val < 40 then Cert.Tower.look (by decide) t4 (sid (ix2 p 0)) ⟨k.val - 32, by omega⟩
  else Cert.Tower.look (by decide) t5 (sid (ix2 p 1)) ⟨k.val - 40, by omega⟩

/-! ### The first one-hot product: [4096, 1000] by [1000, 8] -/

theorem lhs_t4_0 (i : S4096x8.Idx) (q : dot_S4096x1000_S1000x8_S4096x8_1_0_0_1_n_n.contr.Idx) :
    (dot_S4096x1000_S1000x8_S4096x8_1_0_0_1_n_n.lhsIdx i q 0).val = (i 0).val := by
  unfold DotDims.lhsIdx
  rw [dif_neg (show ¬(0 : Fin S4096x1000.rank) ∈ dot_S4096x1000_S1000x8_S4096x8_1_0_0_1_n_n.lhsBatch by decide), dif_pos (show (0 : Fin S4096x1000.rank) ∈ dot_S4096x1000_S1000x8_S4096x8_1_0_0_1_n_n.lhsNonContracting by decide)]
  rfl
theorem lhs_t4_1 (i : S4096x8.Idx) (q : dot_S4096x1000_S1000x8_S4096x8_1_0_0_1_n_n.contr.Idx) :
    (dot_S4096x1000_S1000x8_S4096x8_1_0_0_1_n_n.lhsIdx i q 1).val = (q ⟨0, by decide⟩).val :=
  dot_S4096x1000_S1000x8_S4096x8_1_0_0_1_n_n.lhsIdx_val_of_single rfl i q
theorem rhs_t4_0 (i : S4096x8.Idx) (q : dot_S4096x1000_S1000x8_S4096x8_1_0_0_1_n_n.contr.Idx) :
    (dot_S4096x1000_S1000x8_S4096x8_1_0_0_1_n_n.rhsIdx i q 0).val = (q ⟨0, by decide⟩).val :=
  dot_S4096x1000_S1000x8_S4096x8_1_0_0_1_n_n.rhsIdx_val_of_single rfl i q
theorem rhs_t4_1 (i : S4096x8.Idx) (q : dot_S4096x1000_S1000x8_S4096x8_1_0_0_1_n_n.contr.Idx) :
    (dot_S4096x1000_S1000x8_S4096x8_1_0_0_1_n_n.rhsIdx i q 1).val = (i 1).val := by
  unfold DotDims.rhsIdx
  rw [dif_neg (show ¬(1 : Fin S1000x8.rank) ∈ dot_S4096x1000_S1000x8_S4096x8_1_0_0_1_n_n.rhsBatch by decide), dif_pos (show (1 : Fin S1000x8.rank) ∈ dot_S4096x1000_S1000x8_S4096x8_1_0_0_1_n_n.rhsNonContracting by decide)]
  rfl

/-- The product into a zero accumulator, read at row `p` and column `c`: the sum over the 1000 contracted positions of
    the left factor's row entry times the right factor's column entry. -/
theorem mm_t4 (L : FVec Ideal S4096x1000 .f32) (R : FVec Ideal S1000x8 .f32) (p : Fin 4096) (c : Fin 8) :
    matmul dot_S4096x1000_S1000x8_S4096x8_1_0_0_1_n_n none L R (constant (F := Ideal) S4096x8 .f32 0x00000000#32) (ix2 p c)
      = ∑ k : Fin 1000, L (ix2 p k) * R (ix2 k c) := by
  simp only [matmul]
  rw [Ideal.matmul_constant_zero_apply, ← Equiv.sum_comp (contrEquiv1 dot_S4096x1000_S1000x8_S4096x8_1_0_0_1_n_n 1000 rfl rfl).symm]
  refine Finset.sum_congr rfl fun k _ => ?_
  have hk := contrEquiv1_symm_val dot_S4096x1000_S1000x8_S4096x8_1_0_0_1_n_n 1000 rfl rfl k
  have el : dot_S4096x1000_S1000x8_S4096x8_1_0_0_1_n_n.lhsIdx (ix2 p c) ((contrEquiv1 dot_S4096x1000_S1000x8_S4096x8_1_0_0_1_n_n 1000 rfl rfl).symm k) = ix2 p k := funext fun a => Fin.ext (by
    match a with
    | ⟨0, _⟩ => exact lhs_t4_0 _ _
    | ⟨1, _⟩ => exact (lhs_t4_1 _ _).trans hk)
  have er : dot_S4096x1000_S1000x8_S4096x8_1_0_0_1_n_n.rhsIdx (ix2 p c) ((contrEquiv1 dot_S4096x1000_S1000x8_S4096x8_1_0_0_1_n_n 1000 rfl rfl).symm k) = ix2 k c := funext fun a => Fin.ext (by
    match a with
    | ⟨0, _⟩ => exact (rhs_t4_0 _ _).trans hk
    | ⟨1, _⟩ => exact rhs_t4_1 _ _)
  rw [el, er]

/-! ### The second one-hot product: [4096, 100] by [100, 8] -/

theorem lhs_t5_0 (i : S4096x8.Idx) (q : dot_S4096x100_S100x8_S4096x8_1_0_0_1_n_n.contr.Idx) :
    (dot_S4096x100_S100x8_S4096x8_1_0_0_1_n_n.lhsIdx i q 0).val = (i 0).val := by
  unfold DotDims.lhsIdx
  rw [dif_neg (show ¬(0 : Fin S4096x100.rank) ∈ dot_S4096x100_S100x8_S4096x8_1_0_0_1_n_n.lhsBatch by decide), dif_pos (show (0 : Fin S4096x100.rank) ∈ dot_S4096x100_S100x8_S4096x8_1_0_0_1_n_n.lhsNonContracting by decide)]
  rfl
theorem lhs_t5_1 (i : S4096x8.Idx) (q : dot_S4096x100_S100x8_S4096x8_1_0_0_1_n_n.contr.Idx) :
    (dot_S4096x100_S100x8_S4096x8_1_0_0_1_n_n.lhsIdx i q 1).val = (q ⟨0, by decide⟩).val :=
  dot_S4096x100_S100x8_S4096x8_1_0_0_1_n_n.lhsIdx_val_of_single rfl i q
theorem rhs_t5_0 (i : S4096x8.Idx) (q : dot_S4096x100_S100x8_S4096x8_1_0_0_1_n_n.contr.Idx) :
    (dot_S4096x100_S100x8_S4096x8_1_0_0_1_n_n.rhsIdx i q 0).val = (q ⟨0, by decide⟩).val :=
  dot_S4096x100_S100x8_S4096x8_1_0_0_1_n_n.rhsIdx_val_of_single rfl i q
theorem rhs_t5_1 (i : S4096x8.Idx) (q : dot_S4096x100_S100x8_S4096x8_1_0_0_1_n_n.contr.Idx) :
    (dot_S4096x100_S100x8_S4096x8_1_0_0_1_n_n.rhsIdx i q 1).val = (i 1).val := by
  unfold DotDims.rhsIdx
  rw [dif_neg (show ¬(1 : Fin S100x8.rank) ∈ dot_S4096x100_S100x8_S4096x8_1_0_0_1_n_n.rhsBatch by decide), dif_pos (show (1 : Fin S100x8.rank) ∈ dot_S4096x100_S100x8_S4096x8_1_0_0_1_n_n.rhsNonContracting by decide)]
  rfl

/-- The product into a zero accumulator, read at row `p` and column `c`: the sum over the 100 contracted positions of
    the left factor's row entry times the right factor's column entry. -/
theorem mm_t5 (L : FVec Ideal S4096x100 .f32) (R : FVec Ideal S100x8 .f32) (p : Fin 4096) (c : Fin 8) :
    matmul dot_S4096x100_S100x8_S4096x8_1_0_0_1_n_n none L R (constant (F := Ideal) S4096x8 .f32 0x00000000#32) (ix2 p c)
      = ∑ k : Fin 100, L (ix2 p k) * R (ix2 k c) := by
  simp only [matmul]
  rw [Ideal.matmul_constant_zero_apply, ← Equiv.sum_comp (contrEquiv1 dot_S4096x100_S100x8_S4096x8_1_0_0_1_n_n 100 rfl rfl).symm]
  refine Finset.sum_congr rfl fun k _ => ?_
  have hk := contrEquiv1_symm_val dot_S4096x100_S100x8_S4096x8_1_0_0_1_n_n 100 rfl rfl k
  have el : dot_S4096x100_S100x8_S4096x8_1_0_0_1_n_n.lhsIdx (ix2 p c) ((contrEquiv1 dot_S4096x100_S100x8_S4096x8_1_0_0_1_n_n 100 rfl rfl).symm k) = ix2 p k := funext fun a => Fin.ext (by
    match a with
    | ⟨0, _⟩ => exact lhs_t5_0 _ _
    | ⟨1, _⟩ => exact (lhs_t5_1 _ _).trans hk)
  have er : dot_S4096x100_S100x8_S4096x8_1_0_0_1_n_n.rhsIdx (ix2 p c) ((contrEquiv1 dot_S4096x100_S100x8_S4096x8_1_0_0_1_n_n 100 rfl rfl).symm k) = ix2 k c := funext fun a => Fin.ext (by
    match a with
    | ⟨0, _⟩ => exact (rhs_t5_0 _ _).trans hk
    | ⟨1, _⟩ => exact rhs_t5_1 _ _)
  rw [el, er]

/-! ### The hidden layer's product: [4096, 48] by [48, 32] -/

theorem lhs_w1_0 (i : S4096x32.Idx) (q : dot_S4096x48_S48x32_S4096x32_1_0_0_1_n_n.contr.Idx) :
    (dot_S4096x48_S48x32_S4096x32_1_0_0_1_n_n.lhsIdx i q 0).val = (i 0).val := by
  unfold DotDims.lhsIdx
  rw [dif_neg (show ¬(0 : Fin S4096x48.rank) ∈ dot_S4096x48_S48x32_S4096x32_1_0_0_1_n_n.lhsBatch by decide), dif_pos (show (0 : Fin S4096x48.rank) ∈ dot_S4096x48_S48x32_S4096x32_1_0_0_1_n_n.lhsNonContracting by decide)]
  rfl
theorem lhs_w1_1 (i : S4096x32.Idx) (q : dot_S4096x48_S48x32_S4096x32_1_0_0_1_n_n.contr.Idx) :
    (dot_S4096x48_S48x32_S4096x32_1_0_0_1_n_n.lhsIdx i q 1).val = (q ⟨0, by decide⟩).val :=
  dot_S4096x48_S48x32_S4096x32_1_0_0_1_n_n.lhsIdx_val_of_single rfl i q
theorem rhs_w1_0 (i : S4096x32.Idx) (q : dot_S4096x48_S48x32_S4096x32_1_0_0_1_n_n.contr.Idx) :
    (dot_S4096x48_S48x32_S4096x32_1_0_0_1_n_n.rhsIdx i q 0).val = (q ⟨0, by decide⟩).val :=
  dot_S4096x48_S48x32_S4096x32_1_0_0_1_n_n.rhsIdx_val_of_single rfl i q
theorem rhs_w1_1 (i : S4096x32.Idx) (q : dot_S4096x48_S48x32_S4096x32_1_0_0_1_n_n.contr.Idx) :
    (dot_S4096x48_S48x32_S4096x32_1_0_0_1_n_n.rhsIdx i q 1).val = (i 1).val := by
  unfold DotDims.rhsIdx
  rw [dif_neg (show ¬(1 : Fin S48x32.rank) ∈ dot_S4096x48_S48x32_S4096x32_1_0_0_1_n_n.rhsBatch by decide), dif_pos (show (1 : Fin S48x32.rank) ∈ dot_S4096x48_S48x32_S4096x32_1_0_0_1_n_n.rhsNonContracting by decide)]
  rfl

/-- The product into a zero accumulator, read at row `p` and column `c`: the sum over the 48 contracted positions of
    the left factor's row entry times the right factor's column entry. -/
theorem mm_w1 (L : FVec Ideal S4096x48 .f32) (R : FVec Ideal S48x32 .f32) (p : Fin 4096) (c : Fin 32) :
    matmul dot_S4096x48_S48x32_S4096x32_1_0_0_1_n_n none L R (constant (F := Ideal) S4096x32 .f32 0x00000000#32) (ix2 p c)
      = ∑ k : Fin 48, L (ix2 p k) * R (ix2 k c) := by
  simp only [matmul]
  rw [Ideal.matmul_constant_zero_apply, ← Equiv.sum_comp (contrEquiv1 dot_S4096x48_S48x32_S4096x32_1_0_0_1_n_n 48 rfl rfl).symm]
  refine Finset.sum_congr rfl fun k _ => ?_
  have hk := contrEquiv1_symm_val dot_S4096x48_S48x32_S4096x32_1_0_0_1_n_n 48 rfl rfl k
  have el : dot_S4096x48_S48x32_S4096x32_1_0_0_1_n_n.lhsIdx (ix2 p c) ((contrEquiv1 dot_S4096x48_S48x32_S4096x32_1_0_0_1_n_n 48 rfl rfl).symm k) = ix2 p k := funext fun a => Fin.ext (by
    match a with
    | ⟨0, _⟩ => exact lhs_w1_0 _ _
    | ⟨1, _⟩ => exact (lhs_w1_1 _ _).trans hk)
  have er : dot_S4096x48_S48x32_S4096x32_1_0_0_1_n_n.rhsIdx (ix2 p c) ((contrEquiv1 dot_S4096x48_S48x32_S4096x32_1_0_0_1_n_n 48 rfl rfl).symm k) = ix2 k c := funext fun a => Fin.ext (by
    match a with
    | ⟨0, _⟩ => exact (rhs_w1_0 _ _).trans hk
    | ⟨1, _⟩ => exact rhs_w1_1 _ _)
  rw [el, er]

/-! ### The output layer's product: [4096, 32] by [32, 1] -/

theorem lhs_w2_0 (i : S4096x1.Idx) (q : dot_S4096x32_S32x1_S4096x1_1_0_0_1_n_n.contr.Idx) :
    (dot_S4096x32_S32x1_S4096x1_1_0_0_1_n_n.lhsIdx i q 0).val = (i 0).val := by
  unfold DotDims.lhsIdx
  rw [dif_neg (show ¬(0 : Fin S4096x32.rank) ∈ dot_S4096x32_S32x1_S4096x1_1_0_0_1_n_n.lhsBatch by decide), dif_pos (show (0 : Fin S4096x32.rank) ∈ dot_S4096x32_S32x1_S4096x1_1_0_0_1_n_n.lhsNonContracting by decide)]
  rfl
theorem lhs_w2_1 (i : S4096x1.Idx) (q : dot_S4096x32_S32x1_S4096x1_1_0_0_1_n_n.contr.Idx) :
    (dot_S4096x32_S32x1_S4096x1_1_0_0_1_n_n.lhsIdx i q 1).val = (q ⟨0, by decide⟩).val :=
  dot_S4096x32_S32x1_S4096x1_1_0_0_1_n_n.lhsIdx_val_of_single rfl i q
theorem rhs_w2_0 (i : S4096x1.Idx) (q : dot_S4096x32_S32x1_S4096x1_1_0_0_1_n_n.contr.Idx) :
    (dot_S4096x32_S32x1_S4096x1_1_0_0_1_n_n.rhsIdx i q 0).val = (q ⟨0, by decide⟩).val :=
  dot_S4096x32_S32x1_S4096x1_1_0_0_1_n_n.rhsIdx_val_of_single rfl i q
theorem rhs_w2_1 (i : S4096x1.Idx) (q : dot_S4096x32_S32x1_S4096x1_1_0_0_1_n_n.contr.Idx) :
    (dot_S4096x32_S32x1_S4096x1_1_0_0_1_n_n.rhsIdx i q 1).val = (i 1).val := by
  unfold DotDims.rhsIdx
  rw [dif_neg (show ¬(1 : Fin S32x1.rank) ∈ dot_S4096x32_S32x1_S4096x1_1_0_0_1_n_n.rhsBatch by decide), dif_pos (show (1 : Fin S32x1.rank) ∈ dot_S4096x32_S32x1_S4096x1_1_0_0_1_n_n.rhsNonContracting by decide)]
  rfl

/-- The product into a zero accumulator, read at row `p` and column `c`: the sum over the 32 contracted positions of
    the left factor's row entry times the right factor's column entry. -/
theorem mm_w2 (L : FVec Ideal S4096x32 .f32) (R : FVec Ideal S32x1 .f32) (p : Fin 4096) (c : Fin 1) :
    matmul dot_S4096x32_S32x1_S4096x1_1_0_0_1_n_n none L R (constant (F := Ideal) S4096x1 .f32 0x00000000#32) (ix2 p c)
      = ∑ k : Fin 32, L (ix2 p k) * R (ix2 k c) := by
  simp only [matmul]
  rw [Ideal.matmul_constant_zero_apply, ← Equiv.sum_comp (contrEquiv1 dot_S4096x32_S32x1_S4096x1_1_0_0_1_n_n 32 rfl rfl).symm]
  refine Finset.sum_congr rfl fun k _ => ?_
  have hk := contrEquiv1_symm_val dot_S4096x32_S32x1_S4096x1_1_0_0_1_n_n 32 rfl rfl k
  have el : dot_S4096x32_S32x1_S4096x1_1_0_0_1_n_n.lhsIdx (ix2 p c) ((contrEquiv1 dot_S4096x32_S32x1_S4096x1_1_0_0_1_n_n 32 rfl rfl).symm k) = ix2 p k := funext fun a => Fin.ext (by
    match a with
    | ⟨0, _⟩ => exact lhs_w2_0 _ _
    | ⟨1, _⟩ => exact (lhs_w2_1 _ _).trans hk)
  have er : dot_S4096x32_S32x1_S4096x1_1_0_0_1_n_n.rhsIdx (ix2 p c) ((contrEquiv1 dot_S4096x32_S32x1_S4096x1_1_0_0_1_n_n 32 rfl rfl).symm k) = ix2 k c := funext fun a => Fin.ext (by
    match a with
    | ⟨0, _⟩ => exact (rhs_w2_0 _ _).trans hk
    | ⟨1, _⟩ => exact rhs_w2_1 _ _)
  rw [el, er]

/-! ### Words: the one-hot entry, and the activation -/

/-- An in-range id is the word of `q` exactly when the row it names is `q`. -/
theorem eq_ofNat_iff {n : Nat} (hn : 0 < n) (hn31 : n ≤ 2 ^ 31) (w : BitVec 32) (h0 : 0 ≤ w.toInt) (h1 : w.toInt < (n : Int))
    (q : Fin n) : w = BitVec.ofNat 32 q.val ↔ rowOf n hn w = q := by
  have hr := rowOf_val hn w h0 h1
  have hc := BitVec.toInt_eq_toNat_cond w
  have hq := q.isLt
  constructor
  · intro h
    apply Fin.ext
    have e : w.toNat = q.val := by
      rw [h, BitVec.toNat_ofNat]
      exact Nat.mod_eq_of_lt (by omega)
    split at hc <;> omega
  · intro h
    apply BitVec.eq_of_toNat_eq
    rw [BitVec.toNat_ofNat, ← h]
    have : (rowOf n hn w).val < n := (rowOf n hn w).isLt
    rw [Nat.mod_eq_of_lt (by omega)]
    split at hc <;> omega

/-- The compare bit, widened and read as a signed integer, is one where the words agree and zero elsewhere. -/
theorem onehot_entry (w v : BitVec 32) :
    FloatOps.sitofp (F := Ideal) .f32 ((IntOp.cmpi .eq w v).setWidth 32) = if w = v then (1 : EReal) else 0 := by
  by_cases h : w = v
  · subst h
    rw [if_pos rfl]
    have : (IntOp.cmpi .eq w w).setWidth 32 = 1#32 := by simp [IntOp.cmpi]
    rw [this]
    show (((1#32 : BitVec 32).toInt : ℝ) : EReal) = 1
    norm_num
  · rw [if_neg h]
    have hb : (w == v) = false := beq_eq_false_iff_ne.mpr h
    have : (IntOp.cmpi .eq w v).setWidth 32 = 0#32 := by
      show (BitVec.ofBool (w == v)).setWidth 32 = 0#32
      rw [hb]
      rfl
    rw [this]
    show (((0#32 : BitVec 32).toInt : ℝ) : EReal) = 0
    norm_num

/-- A one-hot row times a table's column is the named row's entry: every other term of the sum is `0 * _`. -/
theorem onehot_sum {n : Nat} (hn : 0 < n) (hn31 : n ≤ 2 ^ 31) (T : Fin n → EReal) (w : BitVec 32) (h0 : 0 ≤ w.toInt)
    (h1 : w.toInt < (n : Int)) :
    ∑ q : Fin n, (if w = BitVec.ofNat 32 q.val then (1 : EReal) else 0) * T q = T (rowOf n hn w) := by
  rw [Finset.sum_eq_single (rowOf n hn w)]
  · rw [if_pos ((eq_ofNat_iff hn hn31 w h0 h1 _).mpr rfl), one_mul]
  · intro q _ hq
    rw [if_neg (fun h => hq ((eq_ofNat_iff hn hn31 w h0 h1 q).mp h).symm), zero_mul]
  · intro h; exact absurd (Finset.mem_univ _) h

/-- The select the body computes — `x` where `x > 0`, else `eˣ - 1` — is the exponential linear unit. -/
theorem elu_scalar (a : EReal) :
    Scalar.select (FloatOps.cmpf (F := Ideal) (φ := .f32) .ogt a (Scalar.ofBits (F := Ideal) .f32 0x00000000#32)) a
      (FloatOps.subf (F := Ideal) (φ := .f32) (FloatOps.exp (F := Ideal) (φ := .f32) a) (Scalar.ofBits (F := Ideal) .f32 0x3F800000#32)) = elu a := by
  have z : Scalar.ofBits (F := Ideal) .f32 0x00000000#32 = (0 : EReal) := Ideal.ofBits_zero_f32
  have o : Scalar.ofBits (F := Ideal) .f32 0x3F800000#32 = (1 : EReal) := Ideal.ofBits_one_f32
  rw [z, o]
  show Scalar.select (Ideal.cmp .ogt a 0) a (Ideal.exp a - 1) = elu a
  unfold elu Scalar.select Ideal.cmp
  by_cases h : (0 : EReal) < a
  · simp [h]
  · simp [h]

/-! ### Layout operations at an index -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `o` of the block's two id columns, spread over `m` lanes, reads the id of row `p` in every lane. -/
theorem idcol_apply {m : Nat} (o : Nat) (ho : o < 2) (sid : IVec S4096x2 32) (hc : S4096x2.ShapeCasts S4096x2)
    (hs : S4096x2.Slices ![0, o] S4096x1) (hb : S4096x1.Broadcasts ⟨2, ![4096, m]⟩) (p : Fin 4096) (q : Fin m) :
    broadcastTo ⟨2, ![4096, m]⟩ (extractStridedSlice S4096x1 ![0, o] (shapeCast S4096x2 sid hc) hs) hb (ix2 p q)
      = sid (ix2 p ⟨o, ho⟩) := by
  rw [broadcastTo_a1_ab_apply, shapeCast_self]
  exact slice2_axis1_apply o sid hs p 0 ⟨o, ho⟩ rfl

/-- The lane counter `0, 1, …, m - 1`, spread over the rows, reads the word of the lane's number. -/
theorem iotarow_apply {m : Nat} (hi : (⟨2, ![1, m]⟩ : Shape).Iotas .tc 32 [1])
    (hb : (⟨2, ![1, m]⟩ : Shape).Broadcasts ⟨2, ![4096, m]⟩) (p : Fin 4096) (q : Fin m) :
    broadcastTo ⟨2, ![4096, m]⟩ (iota .tc ⟨2, ![1, m]⟩ 32 [1] hi) hb (ix2 p q) = BitVec.ofNat 32 q.val := by
  rw [broadcastTo_1b_ab_apply, iota_single_apply]
  rfl

/-- The one-hot rows the body builds from id column `o` against `m` lanes: lane `q` of row `p` is one where the id
    is the word of `q`, zero elsewhere. -/
theorem onehot_apply {m : Nat} (o : Nat) (ho : o < 2) (sid : IVec S4096x2 32) (hc : S4096x2.ShapeCasts S4096x2)
    (hs : S4096x2.Slices ![0, o] S4096x1) (hb : S4096x1.Broadcasts ⟨2, ![4096, m]⟩)
    (hi : (⟨2, ![1, m]⟩ : Shape).Iotas .tc 32 [1]) (hb' : (⟨2, ![1, m]⟩ : Shape).Broadcasts ⟨2, ![4096, m]⟩) (hlt : 1 < 32)
    (p : Fin 4096) (q : Fin m) :
    (sitofp (F := Ideal) .f32 (extui 32 (cmpi .eq
        (broadcastTo ⟨2, ![4096, m]⟩ (extractStridedSlice S4096x1 ![0, o] (shapeCast S4096x2 sid hc) hs) hb)
        (broadcastTo ⟨2, ![4096, m]⟩ (iota .tc ⟨2, ![1, m]⟩ 32 [1] hi) hb')) hlt) : FVec Ideal ⟨2, ![4096, m]⟩ .f32) (ix2 p q)
      = if sid (ix2 p ⟨o, ho⟩) = BitVec.ofNat 32 q.val then (1 : EReal) else 0 := by
  refine (onehot_entry _ _).trans ?_
  rw [idcol_apply o ho, iotarow_apply]

/-- The 48-wide concatenation read in its first 32 columns: the first piece. -/
theorem cat_apply_x (X : FVec Ideal S4096x32 .f32) (Y Z : FVec Ideal S4096x8 .f32) (p : Fin 4096) (k : Fin 48)
    (h : k.val < 32) :
    concatenate S4096x48 1 [⟨S4096x32, X⟩, ⟨S4096x8, Y⟩, ⟨S4096x8, Z⟩] concatenates_S4096x32_S4096x8_S4096x8_S4096x48_d1 (ix2 p k)
      = X (ix2 p ⟨k.val, h⟩) :=
  concatenate_apply_piece (1 : Fin S4096x48.rank) _ _ (ix2 p k) 0 (by show (0 : ℕ) < 3; omega) S4096x32 X rfl rfl 0 rfl (ix2 p ⟨k.val, h⟩)
    (fun b hb => by
      match b with
      | ⟨0, _⟩ => rfl
      | ⟨1, _⟩ => exact absurd rfl hb)
    (Nat.zero_add _)

/-- Columns 32 to 39: the second piece, 32 columns back. -/
theorem cat_apply_y (X : FVec Ideal S4096x32 .f32) (Y Z : FVec Ideal S4096x8 .f32) (p : Fin 4096) (k : Fin 48)
    (h0 : ¬k.val < 32) (h1 : k.val < 40) :
    concatenate S4096x48 1 [⟨S4096x32, X⟩, ⟨S4096x8, Y⟩, ⟨S4096x8, Z⟩] concatenates_S4096x32_S4096x8_S4096x8_S4096x48_d1 (ix2 p k)
      = Y (ix2 p ⟨k.val - 32, by omega⟩) :=
  concatenate_apply_piece (1 : Fin S4096x48.rank) _ _ (ix2 p k) 1 (by show (1 : ℕ) < 3; omega) S4096x8 Y rfl rfl 32 rfl (ix2 p ⟨k.val - 32, by omega⟩)
    (fun b hb => by
      match b with
      | ⟨0, _⟩ => rfl
      | ⟨1, _⟩ => exact absurd rfl hb)
    (by show 32 + (k.val - 32) = k.val; omega)

/-- Columns 40 to 47: the third piece, 40 columns back. -/
theorem cat_apply_z (X : FVec Ideal S4096x32 .f32) (Y Z : FVec Ideal S4096x8 .f32) (p : Fin 4096) (k : Fin 48)
    (h1 : ¬k.val < 40) :
    concatenate S4096x48 1 [⟨S4096x32, X⟩, ⟨S4096x8, Y⟩, ⟨S4096x8, Z⟩] concatenates_S4096x32_S4096x8_S4096x8_S4096x48_d1 (ix2 p k)
      = Z (ix2 p ⟨k.val - 40, by have := k.isLt; omega⟩) :=
  concatenate_apply_piece (1 : Fin S4096x48.rank) _ _ (ix2 p k) 2 (by show (2 : ℕ) < 3; omega) S4096x8 Z rfl rfl 40 rfl
    (ix2 p ⟨k.val - 40, by have := k.isLt; omega⟩)
    (fun b hb => by
      match b with
      | ⟨0, _⟩ => rfl
      | ⟨1, _⟩ => exact absurd rfl hb)
    (by show 40 + (k.val - 40) = k.val; omega)

/-- The hidden layer's bias, a `[32]` vector viewed `[1, 32]` and spread over the rows, reads entry `j` in column `j`. -/
theorem bias1_apply (b1 : FVec Ideal S32 .f32) (hc : S32.ShapeCasts S1x32) (hb : S1x32.Broadcasts S4096x32) (p : Fin 4096)
    (j : Fin 32) : broadcastTo S4096x32 (shapeCast S1x32 b1 hc) hb (ix2 p j) = b1 (ix1 j) := by
  rw [broadcastTo_1b_ab_apply, shapeCast_a_1a_apply]

/-- The output bias, one number viewed `[1, 1]` and spread over the rows. -/
theorem bias2_apply (b2 : FVec Ideal S1 .f32) (hc : S1.ShapeCasts S1x1) (hb : S1x1.Broadcasts S4096x1) (p : Fin 4096) :
    broadcastTo S4096x1 (shapeCast S1x1 b2 hc) hb (ix2 p (0 : Fin 1)) = b2 (ix1 0) := by
  rw [broadcastTo_1b_ab_apply, shapeCast_a_1a_apply]

/-! ### The body's values, named

The generated payload is one expression; here its stages are named so that each is read at an index by itself. -/

/-- The one-hot rows against the table of 1000 rows (id column 0), as the body builds them. -/
def hot4 (sid : IVec S4096x2 32) : FVec Ideal S4096x1000 .f32 :=
  sitofp .f32 (extui 32 (cmpi .eq
    (broadcastTo S4096x1000 (extractStridedSlice S4096x1 ![0, 0] (shapeCast S4096x2 sid shapeCasts_S4096x2_S4096x2) slices_S4096x2_o0_0_S4096x1) broadcasts_S4096x1_S4096x1000)
    (broadcastTo S4096x1000 (iota .tc S1x1000 32 [1] iota_S1x1000_d1_w32) broadcasts_S1x1000_S4096x1000)) natLt_1_32)

/-- The one-hot rows against the table of 100 rows (id column 1). -/
def hot5 (sid : IVec S4096x2 32) : FVec Ideal S4096x100 .f32 :=
  sitofp .f32 (extui 32 (cmpi .eq
    (broadcastTo S4096x100 (extractStridedSlice S4096x1 ![0, 1] (shapeCast S4096x2 sid shapeCasts_S4096x2_S4096x2) slices_S4096x2_o0_1_S4096x1) broadcasts_S4096x1_S4096x100)
    (broadcastTo S4096x100 (iota .tc S1x100 32 [1] iota_S1x100_d1_w32) broadcasts_S1x100_S4096x100)) natLt_1_32)

/-- The rows of the table of 1000 rows that the ids name, as a one-hot product. -/
def gat4 (sid : IVec S4096x2 32) (t4 : FVec Ideal S1000x8 .f32) : FVec Ideal S4096x8 .f32 :=
  matmul dot_S4096x1000_S1000x8_S4096x8_1_0_0_1_n_n none (hot4 sid) t4 (constant S4096x8 .f32 0x00000000#32)

/-- The rows of the table of 100 rows that the ids name, as a one-hot product. -/
def gat5 (sid : IVec S4096x2 32) (t5 : FVec Ideal S100x8 .f32) : FVec Ideal S4096x8 .f32 :=
  matmul dot_S4096x100_S100x8_S4096x8_1_0_0_1_n_n none (hot5 sid) t5 (constant S4096x8 .f32 0x00000000#32)

/-- The 48 features of every row, side by side. -/
def cat (x : FVec Ideal S4096x32 .f32) (sid : IVec S4096x2 32) (t4 : FVec Ideal S1000x8 .f32) (t5 : FVec Ideal S100x8 .f32) :
    FVec Ideal S4096x48 .f32 :=
  concatenate S4096x48 1 [⟨S4096x32, shapeCast S4096x32 x shapeCasts_S4096x32_S4096x32⟩, ⟨S4096x8, gat4 sid t4⟩, ⟨S4096x8, gat5 sid t5⟩]
    concatenates_S4096x32_S4096x8_S4096x8_S4096x48_d1

/-- The hidden layer before its activation: features times weights, plus the bias. -/
def pre (x : FVec Ideal S4096x32 .f32) (sid : IVec S4096x2 32) (t4 : FVec Ideal S1000x8 .f32) (t5 : FVec Ideal S100x8 .f32)
    (w1 : FVec Ideal S48x32 .f32) (b1 : FVec Ideal S32 .f32) : FVec Ideal S4096x32 .f32 :=
  addf (matmul dot_S4096x48_S48x32_S4096x32_1_0_0_1_n_n none (cat x sid t4 t5) w1 (constant S4096x32 .f32 0x00000000#32))
    (broadcastTo S4096x32 (shapeCast S1x32 b1 shapeCasts_S32_S1x32) broadcasts_S1x32_S4096x32)

/-- The hidden layer: the activation as the body's select. -/
def hid (x : FVec Ideal S4096x32 .f32) (sid : IVec S4096x2 32) (t4 : FVec Ideal S1000x8 .f32) (t5 : FVec Ideal S100x8 .f32)
    (w1 : FVec Ideal S48x32 .f32) (b1 : FVec Ideal S32 .f32) : FVec Ideal S4096x32 .f32 :=
  select (cmpf .ogt (pre x sid t4 t5 w1 b1) (broadcast S4096x32 (Scalar.ofBits (F := Ideal) .f32 0x00000000#32)))
    (pre x sid t4 t5 w1 b1)
    (subf (exp (pre x sid t4 t5 w1 b1)) (broadcast S4096x32 (Scalar.ofBits (F := Ideal) .f32 0x3F800000#32)))

/-- The generated payload is the last product over these stages. -/
theorem pay2_eq (x : FVec Ideal S4096x32 .f32) (sid : IVec S4096x2 32) (t4 : FVec Ideal S1000x8 .f32) (t5 : FVec Ideal S100x8 .f32)
    (w1 : FVec Ideal S48x32 .f32) (b1 : FVec Ideal S32 .f32) (w2 : FVec Ideal S32x1 .f32) :
    k0_pay2 (F := Ideal) sid t4 t5 x w1 b1 w2
      = matmul dot_S4096x32_S32x1_S4096x1_1_0_0_1_n_n none (hid x sid t4 t5 w1 b1) w2 (constant S4096x1 .f32 0x00000000#32) := rfl

/-- The stored block is that product plus the output bias spread over the rows. -/
theorem pay1_eq (v36 : FVec Ideal S4096x1 .f32) (b2 : FVec Ideal S1 .f32) :
    k0_pay1 (F := Ideal) v36 (k0_pay3 b2)
      = addf v36 (broadcastTo S4096x1 (shapeCast S1x1 b2 shapeCasts_S1_S1x1) broadcasts_S1x1_S4096x1) := rfl

/-! ### Each stage at an index -/

theorem hot4_apply (sid : IVec S4096x2 32) (p : Fin 4096) (q : Fin 1000) :
    hot4 sid (ix2 p q) = if sid (ix2 p 0) = BitVec.ofNat 32 q.val then (1 : EReal) else 0 :=
  onehot_apply 0 (by decide) sid _ _ _ _ _ _ p q

theorem hot5_apply (sid : IVec S4096x2 32) (p : Fin 4096) (q : Fin 100) :
    hot5 sid (ix2 p q) = if sid (ix2 p 1) = BitVec.ofNat 32 q.val then (1 : EReal) else 0 :=
  onehot_apply 1 (by decide) sid _ _ _ _ _ _ p q

/-- The one-hot product against the table of 1000 rows is the row the id names. -/
theorem gat4_apply (sid : IVec S4096x2 32) (t4 : FVec Ideal S1000x8 .f32) (p : Fin 4096) (d : Fin 8)
    (h4 : 0 ≤ (sid (ix2 p 0)).toInt ∧ (sid (ix2 p 0)).toInt < 1000) :
    gat4 sid t4 (ix2 p d) = look (by decide) t4 (sid (ix2 p 0)) d := by
  unfold gat4
  rw [mm_t4]
  refine (Finset.sum_congr rfl fun q _ => by rw [hot4_apply]).trans ?_
  exact onehot_sum (n := 1000) (by decide) (by norm_num) (fun q => t4 (ix2 q d)) (sid (ix2 p 0)) h4.1
    (by have := h4.2; omega)

/-- The one-hot product against the table of 100 rows is the row the id names. -/
theorem gat5_apply (sid : IVec S4096x2 32) (t5 : FVec Ideal S100x8 .f32) (p : Fin 4096) (d : Fin 8)
    (h5 : 0 ≤ (sid (ix2 p 1)).toInt ∧ (sid (ix2 p 1)).toInt < 100) :
    gat5 sid t5 (ix2 p d) = look (by decide) t5 (sid (ix2 p 1)) d := by
  unfold gat5
  rw [mm_t5]
  refine (Finset.sum_congr rfl fun q _ => by rw [hot5_apply]).trans ?_
  exact onehot_sum (n := 100) (by decide) (by norm_num) (fun q => t5 (ix2 q d)) (sid (ix2 p 1)) h5.1
    (by have := h5.2; omega)

/-- The concatenation at column `k` of row `p` is feature `k` of that row. -/
theorem cat_apply (x : FVec Ideal S4096x32 .f32) (sid : IVec S4096x2 32) (t4 : FVec Ideal S1000x8 .f32) (t5 : FVec Ideal S100x8 .f32)
    (p : Fin 4096) (k : Fin 48)
    (h4 : 0 ≤ (sid (ix2 p 0)).toInt ∧ (sid (ix2 p 0)).toInt < 1000) (h5 : 0 ≤ (sid (ix2 p 1)).toInt ∧ (sid (ix2 p 1)).toInt < 100) :
    cat x sid t4 t5 (ix2 p k) = blkFeat x sid t4 t5 p k := by
  unfold cat blkFeat
  by_cases h : k.val < 32
  · rw [dif_pos h, cat_apply_x _ _ _ p k h, shapeCast_self]
  · rw [dif_neg h]
    by_cases h1 : k.val < 40
    · rw [dif_pos h1, cat_apply_y _ _ _ p k h h1, gat4_apply _ _ _ _ h4]
    · rw [dif_neg h1, cat_apply_z _ _ _ p k h1, gat5_apply _ _ _ _ h5]

/-- The hidden layer before activation, at unit `j` of row `p`. -/
theorem pre_apply (x : FVec Ideal S4096x32 .f32) (sid : IVec S4096x2 32) (t4 : FVec Ideal S1000x8 .f32) (t5 : FVec Ideal S100x8 .f32)
    (w1 : FVec Ideal S48x32 .f32) (b1 : FVec Ideal S32 .f32) (p : Fin 4096) (j : Fin 32)
    (h4 : 0 ≤ (sid (ix2 p 0)).toInt ∧ (sid (ix2 p 0)).toInt < 1000) (h5 : 0 ≤ (sid (ix2 p 1)).toInt ∧ (sid (ix2 p 1)).toInt < 100) :
    pre x sid t4 t5 w1 b1 (ix2 p j) = (∑ k : Fin 48, blkFeat x sid t4 t5 p k * w1 (ix2 k j)) + b1 (ix1 j) := by
  unfold pre
  rw [addf_apply, mm_w1, bias1_apply]
  refine congrArg (· + b1 (ix1 j)) ?_
  exact Finset.sum_congr rfl fun k _ => by rw [cat_apply x sid t4 t5 p k h4 h5]

/-- The hidden layer at unit `j` of row `p`. -/
theorem hid_apply (x : FVec Ideal S4096x32 .f32) (sid : IVec S4096x2 32) (t4 : FVec Ideal S1000x8 .f32) (t5 : FVec Ideal S100x8 .f32)
    (w1 : FVec Ideal S48x32 .f32) (b1 : FVec Ideal S32 .f32) (p : Fin 4096) (j : Fin 32)
    (h4 : 0 ≤ (sid (ix2 p 0)).toInt ∧ (sid (ix2 p 0)).toInt < 1000) (h5 : 0 ≤ (sid (ix2 p 1)).toInt ∧ (sid (ix2 p 1)).toInt < 100) :
    hid x sid t4 t5 w1 b1 (ix2 p j) = hidRow (blkFeat x sid t4 t5 p) w1 b1 j := by
  unfold hid hidRow
  refine (elu_scalar _).trans ?_
  rw [pre_apply x sid t4 t5 w1 b1 p j h4 h5]

/-- What the kernel body stores at row `p` of a block: the tower's output on that row's 48 features. -/
theorem block_apply (x : Vec Ideal S4096x32 .f32) (sid : Vec Ideal S4096x2 .i32) (t4 : Vec Ideal S1000x8 .f32) (t5 : Vec Ideal S100x8 .f32)
    (w1 : Vec Ideal S48x32 .f32) (b1 : Vec Ideal S32 .f32) (w2 : Vec Ideal S32x1 .f32) (b2 : Vec Ideal S1 .f32) (p : Fin 4096)
    (h4 : 0 ≤ (sid (ix2 p 0)).toInt ∧ (sid (ix2 p 0)).toInt < 1000) (h5 : 0 ≤ (sid (ix2 p 1)).toInt ∧ (sid (ix2 p 1)).toInt < 100) :
    k0_pay1 (F := Ideal) (k0_pay2 sid t4 t5 x w1 b1 w2) (k0_pay3 b2) (ix2 p 0)
      = Cert.Tower.outRow (blkFeat x sid t4 t5 p) w1 b1 w2 b2 := by
  rw [pay2_eq, pay1_eq, addf_apply, mm_w2, bias2_apply]
  unfold outRow
  refine congrArg (· + b2 (ix1 0)) ?_
  exact Finset.sum_congr rfl fun j _ => by rw [hid_apply x sid t4 t5 w1 b1 p j h4 h5]

end Cert.KernelIdeal.Hand

end
-- ==== Proof.LibGatherRows.lean ====
/-
  A gather that takes whole ROWS of a rank-2 table (what `table[idx]` prints for an `[N, C]` table and a vector of `n`
  row numbers laid out as an `[n, 1]` column of start indices): offset axis 1, collapsed axis 0, start index map `[0]`, the
  index vector along axis 1 of the start indices, slices of one row.

  Read at result index `(p, q)` it is the table at `(r, q)`, where `r` is start index `p` read signed and clamped into
  `[0, N − 1]`: on the row axis the operand coordinate is the clamped start (no batching axis, and a collapsed axis has
  no offset); on the column axis there is no start, and the offset coordinate is the result's own column.
-/
import Idealize.ShloMosaic.PureOps
import Idealize.ShloMosaic.Lib.ValueIdx

namespace Idealize.ShloMosaic.GatherRows

open Idealize.ShloMosaic Idealize.ShloMosaic.ValueIdx

variable {α : Type}

/-- The dimension numbers of a row-take from an `[N, C]` table by an `[n, 1]` column of row numbers. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW-TAKE READ AT `(p, q)`: the table at row `idx[p, 0]` (signed, clamped into `[0, N − 1]`), column `q`. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 ⟨min (idx (ix2 p ⟨0, Nat.one_pos⟩)).toInt.toNat (N - 1), by omega⟩ q) := by
  unfold Host.gather
  congr 1
  funext a
  refine Fin.ext ?_
  show (rowDims N C n wf).start (ix2 p q) idx a + (rowDims N C n wf).batchCoord (ix2 p q) a
    + (rowDims N C n wf).offCoord (ix2 p q) a = _
  rw [GatherDims.batchCoord_eq_zero _ _ _ List.not_mem_nil, Nat.add_zero]
  match a with
  | ⟨0, _⟩ =>
    -- the row axis: collapsed, so no offset; its start is the clamped start index
    rw [GatherDims.offCoord_eq_zero _ _ _
      (fun h => ((GatherDims.mem_sKept _ _).mp h).1 (List.mem_singleton.mpr rfl)), Nat.add_zero]
    unfold GatherDims.start
    rw [dif_pos (show (⟨0, by decide⟩ : Fin 2) ∈ (rowDims N C n wf).startIndexMap from List.mem_singleton.mpr rfl)]
    have hsi : (rowDims N C n wf).siIdx (ix2 p q)
        ⟨List.idxOf (⟨0, by decide⟩ : Fin 2) (rowDims N C n wf).startIndexMap,
          List.idxOf_lt_length_iff.2 (List.mem_singleton.mpr rfl)⟩ = ix2 p ⟨0, Nat.one_pos⟩ := by
      funext b; refine Fin.ext ?_
      match b with
      | ⟨0, _⟩ => rfl
      | ⟨1, _⟩ => rfl
    rw [hsi]
    rfl
  | ⟨1, _⟩ =>
    -- the column axis: no start index names it; the offset is the result's own column
    have hs : (rowDims N C n wf).start (ix2 p q) idx (⟨1, Nat.one_lt_two⟩ : Fin 2) = 0 := by
      unfold GatherDims.start
      rw [dif_neg (fun h => by have := congrArg Fin.val (List.mem_singleton.mp h); simp at this)]
    rw [hs, Nat.zero_add]
    rfl

end Idealize.ShloMosaic.GatherRows
-- ==== Proof.LibConcat4.lean ====
/-
  A concatenation of four `[n, 8]` arrays along the column axis, read at an index. The result is `[n, 32]`; its columns
  `8 j ≤ k < 8 j + 8` are piece `j`'s columns `0 … 7`, the rows unchanged: at `(r, k)` the concatenation is piece `j` at
  `(r, k − 8 j)`. One statement per piece; each reads the general "piece whose span along the axis holds the coordinate"
  lemma at the four literal extents (the extents before piece `j` sum to `8 j`).
-/
import Idealize.ShloMosaic.PureOps
import Idealize.ShloMosaic.Lib.ValueIdx
import Idealize.ShloMosaic.Lib.Pipeline.Value

namespace Idealize.ShloMosaic.Concat4

open Idealize.ShloMosaic Idealize.ShloMosaic.ValueIdx

/-- Columns `k < 8` of the concatenation are the first piece: at `(r, k)` it is that piece at `(r, k)`. -/
theorem concat4x8_apply_0 {α : Type} {n : Nat}
    (h : Shape.Concatenates [(⟨2, ![n, 8]⟩ : Shape), ⟨2, ![n, 8]⟩, ⟨2, ![n, 8]⟩, ⟨2, ![n, 8]⟩] ⟨2, ![n, 32]⟩ 1)
    (x0 x1 x2 x3 : (⟨2, ![n, 8]⟩ : Shape).Idx → α) (r : Fin n) (k : Fin 32) (h1 : k.val < 8) :
    concatenate ⟨2, ![n, 32]⟩ 1 [⟨⟨2, ![n, 8]⟩, x0⟩, ⟨⟨2, ![n, 8]⟩, x1⟩, ⟨⟨2, ![n, 8]⟩, x2⟩, ⟨⟨2, ![n, 8]⟩, x3⟩] h (ix2 r k)
      = x0 (ix2 r ⟨k.val, h1⟩) := by
  refine concatenate_apply_piece (1 : Fin (⟨2, ![n, 32]⟩ : Shape).rank)
    [⟨⟨2, ![n, 8]⟩, x0⟩, ⟨⟨2, ![n, 8]⟩, x1⟩, ⟨⟨2, ![n, 8]⟩, x2⟩, ⟨⟨2, ![n, 8]⟩, x3⟩] h (ix2 r k) 0 (by show 0 < 4; omega) ⟨2, ![n, 8]⟩ x0 rfl rfl 0 rfl
    (ix2 r ⟨k.val, h1⟩) (fun b hb => ?_) ?_
  · match b with
    | ⟨0, _⟩ => rfl
    | ⟨1, _⟩ => exact absurd rfl hb
  · show 0 + k.val = k.val; omega

/-- Columns `8 ≤ k < 16` of the concatenation are the second piece: at `(r, k)` it is that piece at `(r, k − 8)`. -/
theorem concat4x8_apply_1 {α : Type} {n : Nat}
    (h : Shape.Concatenates [(⟨2, ![n, 8]⟩ : Shape), ⟨2, ![n, 8]⟩, ⟨2, ![n, 8]⟩, ⟨2, ![n, 8]⟩] ⟨2, ![n, 32]⟩ 1)
    (x0 x1 x2 x3 : (⟨2, ![n, 8]⟩ : Shape).Idx → α) (r : Fin n) (k : Fin 32) (h0 : 8 ≤ k.val) (h1 : k.val < 16) :
    concatenate ⟨2, ![n, 32]⟩ 1 [⟨⟨2, ![n, 8]⟩, x0⟩, ⟨⟨2, ![n, 8]⟩, x1⟩, ⟨⟨2, ![n, 8]⟩, x2⟩, ⟨⟨2, ![n, 8]⟩, x3⟩] h (ix2 r k)
      = x1 (ix2 r ⟨k.val - 8, by omega⟩) := by
  refine concatenate_apply_piece (1 : Fin (⟨2, ![n, 32]⟩ : Shape).rank)
    [⟨⟨2, ![n, 8]⟩, x0⟩, ⟨⟨2, ![n, 8]⟩, x1⟩, ⟨⟨2, ![n, 8]⟩, x2⟩, ⟨⟨2, ![n, 8]⟩, x3⟩] h (ix2 r k) 1 (by show 1 < 4; omega) ⟨2, ![n, 8]⟩ x1 rfl rfl 8 rfl
    (ix2 r ⟨k.val - 8, by omega⟩) (fun b hb => ?_) ?_
  · match b with
    | ⟨0, _⟩ => rfl
    | ⟨1, _⟩ => exact absurd rfl hb
  · show 8 + (k.val - 8) = k.val; omega

/-- Columns `16 ≤ k < 24` of the concatenation are the third piece: at `(r, k)` it is that piece at `(r, k − 16)`. -/
theorem concat4x8_apply_2 {α : Type} {n : Nat}
    (h : Shape.Concatenates [(⟨2, ![n, 8]⟩ : Shape), ⟨2, ![n, 8]⟩, ⟨2, ![n, 8]⟩, ⟨2, ![n, 8]⟩] ⟨2, ![n, 32]⟩ 1)
    (x0 x1 x2 x3 : (⟨2, ![n, 8]⟩ : Shape).Idx → α) (r : Fin n) (k : Fin 32) (h0 : 16 ≤ k.val) (h1 : k.val < 24) :
    concatenate ⟨2, ![n, 32]⟩ 1 [⟨⟨2, ![n, 8]⟩, x0⟩, ⟨⟨2, ![n, 8]⟩, x1⟩, ⟨⟨2, ![n, 8]⟩, x2⟩, ⟨⟨2, ![n, 8]⟩, x3⟩] h (ix2 r k)
      = x2 (ix2 r ⟨k.val - 16, by omega⟩) := by
  refine concatenate_apply_piece (1 : Fin (⟨2, ![n, 32]⟩ : Shape).rank)
    [⟨⟨2, ![n, 8]⟩, x0⟩, ⟨⟨2, ![n, 8]⟩, x1⟩, ⟨⟨2, ![n, 8]⟩, x2⟩, ⟨⟨2, ![n, 8]⟩, x3⟩] h (ix2 r k) 2 (by show 2 < 4; omega) ⟨2, ![n, 8]⟩ x2 rfl rfl 16 rfl
    (ix2 r ⟨k.val - 16, by omega⟩) (fun b hb => ?_) ?_
  · match b with
    | ⟨0, _⟩ => rfl
    | ⟨1, _⟩ => exact absurd rfl hb
  · show 16 + (k.val - 16) = k.val; omega

/-- Columns `24 ≤ k` of the concatenation are the fourth piece: at `(r, k)` it is that piece at `(r, k − 24)`. -/
theorem concat4x8_apply_3 {α : Type} {n : Nat}
    (h : Shape.Concatenates [(⟨2, ![n, 8]⟩ : Shape), ⟨2, ![n, 8]⟩, ⟨2, ![n, 8]⟩, ⟨2, ![n, 8]⟩] ⟨2, ![n, 32]⟩ 1)
    (x0 x1 x2 x3 : (⟨2, ![n, 8]⟩ : Shape).Idx → α) (r : Fin n) (k : Fin 32) (h0 : 24 ≤ k.val) :
    concatenate ⟨2, ![n, 32]⟩ 1 [⟨⟨2, ![n, 8]⟩, x0⟩, ⟨⟨2, ![n, 8]⟩, x1⟩, ⟨⟨2, ![n, 8]⟩, x2⟩, ⟨⟨2, ![n, 8]⟩, x3⟩] h (ix2 r k)
      = x3 (ix2 r ⟨k.val - 24, by omega⟩) := by
  refine concatenate_apply_piece (1 : Fin (⟨2, ![n, 32]⟩ : Shape).rank)
    [⟨⟨2, ![n, 8]⟩, x0⟩, ⟨⟨2, ![n, 8]⟩, x1⟩, ⟨⟨2, ![n, 8]⟩, x2⟩, ⟨⟨2, ![n, 8]⟩, x3⟩] h (ix2 r k) 3 (by show 3 < 4; omega) ⟨2, ![n, 8]⟩ x3 rfl rfl 24 rfl
    (ix2 r ⟨k.val - 24, by omega⟩) (fun b hb => ?_) ?_
  · match b with
    | ⟨0, _⟩ => rfl
    | ⟨1, _⟩ => exact absurd rfl hb
  · show 24 + (k.val - 24) = k.val; omega

end Idealize.ShloMosaic.Concat4
-- ==== Proof.KerFrames.lean ====
/-
  The host operations before the kernel's region, as a frame: which references each of the nine lists writes, and that
  every other reference keeps its contents through the list — and so the program's eleven arguments keep theirs through
  all 103 operations.
-/
import proofs.«407622_j82471962018216_3_alg».proof.Proof.Gen.KernelIdeal.Launch
import Idealize.ShloMosaic.Lib.StableHlo.Run
import Idealize.ShloMosaic.Lib.Pipeline.Frame

noncomputable section

namespace Cert.KernelIdeal.Hand

open Cert.KernelIdeal Cert.KernelIdeal.Gen Idealize.ShloMosaic Idealize.ShloMosaic.StableHlo

variable {F : FTy → Type} [FloatOps F]

/-- The 103 host operations before the region, list after list. -/
abbrev preOps : List (HloOp τ sig (Elt F)) :=
  List.flatten [hostOps0, hostOps0_1, hostOps0_2, hostOps0_3, hostOps0_4, hostOps0_5, hostOps0_6, hostOps0_7, hostOps0_8]

/-- An operation whose one written buffer is the reference `y`, a member of the list `W`, writes inside `W`. -/
theorem writes_sub {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

/-- The references list 0 writes: each operation's result, in order. -/
def wr0 : List (Ref sig .tc) :=
  [main_v0, main_v1, main_v2]

/-- Every operation of list 0 writes inside `wr0`. -/
theorem hw0 : (hostOps0 (F := F)).Forall fun op => op.writes ⊆ (wr0.map (Proc.devRef (τ := τ) .tc)).toFinset :=
  ⟨writes_sub main_v0 rfl (by decide),
   writes_sub main_v1 rfl (by decide),
   writes_sub main_v2 rfl (by decide)⟩

/-- A reference list 0 does not write keeps its contents through it. -/
theorem fr0 (V : Valuation τ sig (Elt F)) (r : Ref sig .tc) (h : r ∉ wr0) :
    StableHlo.after (hostOps0 (F := F)) V (Proc.devRef .tc r) = V (Proc.devRef .tc r) :=
  StableHlo.after_of_writes_sub _ V hw0 h

/-- The references list 1 writes: each operation's result, in order. -/
def wr1 : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v3]

/-- Every operation of list 1 writes inside `wr1`. -/
theorem hw1 : (hostOps0_1 (F := F)).Forall fun op => op.writes ⊆ (wr1.map (Proc.devRef (τ := τ) .tc)).toFinset :=
  ⟨writes_sub main_call0_c rfl (by decide),
   writes_sub main_call0_v0 rfl (by decide),
   writes_sub main_call0_v1 rfl (by decide),
   writes_sub main_call0_c_0 rfl (by decide),
   writes_sub main_call0_v2 rfl (by decide),
   writes_sub main_call0_v3 rfl (by decide),
   writes_sub main_call0_v4 rfl (by decide),
   writes_sub main_call0_v5 rfl (by decide),
   writes_sub main_call0_c_1 rfl (by decide),
   writes_sub main_call0_c_2 rfl (by decide),
   writes_sub main_call0_v6 rfl (by decide),
   writes_sub main_call0_v7 rfl (by decide),
   writes_sub main_call0_v8 rfl (by decide),
   writes_sub main_call0_v9 rfl (by decide),
   writes_sub main_call0_v10 rfl (by decide),
   writes_sub main_call0_v11 rfl (by decide),
   writes_sub main_call0_c_3 rfl (by decide),
   writes_sub main_call0_v12 rfl (by decide),
   writes_sub main_call0_v13 rfl (by decide),
   writes_sub main_call0_v14 rfl (by decide),
   writes_sub main_call0_cst rfl (by decide),
   writes_sub main_call0_v15 rfl (by decide),
   writes_sub main_v3 rfl (by decide)⟩

/-- A reference list 1 does not write keeps its contents through it. -/
theorem fr1 (V : Valuation τ sig (Elt F)) (r : Ref sig .tc) (h : r ∉ wr1) :
    StableHlo.after (hostOps0_1 (F := F)) V (Proc.devRef .tc r) = V (Proc.devRef .tc r) :=
  StableHlo.after_of_writes_sub _ V hw1 h

/-- The references list 2 writes: each operation's result, in order. -/
def wr2 : List (Ref sig .tc) :=
  [main_v4, main_v5]

/-- Every operation of list 2 writes inside `wr2`. -/
theorem hw2 : (hostOps0_2 (F := F)).Forall fun op => op.writes ⊆ (wr2.map (Proc.devRef (τ := τ) .tc)).toFinset :=
  ⟨writes_sub main_v4 rfl (by decide),
   writes_sub main_v5 rfl (by decide)⟩

/-- A reference list 2 does not write keeps its contents through it. -/
theorem fr2 (V : Valuation τ sig (Elt F)) (r : Ref sig .tc) (h : r ∉ wr2) :
    StableHlo.after (hostOps0_2 (F := F)) V (Proc.devRef .tc r) = V (Proc.devRef .tc r) :=
  StableHlo.after_of_writes_sub _ V hw2 h

/-- The references list 3 writes: each operation's result, in order. -/
def wr3 : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v6]

/-- Every operation of list 3 writes inside `wr3`. -/
theorem hw3 : (hostOps0_3 (F := F)).Forall fun op => op.writes ⊆ (wr3.map (Proc.devRef (τ := τ) .tc)).toFinset :=
  ⟨writes_sub main_call1_c rfl (by decide),
   writes_sub main_call1_v0 rfl (by decide),
   writes_sub main_call1_v1 rfl (by decide),
   writes_sub main_call1_c_0 rfl (by decide),
   writes_sub main_call1_v2 rfl (by decide),
   writes_sub main_call1_v3 rfl (by decide),
   writes_sub main_call1_v4 rfl (by decide),
   writes_sub main_call1_v5 rfl (by decide),
   writes_sub main_call1_c_1 rfl (by decide),
   writes_sub main_call1_c_2 rfl (by decide),
   writes_sub main_call1_v6 rfl (by decide),
   writes_sub main_call1_v7 rfl (by decide),
   writes_sub main_call1_v8 rfl (by decide),
   writes_sub main_call1_v9 rfl (by decide),
   writes_sub main_call1_v10 rfl (by decide),
   writes_sub main_call1_v11 rfl (by decide),
   writes_sub main_call1_c_3 rfl (by decide),
   writes_sub main_call1_v12 rfl (by decide),
   writes_sub main_call1_v13 rfl (by decide),
   writes_sub main_call1_v14 rfl (by decide),
   writes_sub main_call1_cst rfl (by decide),
   writes_sub main_call1_v15 rfl (by decide),
   writes_sub main_v6 rfl (by decide)⟩

/-- A reference list 3 does not write keeps its contents through it. -/
theorem fr3 (V : Valuation τ sig (Elt F)) (r : Ref sig .tc) (h : r ∉ wr3) :
    StableHlo.after (hostOps0_3 (F := F)) V (Proc.devRef .tc r) = V (Proc.devRef .tc r) :=
  StableHlo.after_of_writes_sub _ V hw3 h

/-- The references list 4 writes: each operation's result, in order. -/
def wr4 : List (Ref sig .tc) :=
  [main_v7, main_v8]

/-- Every operation of list 4 writes inside `wr4`. -/
theorem hw4 : (hostOps0_4 (F := F)).Forall fun op => op.writes ⊆ (wr4.map (Proc.devRef (τ := τ) .tc)).toFinset :=
  ⟨writes_sub main_v7 rfl (by decide),
   writes_sub main_v8 rfl (by decide)⟩

/-- A reference list 4 does not write keeps its contents through it. -/
theorem fr4 (V : Valuation τ sig (Elt F)) (r : Ref sig .tc) (h : r ∉ wr4) :
    StableHlo.after (hostOps0_4 (F := F)) V (Proc.devRef .tc r) = V (Proc.devRef .tc r) :=
  StableHlo.after_of_writes_sub _ V hw4 h

/-- The references list 5 writes: each operation's result, in order. -/
def wr5 : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v9]

/-- Every operation of list 5 writes inside `wr5`. -/
theorem hw5 : (hostOps0_5 (F := F)).Forall fun op => op.writes ⊆ (wr5.map (Proc.devRef (τ := τ) .tc)).toFinset :=
  ⟨writes_sub main_call2_c rfl (by decide),
   writes_sub main_call2_v0 rfl (by decide),
   writes_sub main_call2_v1 rfl (by decide),
   writes_sub main_call2_c_0 rfl (by decide),
   writes_sub main_call2_v2 rfl (by decide),
   writes_sub main_call2_v3 rfl (by decide),
   writes_sub main_call2_v4 rfl (by decide),
   writes_sub main_call2_v5 rfl (by decide),
   writes_sub main_call2_c_1 rfl (by decide),
   writes_sub main_call2_c_2 rfl (by decide),
   writes_sub main_call2_v6 rfl (by decide),
   writes_sub main_call2_v7 rfl (by decide),
   writes_sub main_call2_v8 rfl (by decide),
   writes_sub main_call2_v9 rfl (by decide),
   writes_sub main_call2_v10 rfl (by decide),
   writes_sub main_call2_v11 rfl (by decide),
   writes_sub main_call2_c_3 rfl (by decide),
   writes_sub main_call2_v12 rfl (by decide),
   writes_sub main_call2_v13 rfl (by decide),
   writes_sub main_call2_v14 rfl (by decide),
   writes_sub main_call2_cst rfl (by decide),
   writes_sub main_call2_v15 rfl (by decide),
   writes_sub main_v9 rfl (by decide)⟩

/-- A reference list 5 does not write keeps its contents through it. -/
theorem fr5 (V : Valuation τ sig (Elt F)) (r : Ref sig .tc) (h : r ∉ wr5) :
    StableHlo.after (hostOps0_5 (F := F)) V (Proc.devRef .tc r) = V (Proc.devRef .tc r) :=
  StableHlo.after_of_writes_sub _ V hw5 h

/-- The references list 6 writes: each operation's result, in order. -/
def wr6 : List (Ref sig .tc) :=
  [main_v10, main_v11]

/-- Every operation of list 6 writes inside `wr6`. -/
theorem hw6 : (hostOps0_6 (F := F)).Forall fun op => op.writes ⊆ (wr6.map (Proc.devRef (τ := τ) .tc)).toFinset :=
  ⟨writes_sub main_v10 rfl (by decide),
   writes_sub main_v11 rfl (by decide)⟩

/-- A reference list 6 does not write keeps its contents through it. -/
theorem fr6 (V : Valuation τ sig (Elt F)) (r : Ref sig .tc) (h : r ∉ wr6) :
    StableHlo.after (hostOps0_6 (F := F)) V (Proc.devRef .tc r) = V (Proc.devRef .tc r) :=
  StableHlo.after_of_writes_sub _ V hw6 h

/-- The references list 7 writes: each operation's result, in order. -/
def wr7 : List (Ref sig .tc) :=
  [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v12]

/-- Every operation of list 7 writes inside `wr7`. -/
theorem hw7 : (hostOps0_7 (F := F)).Forall fun op => op.writes ⊆ (wr7.map (Proc.devRef (τ := τ) .tc)).toFinset :=
  ⟨writes_sub main_call3_c rfl (by decide),
   writes_sub main_call3_v0 rfl (by decide),
   writes_sub main_call3_v1 rfl (by decide),
   writes_sub main_call3_c_0 rfl (by decide),
   writes_sub main_call3_v2 rfl (by decide),
   writes_sub main_call3_v3 rfl (by decide),
   writes_sub main_call3_v4 rfl (by decide),
   writes_sub main_call3_v5 rfl (by decide),
   writes_sub main_call3_c_1 rfl (by decide),
   writes_sub main_call3_c_2 rfl (by decide),
   writes_sub main_call3_v6 rfl (by decide),
   writes_sub main_call3_v7 rfl (by decide),
   writes_sub main_call3_v8 rfl (by decide),
   writes_sub main_call3_v9 rfl (by decide),
   writes_sub main_call3_v10 rfl (by decide),
   writes_sub main_call3_v11 rfl (by decide),
   writes_sub main_call3_c_3 rfl (by decide),
   writes_sub main_call3_v12 rfl (by decide),
   writes_sub main_call3_v13 rfl (by decide),
   writes_sub main_call3_v14 rfl (by decide),
   writes_sub main_call3_cst rfl (by decide),
   writes_sub main_call3_v15 rfl (by decide),
   writes_sub main_v12 rfl (by decide)⟩

/-- A reference list 7 does not write keeps its contents through it. -/
theorem fr7 (V : Valuation τ sig (Elt F)) (r : Ref sig .tc) (h : r ∉ wr7) :
    StableHlo.after (hostOps0_7 (F := F)) V (Proc.devRef .tc r) = V (Proc.devRef .tc r) :=
  StableHlo.after_of_writes_sub _ V hw7 h

/-- The references list 8 writes: each operation's result, in order. -/
def wr8 : List (Ref sig .tc) :=
  [main_v13, main_v14]

/-- Every operation of list 8 writes inside `wr8`. -/
theorem hw8 : (hostOps0_8 (F := F)).Forall fun op => op.writes ⊆ (wr8.map (Proc.devRef (τ := τ) .tc)).toFinset :=
  ⟨writes_sub main_v13 rfl (by decide),
   writes_sub main_v14 rfl (by decide)⟩

/-- A reference list 8 does not write keeps its contents through it. -/
theorem fr8 (V : Valuation τ sig (Elt F)) (r : Ref sig .tc) (h : r ∉ wr8) :
    StableHlo.after (hostOps0_8 (F := F)) V (Proc.devRef .tc r) = V (Proc.devRef .tc r) :=
  StableHlo.after_of_writes_sub _ V hw8 h

/-- The nine lists run one after the other. -/
theorem pre_eq (W : Valuation τ sig (Elt F)) :
    StableHlo.after (preOps (F := F)) W
      = StableHlo.after hostOps0_8 (StableHlo.after hostOps0_7 (StableHlo.after hostOps0_6 (StableHlo.after hostOps0_5
          (StableHlo.after hostOps0_4 (StableHlo.after hostOps0_3 (StableHlo.after hostOps0_2 (StableHlo.after hostOps0_1
            (StableHlo.after hostOps0 W)))))))) := by
  simp only [preOps, List.flatten_cons, List.flatten_nil, List.append_nil, StableHlo.after_append]

/-- A reference none of the nine lists writes keeps its contents through all of them. -/
theorem pre_frame (W : Valuation τ sig (Elt F)) (r : Ref sig .tc) (h0 : r ∉ wr0) (h1 : r ∉ wr1) (h2 : r ∉ wr2) (h3 : r ∉ wr3)
    (h4 : r ∉ wr4) (h5 : r ∉ wr5) (h6 : r ∉ wr6) (h7 : r ∉ wr7) (h8 : r ∉ wr8) :
    StableHlo.after (preOps (F := F)) W (Proc.devRef .tc r) = W (Proc.devRef .tc r) := by
  rw [pre_eq, fr8 _ r h8, fr7 _ r h7, fr6 _ r h6, fr5 _ r h5, fr4 _ r h4, fr3 _ r h3, fr2 _ r h2, fr1 _ r h1, fr0 _ r h0]

/-- Argument 0 is written by none of them. -/
theorem pre_arg0 (W : Valuation τ sig (Elt F)) :
    StableHlo.after (preOps (F := F)) W (Proc.devRef .tc main_arg0) = W (Proc.devRef .tc main_arg0) :=
  pre_frame W main_arg0 (by decide) (by decide) (by decide) (by decide) (by decide) (by decide) (by decide) (by decide) (by decide)

/-- Argument 1 is written by none of them. -/
theorem pre_arg1 (W : Valuation τ sig (Elt F)) :
    StableHlo.after (preOps (F := F)) W (Proc.devRef .tc main_arg1) = W (Proc.devRef .tc main_arg1) :=
  pre_frame W main_arg1 (by decide) (by decide) (by decide) (by decide) (by decide) (by decide) (by decide) (by decide) (by decide)

/-- Argument 2 is written by none of them. -/
theorem pre_arg2 (W : Valuation τ sig (Elt F)) :
    StableHlo.after (preOps (F := F)) W (Proc.devRef .tc main_arg2) = W (Proc.devRef .tc main_arg2) :=
  pre_frame W main_arg2 (by decide) (by decide) (by decide) (by decide) (by decide) (by decide) (by decide) (by decide) (by decide)

/-- Argument 3 is written by none of them. -/
theorem pre_arg3 (W : Valuation τ sig (Elt F)) :
    StableHlo.after (preOps (F := F)) W (Proc.devRef .tc main_arg3) = W (Proc.devRef .tc main_arg3) :=
  pre_frame W main_arg3 (by decide) (by decide) (by decide) (by decide) (by decide) (by decide) (by decide) (by decide) (by decide)

/-- Argument 4 is written by none of them. -/
theorem pre_arg4 (W : Valuation τ sig (Elt F)) :
    StableHlo.after (preOps (F := F)) W (Proc.devRef .tc main_arg4) = W (Proc.devRef .tc main_arg4) :=
  pre_frame W main_arg4 (by decide) (by decide) (by decide) (by decide) (by decide) (by decide) (by decide) (by decide) (by decide)

/-- Argument 5 is written by none of them. -/
theorem pre_arg5 (W : Valuation τ sig (Elt F)) :
    StableHlo.after (preOps (F := F)) W (Proc.devRef .tc main_arg5) = W (Proc.devRef .tc main_arg5) :=
  pre_frame W main_arg5 (by decide) (by decide) (by decide) (by decide) (by decide) (by decide) (by decide) (by decide) (by decide)

/-- Argument 6 is written by none of them. -/
theorem pre_arg6 (W : Valuation τ sig (Elt F)) :
    StableHlo.after (preOps (F := F)) W (Proc.devRef .tc main_arg6) = W (Proc.devRef .tc main_arg6) :=
  pre_frame W main_arg6 (by decide) (by decide) (by decide) (by decide) (by decide) (by decide) (by decide) (by decide) (by decide)

/-- Argument 7 is written by none of them. -/
theorem pre_arg7 (W : Valuation τ sig (Elt F)) :
    StableHlo.after (preOps (F := F)) W (Proc.devRef .tc main_arg7) = W (Proc.devRef .tc main_arg7) :=
  pre_frame W main_arg7 (by decide) (by decide) (by decide) (by decide) (by decide) (by decide) (by decide) (by decide) (by decide)

/-- Argument 8 is written by none of them. -/
theorem pre_arg8 (W : Valuation τ sig (Elt F)) :
    StableHlo.after (preOps (F := F)) W (Proc.devRef .tc main_arg8) = W (Proc.devRef .tc main_arg8) :=
  pre_frame W main_arg8 (by decide) (by decide) (by decide) (by decide) (by decide) (by decide) (by decide) (by decide) (by decide)

/-- Argument 9 is written by none of them. -/
theorem pre_arg9 (W : Valuation τ sig (Elt F)) :
    StableHlo.after (preOps (F := F)) W (Proc.devRef .tc main_arg9) = W (Proc.devRef .tc main_arg9) :=
  pre_frame W main_arg9 (by decide) (by decide) (by decide) (by decide) (by decide) (by decide) (by decide) (by decide) (by decide)

/-- Argument 10 is written by none of them. -/
theorem pre_arg10 (W : Valuation τ sig (Elt F)) :
    StableHlo.after (preOps (F := F)) W (Proc.devRef .tc main_arg10) = W (Proc.devRef .tc main_arg10) :=
  pre_frame W main_arg10 (by decide) (by decide) (by decide) (by decide) (by decide) (by decide) (by decide) (by decide) (by decide)

end Cert.KernelIdeal.Hand

end
-- ==== Proof.KerPrefix.lean ====
/-
  What the host lines of the kernel program that come before its one region leave in the buffers the region reads.

  The 103 operations flatten the ids `[4096, 50, 6]` to `[204800, 6]` (row `r` is token `(r / 50, r % 50)`); for each
  of the first four tables they cut the ids' column out and take the rows it names — a negative id wrapped by the row
  count, an in-range mask `0 ≤ i ≤ rows − 1`, a gather of rows, and a select that keeps the gathered row where the mask
  holds —; they lay the four takes side by side as `[204800, 32]`, and cut the ids' last two columns out as
  `[204800, 2]`. No argument is written.

  With every id inside its table the wrap is the identity and the mask holds, so entry `(r, k)` of the 32 features is
  entry `k % 8` of the row that the id of column `k / 8` names: the specification's `feat` at `k < 32`.
-/
import proofs.«407622_j82471962018216_3_alg».proof.Proof.Gen.KernelIdeal.Launch
import proofs.«407622_j82471962018216_3_alg».proof.Proof.Spec
import proofs.«407622_j82471962018216_3_alg».proof.Proof.LibGatherRows
import proofs.«407622_j82471962018216_3_alg».proof.Proof.LibConcat4
import proofs.«407622_j82471962018216_3_alg».proof.Proof.KerFrames
import Idealize.ShloMosaic.Lib.StableHlo.Run
import Idealize.ShloMosaic.Lib.ValueIdx
import Idealize.ShloMosaic.Lib.Pipeline.Value
import Idealize.ShloMosaic.Lib.Affine
import Idealize.ShloMosaic.PureOps.Reduce

noncomputable section

namespace Cert.KernelIdeal.Hand

open Cert.KernelIdeal Cert.KernelIdeal.Gen Cert.Tower Idealize.ShloMosaic Idealize.ShloMosaic.ValueIdx Idealize.ShloMosaic.StableHlo

variable {F : FTy → Type} [FloatOps F]

/-! ## The row-take's term, read at an index -/

/-- A left fold by `and` over one-bit words, begun at 1 over words that are all 1, ends at 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    exact foldl_andi_one f l _ (IntOp.andi_eq_one.2 ⟨h, hl a List.mem_cons_self⟩)
      (fun n hn => hl n (List.mem_cons_of_mem _ hn))

/-- The `and` over the one column of a `[204800, 1]` mask, begun at 1, is 1 at row `r` when the mask is 1 there. -/
theorem reduce_col_one (x : IVec S204800x1 1) (r : Fin 204800) (hx : ∀ q : Fin 1, x (ix2 r q) = 1#1) :
    Host.reduce IntOp.andi x (constantI S_ 1 1#1) reducesTo_S204800x1_S204800_d1 h_S_ (ix1 r) = 1#1 := by
  rw [Host.reduce_eq_foldl]
  refine foldl_andi_one x _ _ rfl fun i hi => ?_
  have hd : reducesTo_S204800x1_S204800_d1.drop i = ix1 r := of_decide_eq_true (List.mem_filter.1 hi).2
  have h0 : ((i 0 : Fin 204800) : Nat) = r.val := by
    rw [← Shape.ReducesTo.drop_apply_val_of_eq reducesTo_S204800x1_S204800_d1 i 0 0, hd]
  have e0 : i 0 = r := Fin.ext h0
  rw [eq_ix2 i, e0]
  exact hx _

/-- A vector laid down the rows of a one-column array, read at `(r, q)`. -/
theorem bcast_col_apply {α : Type} (m : S204800.Idx → α) (r : Fin 204800) (q : Fin 1) :
    broadcastInDim S204800x1 ![0] bcast_S204800_S204800x1_0 m (ix2 r q) = m (ix1 r) :=
  broadcastInDim_apply ![0] bcast_S204800_S204800x1_0 m (ix2 r q) (ix1 r) fun a =>
    match a with
    | ⟨0, _⟩ => (if_neg (show ¬(204800 : Nat) = 1 by decide)).symm

/-- A vector laid down the rows of an eight-column array, read at `(r, d)`. -/
theorem bcast_row8_apply {α : Type} (m : S204800.Idx → α) (r : Fin 204800) (d : Fin 8) :
    broadcastInDim S204800x8 ![0] bcast_S204800_S204800x8_0 m (ix2 r d) = m (ix1 r) :=
  broadcastInDim_apply ![0] bcast_S204800_S204800x8_0 m (ix2 r d) (ix1 r) fun a =>
    match a with
    | ⟨0, _⟩ => (if_neg (show ¬(204800 : Nat) = 1 by decide)).symm

/-- The row numbers the take gathers by: a negative id wrapped by the table's row count `nW`, as a column. -/
def takeIdx (nW : BitVec 32) (v : IVec S204800 32) : IVec S204800x1 32 :=
  broadcastInDim S204800x1 ![0] bcast_S204800_S204800x1_0
    (select (cmpi .slt v (broadcastInDim S204800 ![] bcast_S_S204800 (constantI S_ 32 0#32)))
      (addi v (broadcastInDim S204800 ![] bcast_S_S204800 (constantI S_ 32 nW))) v)

/-- The take's in-range mask: `0 ≤ i ≤ hiW` on the one column, reduced by `and`. -/
def takeMask (hiW : BitVec 32) (v5 : IVec S204800x1 32) : IVec S204800 1 :=
  Host.reduce IntOp.andi
    (andi (cmpi .sge v5 (broadcastInDim S204800x1 ![] bcast_S_S204800x1 (constantI S_ 32 0#32)))
      (cmpi .sle v5 (broadcastInDim S204800x1 ![0, 1] bcast_S1x1_S204800x1_0_1
        (broadcastInDim S1x1 ![1] bcast_S1_S1x1_1 (constantI S1 32 hiW)))))
    (constantI S_ 1 1#1) reducesTo_S204800x1_S204800_d1 h_S_

/-- The take of rows of an `[N, 8]` table `e` by the ids `v`: the gathered row where the mask holds, a fixed
    constant elsewhere. -/
def takeT {N : Nat} (gd : GatherDims ⟨2, ![N, 8]⟩ S204800x1 S204800x8) (nW hiW : BitVec 32)
    (e : FVec F ⟨2, ![N, 8]⟩ .f32) (v : IVec S204800 32) : FVec F S204800x8 .f32 :=
  select (broadcastInDim S204800x8 ![0] bcast_S204800_S204800x8_0 (takeMask hiW (takeIdx nW v)))
    (Host.gather gd e (takeIdx nW v))
    (broadcastInDim S204800x8 ![] bcast_S_S204800x8 (constant S_ .f32 0x7FC00000#32))

/-- A nonnegative id is not wrapped. -/
theorem takeIdx_apply (nW : BitVec 32) (v : IVec S204800 32) (r : Fin 204800) (q : Fin 1)
    (h0 : 0 ≤ (v (ix1 r)).toInt) : takeIdx nW v (ix2 r q) = v (ix1 r) := by
  have e : takeIdx nW v (ix2 r q)
      = Scalar.select (IntOp.cmpi .slt (v (ix1 r)) 0#32) (IntOp.addi (v (ix1 r)) nW) (v (ix1 r)) := by
    unfold takeIdx
    exact (bcast_col_apply _ r q).trans rfl
  rw [e]
  have hc : IntOp.cmpi .slt (v (ix1 r)) 0#32 = 0#1 := eq_zero_of_ne_one (fun h => by
    have h' := IntOp.cmpi_slt.1 h
    have z : (0#32 : BitVec 32).toInt = 0 := by decide
    omega)
  rw [hc, select_zero]

/-- The mask's word at `(r, q)`: the two comparisons of the row number. -/
theorem takeMask_word (hiW : BitVec 32) (v5 : IVec S204800x1 32) (r : Fin 204800) (q : Fin 1) :
    andi (cmpi .sge v5 (broadcastInDim S204800x1 ![] bcast_S_S204800x1 (constantI S_ 32 0#32)))
      (cmpi .sle v5 (broadcastInDim S204800x1 ![0, 1] bcast_S1x1_S204800x1_0_1
        (broadcastInDim S1x1 ![1] bcast_S1_S1x1_1 (constantI S1 32 hiW)))) (ix2 r q)
      = IntOp.andi (IntOp.cmpi .sge (v5 (ix2 r q)) 0#32) (IntOp.cmpi .sle (v5 (ix2 r q)) hiW) := rfl

/-- Where the row number lies in `[0, hiW]` the mask holds. -/
theorem takeMask_apply (hiW : BitVec 32) (v5 : IVec S204800x1 32) (r : Fin 204800)
    (h0 : ∀ q : Fin 1, 0 ≤ (v5 (ix2 r q)).toInt) (h1 : ∀ q : Fin 1, (v5 (ix2 r q)).toInt ≤ hiW.toInt) :
    takeMask hiW v5 (ix1 r) = 1#1 := by
  unfold takeMask
  refine reduce_col_one _ r fun q => ?_
  rw [takeMask_word]
  have z : (0#32 : BitVec 32).toInt = 0 := by decide
  exact IntOp.andi_eq_one.2 ⟨IntOp.cmpi_sge.2 (by have := h0 q; omega), IntOp.cmpi_sle.2 (h1 q)⟩

/-- THE TAKE AT `(r, d)`: for an id in `[0, hiW]` it is entry `d` of the row the id names, clamped into the table. -/
theorem takeT_apply {N : Nat} (hN : 0 < N)
    (wf : GatherDims.WF ⟨2, ![N, 8]⟩ ⟨2, ![204800, 1]⟩ ⟨2, ![204800, 8]⟩ [1] [0] [] [0] [] 1 ![1, 8])
    (nW hiW : BitVec 32) (e : FVec F ⟨2, ![N, 8]⟩ .f32) (v : IVec S204800 32) (r : Fin 204800) (d : Fin 8)
    (h0 : 0 ≤ (v (ix1 r)).toInt) (h1 : (v (ix1 r)).toInt ≤ hiW.toInt) :
    takeT (GatherRows.rowDims N 8 204800 wf) nW hiW e v (ix2 r d) = e (ix2 (rowOf N hN (v (ix1 r))) d) := by
  have hi : ∀ q : Fin 1, takeIdx nW v (ix2 r q) = v (ix1 r) := fun q => takeIdx_apply nW v r q h0
  have hm : broadcastInDim S204800x8 ![0] bcast_S204800_S204800x8_0 (takeMask hiW (takeIdx nW v)) (ix2 r d) = 1#1 :=
    (bcast_row8_apply _ r d).trans
      (takeMask_apply hiW _ r (fun q => by rw [hi q]; exact h0) (fun q => by rw [hi q]; exact h1))
  unfold takeT
  rw [select_apply, hm, select_one, GatherRows.gather_rows_apply hN wf]
  simp only [hi]
  rfl

/-! ## The reshapes and slices of the ids, read at an index -/

/-- Column `o` of a `[204800, 6]` array, as a vector. -/
def colV (off : Fin S204800x6.rank → Nat) (hs : S204800x6.Slices off S204800x1) (x : IVec S204800x6 32) : IVec S204800 32 :=
  shapeCast S204800 (extractStridedSlice S204800x1 off x hs) shapeCasts_S204800x1_S204800

/-- The ids as `[204800, 6]`: row `r` is token `(r / 50, r % 50)`. -/
theorem flat_apply (ids : IVec S4096x50x6 32) (r : Fin 204800) (c : Fin 6) :
    shapeCast S204800x6 ids shapeCasts_S4096x50x6_S204800x6 (ix2 r c)
      = ids (ix3 ⟨r.val / 50, by omega⟩ ⟨r.val % 50, Nat.mod_lt _ (by decide)⟩ c) := by
  refine shapeCast_apply ids _ (ix2 r c) _ ?_
  rw [Shape.rowMajor_val_three, Shape.rowMajor_val_two]
  show (r.val / 50 * 50 + r.val % 50) * 6 + c.val = r.val * 6 + c.val
  omega

/-- Column `o` read at row `r`. -/
theorem colV_apply (o : Nat) (ho : o < 6) (hs : S204800x6.Slices ![0, o] S204800x1) (x : IVec S204800x6 32) (r : Fin 204800) :
    colV ![0, o] hs x (ix1 r) = x (ix2 r ⟨o, ho⟩) := by
  unfold colV
  refine (shapeCast_apply _ _ (ix1 r) (ix2 r (0 : Fin 1)) ?_).trans ?_
  · rw [Shape.rowMajor_val_two, Shape.rowMajor_val_one]
    show r.val * 1 + 0 = r.val
    omega
  · refine extractStridedSlice_apply _ x hs (ix2 r (0 : Fin 1)) (ix2 r ⟨o, ho⟩) ?_
    intro a
    match a with
    | ⟨0, _⟩ => show r.val = 0 + r.val; omega
    | ⟨1, _⟩ => show o = o + 0; omega

/-- Columns 4 and 5 read at `(r, q)`. -/
theorem slice45_apply (x : IVec S204800x6 32) (r : Fin 204800) (q : Fin 2) :
    extractStridedSlice S204800x2 ![0, 4] x slices_S204800x6_S204800x2_0_4 (ix2 r q) = x (ix2 r ⟨4 + q.val, by omega⟩) := by
  refine extractStridedSlice_apply _ x _ (ix2 r q) (ix2 r ⟨4 + q.val, by omega⟩) ?_
  intro a
  match a with
  | ⟨0, _⟩ => show r.val = 0 + r.val; omega
  | ⟨1, _⟩ => rfl

/-! ## What each stretch leaves, from any contents `V` -/

theorem s0_v0 (V : Valuation τ sig (Elt F)) :
    StableHlo.after (hostOps0 (F := F)) V (Proc.devRef .tc main_v0)
      = (shapeCast S204800x6 (V (Proc.devRef .tc main_arg0)) shapeCasts_S4096x50x6_S204800x6 : IVec S204800x6 32) := by
  after_results_simp
  rfl

theorem s0_v2 (V : Valuation τ sig (Elt F)) :
    StableHlo.after (hostOps0 (F := F)) V (Proc.devRef .tc main_v2)
      = colV ![0, 0] slices_S204800x6_S204800x1_0_0
          (shapeCast S204800x6 (V (Proc.devRef .tc main_arg0)) shapeCasts_S4096x50x6_S204800x6) := by
  after_results_simp
  rfl

theorem s2_v5 (V : Valuation τ sig (Elt F)) :
    StableHlo.after (hostOps0_2 (F := F)) V (Proc.devRef .tc main_v5)
      = colV ![0, 1] slices_S204800x6_S204800x1_0_1 (V (Proc.devRef .tc main_v0)) := by
  after_results_simp
  rfl

theorem s4_v8 (V : Valuation τ sig (Elt F)) :
    StableHlo.after (hostOps0_4 (F := F)) V (Proc.devRef .tc main_v8)
      = colV ![0, 2] slices_S204800x6_S204800x1_0_2 (V (Proc.devRef .tc main_v0)) := by
  after_results_simp
  rfl

theorem s6_v11 (V : Valuation τ sig (Elt F)) :
    StableHlo.after (hostOps0_6 (F := F)) V (Proc.devRef .tc main_v11)
      = colV ![0, 3] slices_S204800x6_S204800x1_0_3 (V (Proc.devRef .tc main_v0)) := by
  after_results_simp
  rfl

set_option maxHeartbeats 2000000 in
theorem s1_v3 (V : Valuation τ sig (Elt F)) :
    StableHlo.after (hostOps0_1 (F := F)) V (Proc.devRef .tc main_v3)
      = takeT (GatherRows.rowDims 1000000 8 204800 gather_S1000000x8_S204800x1_S204800x8_1_0_n_n_0_1_18_wf)
          1000000#32 999999#32 (V (Proc.devRef .tc main_arg1)) (V (Proc.devRef .tc main_v2)) := by
  after_results_simp
  simp only [TRef.ofBuf, TRef.toBuf, cast_eq]
  rfl

theorem s8_v13 (V : Valuation τ sig (Elt F)) :
    StableHlo.after (hostOps0_8 (F := F)) V (Proc.devRef .tc main_v13)
      = (concatenate S204800x32 1 [⟨S204800x8, V (Proc.devRef .tc main_v3)⟩, ⟨S204800x8, V (Proc.devRef .tc main_v6)⟩,
          ⟨S204800x8, V (Proc.devRef .tc main_v9)⟩, ⟨S204800x8, V (Proc.devRef .tc main_v12)⟩]
          concatenates_S204800x8_S204800x8_S204800x8_S204800x8_S204800x32_d1 : FVec F S204800x32 .f32) := by
  after_results
  rfl

theorem s8_v14 (V : Valuation τ sig (Elt F)) :
    StableHlo.after (hostOps0_8 (F := F)) V (Proc.devRef .tc main_v14)
      = (extractStridedSlice S204800x2 ![0, 4] (V (Proc.devRef .tc main_v0)) slices_S204800x6_S204800x2_0_4 : IVec S204800x2 32) := by
  after_results_simp

set_option maxHeartbeats 2000000 in
theorem s3_v6 (V : Valuation τ sig (Elt F)) :
    StableHlo.after (hostOps0_3 (F := F)) V (Proc.devRef .tc main_v6)
      = takeT (GatherRows.rowDims 500000 8 204800 gather_S500000x8_S204800x1_S204800x8_1_0_n_n_0_1_18_wf)
          500000#32 499999#32 (V (Proc.devRef .tc main_arg2)) (V (Proc.devRef .tc main_v5)) := by
  after_results_simp
  simp only [TRef.ofBuf, TRef.toBuf, cast_eq]
  rfl

set_option maxHeartbeats 2000000 in
theorem s5_v9 (V : Valuation τ sig (Elt F)) :
    StableHlo.after (hostOps0_5 (F := F)) V (Proc.devRef .tc main_v9)
      = takeT (GatherRows.rowDims 100000 8 204800 gather_S100000x8_S204800x1_S204800x8_1_0_n_n_0_1_18_wf)
          100000#32 99999#32 (V (Proc.devRef .tc main_arg3)) (V (Proc.devRef .tc main_v8)) := by
  after_results_simp
  simp only [TRef.ofBuf, TRef.toBuf, cast_eq]
  rfl

set_option maxHeartbeats 2000000 in
theorem s7_v12 (V : Valuation τ sig (Elt F)) :
    StableHlo.after (hostOps0_7 (F := F)) V (Proc.devRef .tc main_v12)
      = takeT (GatherRows.rowDims 10000 8 204800 gather_S10000x8_S204800x1_S204800x8_1_0_n_n_0_1_18_wf)
          10000#32 9999#32 (V (Proc.devRef .tc main_arg4)) (V (Proc.devRef .tc main_v11)) := by
  after_results_simp
  simp only [TRef.ofBuf, TRef.toBuf, cast_eq]
  rfl

/-! ## The contents after each stretch, from the launch contents `W` -/

abbrev A1 (W : Valuation τ sig (Elt F)) : Valuation τ sig (Elt F) := StableHlo.after hostOps0 W
abbrev A2 (W : Valuation τ sig (Elt F)) : Valuation τ sig (Elt F) := StableHlo.after hostOps0_1 (A1 W)
abbrev A3 (W : Valuation τ sig (Elt F)) : Valuation τ sig (Elt F) := StableHlo.after hostOps0_2 (A2 W)
abbrev A4 (W : Valuation τ sig (Elt F)) : Valuation τ sig (Elt F) := StableHlo.after hostOps0_3 (A3 W)
abbrev A5 (W : Valuation τ sig (Elt F)) : Valuation τ sig (Elt F) := StableHlo.after hostOps0_4 (A4 W)
abbrev A6 (W : Valuation τ sig (Elt F)) : Valuation τ sig (Elt F) := StableHlo.after hostOps0_5 (A5 W)
abbrev A7 (W : Valuation τ sig (Elt F)) : Valuation τ sig (Elt F) := StableHlo.after hostOps0_6 (A6 W)
abbrev A8 (W : Valuation τ sig (Elt F)) : Valuation τ sig (Elt F) := StableHlo.after hostOps0_7 (A7 W)

/-- The ids as `[204800, 6]`. -/
abbrev flatT (W : Valuation τ sig (Elt F)) : IVec S204800x6 32 :=
  shapeCast S204800x6 (W (Proc.devRef .tc main_arg0)) shapeCasts_S4096x50x6_S204800x6

/-- The four takes, over the launch contents. -/
abbrev tk0 (W : Valuation τ sig (Elt F)) : FVec F S204800x8 .f32 :=
  takeT (GatherRows.rowDims 1000000 8 204800 gather_S1000000x8_S204800x1_S204800x8_1_0_n_n_0_1_18_wf)
    1000000#32 999999#32 (W (Proc.devRef .tc main_arg1)) (colV ![0, 0] slices_S204800x6_S204800x1_0_0 (flatT W))
abbrev tk1 (W : Valuation τ sig (Elt F)) : FVec F S204800x8 .f32 :=
  takeT (GatherRows.rowDims 500000 8 204800 gather_S500000x8_S204800x1_S204800x8_1_0_n_n_0_1_18_wf)
    500000#32 499999#32 (W (Proc.devRef .tc main_arg2)) (colV ![0, 1] slices_S204800x6_S204800x1_0_1 (flatT W))
abbrev tk2 (W : Valuation τ sig (Elt F)) : FVec F S204800x8 .f32 :=
  takeT (GatherRows.rowDims 100000 8 204800 gather_S100000x8_S204800x1_S204800x8_1_0_n_n_0_1_18_wf)
    100000#32 99999#32 (W (Proc.devRef .tc main_arg3)) (colV ![0, 2] slices_S204800x6_S204800x1_0_2 (flatT W))
abbrev tk3 (W : Valuation τ sig (Elt F)) : FVec F S204800x8 .f32 :=
  takeT (GatherRows.rowDims 10000 8 204800 gather_S10000x8_S204800x1_S204800x8_1_0_n_n_0_1_18_wf)
    10000#32 9999#32 (W (Proc.devRef .tc main_arg4)) (colV ![0, 3] slices_S204800x6_S204800x1_0_3 (flatT W))

/-! The flattened ids stay in `main_v0` through every later stretch. -/
theorem A1_v0 (W : Valuation τ sig (Elt F)) : A1 W (Proc.devRef .tc main_v0) = flatT W := s0_v0 W
theorem A2_v0 (W : Valuation τ sig (Elt F)) : A2 W (Proc.devRef .tc main_v0) = flatT W :=
  (fr1 _ main_v0 (by decide)).trans (A1_v0 W)
theorem A3_v0 (W : Valuation τ sig (Elt F)) : A3 W (Proc.devRef .tc main_v0) = flatT W :=
  (fr2 _ main_v0 (by decide)).trans (A2_v0 W)
theorem A4_v0 (W : Valuation τ sig (Elt F)) : A4 W (Proc.devRef .tc main_v0) = flatT W :=
  (fr3 _ main_v0 (by decide)).trans (A3_v0 W)
theorem A5_v0 (W : Valuation τ sig (Elt F)) : A5 W (Proc.devRef .tc main_v0) = flatT W :=
  (fr4 _ main_v0 (by decide)).trans (A4_v0 W)
theorem A6_v0 (W : Valuation τ sig (Elt F)) : A6 W (Proc.devRef .tc main_v0) = flatT W :=
  (fr5 _ main_v0 (by decide)).trans (A5_v0 W)
theorem A7_v0 (W : Valuation τ sig (Elt F)) : A7 W (Proc.devRef .tc main_v0) = flatT W :=
  (fr6 _ main_v0 (by decide)).trans (A6_v0 W)
theorem A8_v0 (W : Valuation τ sig (Elt F)) : A8 W (Proc.devRef .tc main_v0) = flatT W :=
  (fr7 _ main_v0 (by decide)).trans (A7_v0 W)

/-! The tables are as launched where their take reads them. -/
theorem A1_arg1 (W : Valuation τ sig (Elt F)) : A1 W (Proc.devRef .tc main_arg1) = W (Proc.devRef .tc main_arg1) :=
  fr0 W main_arg1 (by decide)
theorem A3_arg2 (W : Valuation τ sig (Elt F)) : A3 W (Proc.devRef .tc main_arg2) = W (Proc.devRef .tc main_arg2) :=
  (fr2 _ main_arg2 (by decide)).trans ((fr1 _ main_arg2 (by decide)).trans (fr0 W main_arg2 (by decide)))
theorem A5_arg3 (W : Valuation τ sig (Elt F)) : A5 W (Proc.devRef .tc main_arg3) = W (Proc.devRef .tc main_arg3) :=
  (fr4 _ main_arg3 (by decide)).trans ((fr3 _ main_arg3 (by decide)).trans ((fr2 _ main_arg3 (by decide)).trans
    ((fr1 _ main_arg3 (by decide)).trans (fr0 W main_arg3 (by decide)))))
theorem A7_arg4 (W : Valuation τ sig (Elt F)) : A7 W (Proc.devRef .tc main_arg4) = W (Proc.devRef .tc main_arg4) :=
  (fr6 _ main_arg4 (by decide)).trans ((fr5 _ main_arg4 (by decide)).trans ((fr4 _ main_arg4 (by decide)).trans
    ((fr3 _ main_arg4 (by decide)).trans ((fr2 _ main_arg4 (by decide)).trans
      ((fr1 _ main_arg4 (by decide)).trans (fr0 W main_arg4 (by decide)))))))

/-! Each take's result where it is written … -/
theorem A2_v3 (W : Valuation τ sig (Elt F)) : A2 W (Proc.devRef .tc main_v3) = tk0 W :=
  (s1_v3 (A1 W)).trans (congrArg₂ (takeT _ _ _) (A1_arg1 W) (s0_v2 W))
theorem A3_v5 (W : Valuation τ sig (Elt F)) :
    A3 W (Proc.devRef .tc main_v5) = colV ![0, 1] slices_S204800x6_S204800x1_0_1 (flatT W) :=
  (s2_v5 (A2 W)).trans (congrArg (colV ![0, 1] slices_S204800x6_S204800x1_0_1) (A2_v0 W))
theorem A4_v6 (W : Valuation τ sig (Elt F)) : A4 W (Proc.devRef .tc main_v6) = tk1 W :=
  (s3_v6 (A3 W)).trans (congrArg₂ (takeT _ _ _) (A3_arg2 W) (A3_v5 W))
theorem A5_v8 (W : Valuation τ sig (Elt F)) :
    A5 W (Proc.devRef .tc main_v8) = colV ![0, 2] slices_S204800x6_S204800x1_0_2 (flatT W) :=
  (s4_v8 (A4 W)).trans (congrArg (colV ![0, 2] slices_S204800x6_S204800x1_0_2) (A4_v0 W))
theorem A6_v9 (W : Valuation τ sig (Elt F)) : A6 W (Proc.devRef .tc main_v9) = tk2 W :=
  (s5_v9 (A5 W)).trans (congrArg₂ (takeT _ _ _) (A5_arg3 W) (A5_v8 W))
theorem A7_v11 (W : Valuation τ sig (Elt F)) :
    A7 W (Proc.devRef .tc main_v11) = colV ![0, 3] slices_S204800x6_S204800x1_0_3 (flatT W) :=
  (s6_v11 (A6 W)).trans (congrArg (colV ![0, 3] slices_S204800x6_S204800x1_0_3) (A6_v0 W))
theorem A8_v12 (W : Valuation τ sig (Elt F)) : A8 W (Proc.devRef .tc main_v12) = tk3 W :=
  (s7_v12 (A7 W)).trans (congrArg₂ (takeT _ _ _) (A7_arg4 W) (A7_v11 W))

/-! … and kept to the last stretch. -/
theorem A8_v3 (W : Valuation τ sig (Elt F)) : A8 W (Proc.devRef .tc main_v3) = tk0 W :=
  (fr7 _ main_v3 (by decide)).trans ((fr6 _ main_v3 (by decide)).trans ((fr5 _ main_v3 (by decide)).trans
    ((fr4 _ main_v3 (by decide)).trans ((fr3 _ main_v3 (by decide)).trans
      ((fr2 _ main_v3 (by decide)).trans (A2_v3 W))))))
theorem A8_v6 (W : Valuation τ sig (Elt F)) : A8 W (Proc.devRef .tc main_v6) = tk1 W :=
  (fr7 _ main_v6 (by decide)).trans ((fr6 _ main_v6 (by decide)).trans ((fr5 _ main_v6 (by decide)).trans
    ((fr4 _ main_v6 (by decide)).trans (A4_v6 W))))
theorem A8_v9 (W : Valuation τ sig (Elt F)) : A8 W (Proc.devRef .tc main_v9) = tk2 W :=
  (fr7 _ main_v9 (by decide)).trans ((fr6 _ main_v9 (by decide)).trans (A6_v9 W))

/-- The 32 gathered features: the four takes side by side. -/
theorem v13_eq (W : Valuation τ sig (Elt F)) :
    StableHlo.after (preOps (F := F)) W (Proc.devRef .tc main_v13)
      = (concatenate S204800x32 1 [⟨S204800x8, tk0 W⟩, ⟨S204800x8, tk1 W⟩, ⟨S204800x8, tk2 W⟩, ⟨S204800x8, tk3 W⟩]
          concatenates_S204800x8_S204800x8_S204800x8_S204800x8_S204800x32_d1 : FVec F S204800x32 .f32) := by
  refine (congrFun (pre_eq W) _).trans ((s8_v13 (A8 W)).trans ?_)
  rw [A8_v3 W, A8_v6 W, A8_v9 W, A8_v12 W]

/-- The ids' last two columns. -/
theorem v14_eq (W : Valuation τ sig (Elt F)) :
    StableHlo.after (preOps (F := F)) W (Proc.devRef .tc main_v14)
      = (extractStridedSlice S204800x2 ![0, 4] (flatT W) slices_S204800x6_S204800x2_0_4 : IVec S204800x2 32) := by
  refine (congrFun (pre_eq W) _).trans ((s8_v14 (A8 W)).trans ?_)
  rw [A8_v0 W]

/-! ## The two arrays at an index -/

/-- A take of the ids' column `c` from a table the column's ids lie inside, read at `(r, d)`. -/
theorem tk_look {N : Nat} (hN : 0 < N)
    (wf : GatherDims.WF ⟨2, ![N, 8]⟩ ⟨2, ![204800, 1]⟩ ⟨2, ![204800, 8]⟩ [1] [0] [] [0] [] 1 ![1, 8])
    (nW hiW : BitVec 32) (hhi : hiW.toInt = (N : Int) - 1) (e : Tab N) (ids : Ids) (c : Fin 6)
    (hs : S204800x6.Slices ![0, c.val] S204800x1) (r : Fin 204800) (d : Fin 8)
    (h0 : 0 ≤ (ids (ix3 ⟨r.val / 50, by omega⟩ ⟨r.val % 50, Nat.mod_lt _ (by decide)⟩ c)).toInt)
    (h1 : (ids (ix3 ⟨r.val / 50, by omega⟩ ⟨r.val % 50, Nat.mod_lt _ (by decide)⟩ c)).toInt < (N : Int)) :
    takeT (F := Ideal) (GatherRows.rowDims N 8 204800 wf) nW hiW e
        (colV ![0, c.val] hs (shapeCast S204800x6 ids shapeCasts_S4096x50x6_S204800x6)) (ix2 r d)
      = look hN e (ids (ix3 ⟨r.val / 50, by omega⟩ ⟨r.val % 50, Nat.mod_lt _ (by decide)⟩ c)) d := by
  have hv : colV ![0, c.val] hs (shapeCast S204800x6 ids shapeCasts_S4096x50x6_S204800x6) (ix1 r)
      = ids (ix3 ⟨r.val / 50, by omega⟩ ⟨r.val % 50, Nat.mod_lt _ (by decide)⟩ c) :=
    (colV_apply c.val c.isLt hs _ r).trans (flat_apply ids r c)
  rw [takeT_apply hN wf nW hiW e _ r d (by rw [hv]; exact h0) (by rw [hv, hhi]; omega), hv]
  rfl

theorem v13_apply (W : Valuation τ sig (Elt Ideal)) (hr : Cert.Tower.InRange (W (Proc.devRef .tc main_arg0)))
    (e4 : Tab 1000) (e5 : Tab 100) (r : Fin 204800) (k : Fin 32) :
    StableHlo.after (preOps (F := Ideal)) W (Proc.devRef .tc main_v13) (ix2 r k)
      = Cert.Tower.feat (W (Proc.devRef .tc main_arg0)) (W (Proc.devRef .tc main_arg1)) (W (Proc.devRef .tc main_arg2))
          (W (Proc.devRef .tc main_arg3)) (W (Proc.devRef .tc main_arg4)) e4 e5
          ⟨r.val / 50, by omega⟩ ⟨r.val % 50, Nat.mod_lt _ (by decide)⟩ ⟨k.val, by omega⟩ := by
  refine (congrFun (v13_eq W) _).trans ?_
  unfold Cert.Tower.feat
  by_cases h8 : k.val < 8
  · rw [dif_pos h8]
    refine (Concat4.concat4x8_apply_0 _ _ _ _ _ r k h8).trans ?_
    exact tk_look (by decide) _ _ _ (by decide) (W (Proc.devRef .tc main_arg1)) (W (Proc.devRef .tc main_arg0)) 0
      slices_S204800x6_S204800x1_0_0 r ⟨k.val, h8⟩ (hr _ _ 0).1 (hr _ _ 0).2
  · rw [dif_neg h8]
    by_cases h16 : k.val < 16
    · rw [dif_pos h16]
      refine (Concat4.concat4x8_apply_1 _ _ _ _ _ r k (by omega) h16).trans ?_
      exact tk_look (by decide) _ _ _ (by decide) (W (Proc.devRef .tc main_arg2)) (W (Proc.devRef .tc main_arg0)) 1
        slices_S204800x6_S204800x1_0_1 r ⟨k.val - 8, by omega⟩ (hr _ _ 1).1 (hr _ _ 1).2
    · rw [dif_neg h16]
      by_cases h24 : k.val < 24
      · rw [dif_pos h24]
        refine (Concat4.concat4x8_apply_2 _ _ _ _ _ r k (by omega) h24).trans ?_
        exact tk_look (by decide) _ _ _ (by decide) (W (Proc.devRef .tc main_arg3)) (W (Proc.devRef .tc main_arg0)) 2
          slices_S204800x6_S204800x1_0_2 r ⟨k.val - 16, by omega⟩ (hr _ _ 2).1 (hr _ _ 2).2
      · rw [dif_neg h24, dif_pos (show k.val < 32 from k.isLt)]
        refine (Concat4.concat4x8_apply_3 _ _ _ _ _ r k (by omega)).trans ?_
        exact tk_look (by decide) _ _ _ (by decide) (W (Proc.devRef .tc main_arg4)) (W (Proc.devRef .tc main_arg0)) 3
          slices_S204800x6_S204800x1_0_3 r ⟨k.val - 24, by omega⟩ (hr _ _ 3).1 (hr _ _ 3).2

theorem v14_apply (W : Valuation τ sig (Elt Ideal)) (r : Fin 204800) (q : Fin 2) :
    StableHlo.after (preOps (F := Ideal)) W (Proc.devRef .tc main_v14) (ix2 r q)
      = W (Proc.devRef .tc main_arg0) (ix3 ⟨r.val / 50, by omega⟩ ⟨r.val % 50, Nat.mod_lt _ (by decide)⟩ ⟨4 + q.val, by omega⟩) :=
  (congrFun (v14_eq W) _).trans ((slice45_apply _ r q).trans (flat_apply _ r ⟨4 + q.val, by omega⟩))

end Cert.KernelIdeal.Hand

end
-- ==== Proof.KValueI.lean ====
/-
  From the region's blocks to the kernel program's result.

  Grid point `t` handles tokens `4096 t … 4096 t + 4095` of the 204800 (token `r` is token `r % 50` of sequence
  `r / 50`). Row `p` of the block it stores is the tower's output for token `4096 t + p`: the block's 32 host-gathered
  features and the rows its two small ids name are that token's 48 features, and the six resident blocks are the whole
  tables, weights and biases. The 50 blocks tile the output column, so the column ends holding every token's output;
  the closing reshape lays it out as `[4096, 50]`, which is the specification `G`.
-/
import proofs.«407622_j82471962018216_3_alg».proof.Proof.KFrameI
import proofs.«407622_j82471962018216_3_alg».proof.Proof.Spec
import proofs.«407622_j82471962018216_3_alg».proof.Proof.KerBlock
import proofs.«407622_j82471962018216_3_alg».proof.Proof.KerPrefix
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen Cert.Tower
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The block index maps over the 50 grid points: the two moving inputs and the output are at block `t` of the row
    axis; the six resident inputs stay at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-- Row `p` of the feature block at point `t` is row `4096 t + p` of the gathered array. -/
theorem pre_block (c : Dev nD) (t : Fin cfg0.N) (p : Fin 4096) (k : Fin 32) :
    (blockAt m c 0 t : S4096x32.Idx → EReal) (ix2 p k)
      = (atEntry m c main_v13 : S204800x32.Idx → EReal) (ix2 ⟨4096 * t.val + p.val, by have := t.isLt; have hN : cfg0.N = 50 := N_0; omega⟩ k) := by
  obtain ⟨e0, e1, -⟩ := index_facts t
  show atEntry m c main_v13 (((cfg0.win 0).blk t).view.emb (ix2 p k)) = _
  congr 1
  funext a; apply Fin.ext
  match a with
  | ⟨0, _⟩ => show win0_0.index t (0 : Fin 2) * 4096 + 1 * p.val = 4096 * t.val + p.val; omega
  | ⟨1, _⟩ => show win0_0.index t (1 : Fin 2) * 32 + 1 * k.val = k.val; omega

/-- The block of the first small table is the table. -/
theorem t4_block (c : Dev nD) (t : Fin cfg0.N) : (blockAt m c 2 t : S1000x8.Idx → EReal) = m ((c : Thread nD τ).loc main_arg5) := by
  obtain ⟨-, -, -, -, e0, e1, -⟩ := index_facts t
  funext y
  show atEntry m c main_arg5 (((cfg0.win 2).blk t).view.emb y) = _
  rw [entry_arg5]
  congr 1
  funext a; apply Fin.ext
  match a with
  | ⟨0, _⟩ => show win0_2.index t (0 : Fin 2) * 1000 + 1 * (y 0).val = (y 0).val; omega
  | ⟨1, _⟩ => show win0_2.index t (1 : Fin 2) * 8 + 1 * (y 1).val = (y 1).val; omega

/-- The bias of the hidden layer: a rank-1 block. -/
theorem b1_block (c : Dev nD) (t : Fin cfg0.N) : (blockAt m c 5 t : S32.Idx → EReal) = m ((c : Thread nD τ).loc main_arg8) := by
  obtain ⟨-, -, -, -, -, -, -, -, -, -, e0, -⟩ := index_facts t
  funext y
  show atEntry m c main_arg8 (((cfg0.win 5).blk t).view.emb y) = _
  rw [entry_arg8]
  congr 1
  funext a; apply Fin.ext
  match a with
  | ⟨0, _⟩ => show win0_5.index t (0 : Fin 1) * 32 + 1 * (y 0).val = (y 0).val; omega

/-- Every index of the output column is in the block of the point its row falls in. -/
theorem out_cover (c : Dev nD) (i : ((cfg0.win 8).arr.view.loc (c.tc : Thread nD τ)).2.ty.Idx) :
    ∃ t : Fin cfg0.N, (cfg0.win 8).flush t = true ∧ i ∈ ((cfg0.win 8).blk t).view.set := by
  have hN : cfg0.N = 50 := N_0
  have hi0 : (i 0).val < 204800 := (i 0).isLt
  have hi1 : (i 1).val < 1 := (i 1).isLt
  have ht : (i 0).val / 4096 < cfg0.N := by omega
  obtain ⟨-, -, -, -, -, -, -, -, -, -, -, -, -, -, e0, e1⟩ := index_facts ⟨(i 0).val / 4096, ht⟩
  have e0' : win0_8.index ⟨(i 0).val / 4096, ht⟩ (0 : Fin 2) = (i 0).val / 4096 := e0
  refine ⟨⟨(i 0).val / 4096, ht⟩, flush0_8 _, ?_⟩
  show i ∈ ((View.whole main_v15).slice (win0_8.rect ⟨(i 0).val / 4096, ht⟩)).set
  rw [View.set_slice_whole, Rect.mem_set_unit]
  intro a
  match a with
  | ⟨0, _⟩ => show win0_8.index ⟨(i 0).val / 4096, ht⟩ (0 : Fin 2) * 4096 ≤ (i 0).val ∧ (i 0).val < win0_8.index ⟨(i 0).val / 4096, ht⟩ (0 : Fin 2) * 4096 + 4096; omega
  | ⟨1, _⟩ => show win0_8.index ⟨(i 0).val / 4096, ht⟩ (1 : Fin 2) * 1 ≤ (i 1).val ∧ (i 1).val < win0_8.index ⟨(i 0).val / 4096, ht⟩ (1 : Fin 2) * 1 + 1; omega

/-- Row `p` of the small-id block at point `t` is row `4096 t + p` of the two small-id columns. -/
theorem ids_block (c : Dev nD) (t : Fin cfg0.N) (p : Fin 4096) (q : Fin 2) :
    (blockAt m c 1 t : S4096x2.Idx → BitVec 32) (ix2 p q)
      = (atEntry m c main_v14 : S204800x2.Idx → BitVec 32) (ix2 ⟨4096 * t.val + p.val, by have := t.isLt; have hN : cfg0.N = 50 := N_0; omega⟩ q) := by
  obtain ⟨-, -, e0, e1, -⟩ := index_facts t
  show atEntry m c main_v14 (((cfg0.win 1).blk t).view.emb (ix2 p q)) = _
  congr 1
  funext a; apply Fin.ext
  match a with
  | ⟨0, _⟩ => show win0_1.index t (0 : Fin 2) * 4096 + 1 * p.val = 4096 * t.val + p.val; omega
  | ⟨1, _⟩ => show win0_1.index t (1 : Fin 2) * 2 + 1 * q.val = q.val; omega

/-- The block of the second small table is the table. -/
theorem t5_block (c : Dev nD) (t : Fin cfg0.N) : (blockAt m c 3 t : S100x8.Idx → EReal) = m ((c : Thread nD τ).loc main_arg6) := by
  obtain ⟨-, -, -, -, -, -, e0, e1, -⟩ := index_facts t
  funext y
  show atEntry m c main_arg6 (((cfg0.win 3).blk t).view.emb y) = _
  rw [entry_arg6]
  congr 1
  funext a; apply Fin.ext
  match a with
  | ⟨0, _⟩ => show win0_3.index t (0 : Fin 2) * 100 + 1 * (y 0).val = (y 0).val; omega
  | ⟨1, _⟩ => show win0_3.index t (1 : Fin 2) * 8 + 1 * (y 1).val = (y 1).val; omega

/-- The block of the first weight matrix is the matrix. -/
theorem w1_block (c : Dev nD) (t : Fin cfg0.N) : (blockAt m c 4 t : S48x32.Idx → EReal) = m ((c : Thread nD τ).loc main_arg7) := by
  obtain ⟨-, -, -, -, -, -, -, -, e0, e1, -⟩ := index_facts t
  funext y
  show atEntry m c main_arg7 (((cfg0.win 4).blk t).view.emb y) = _
  rw [entry_arg7]
  congr 1
  funext a; apply Fin.ext
  match a with
  | ⟨0, _⟩ => show win0_4.index t (0 : Fin 2) * 48 + 1 * (y 0).val = (y 0).val; omega
  | ⟨1, _⟩ => show win0_4.index t (1 : Fin 2) * 32 + 1 * (y 1).val = (y 1).val; omega

/-- The block of the second weight matrix is the matrix. -/
theorem w2_block (c : Dev nD) (t : Fin cfg0.N) : (blockAt m c 6 t : S32x1.Idx → EReal) = m ((c : Thread nD τ).loc main_arg9) := by
  obtain ⟨-, -, -, -, -, -, -, -, -, -, -, e0, e1, -⟩ := index_facts t
  funext y
  show atEntry m c main_arg9 (((cfg0.win 6).blk t).view.emb y) = _
  rw [entry_arg9]
  congr 1
  funext a; apply Fin.ext
  match a with
  | ⟨0, _⟩ => show win0_6.index t (0 : Fin 2) * 32 + 1 * (y 0).val = (y 0).val; omega
  | ⟨1, _⟩ => show win0_6.index t (1 : Fin 2) * 1 + 1 * (y 1).val = (y 1).val; omega

/-- The block of the output bias is the bias. -/
theorem b2_block (c : Dev nD) (t : Fin cfg0.N) : (blockAt m c 7 t : S1.Idx → EReal) = m ((c : Thread nD τ).loc main_arg10) := by
  obtain ⟨-, -, -, -, -, -, -, -, -, -, -, -, -, e0, -⟩ := index_facts t
  funext y
  show atEntry m c main_arg10 (((cfg0.win 7).blk t).view.emb y) = _
  rw [entry_arg10]
  congr 1
  funext a; apply Fin.ext
  match a with
  | ⟨0, _⟩ => show win0_7.index t (0 : Fin 1) * 1 + 1 * (y 0).val = (y 0).val; omega

/-- The results as one column of 204800 tokens: token `r` is token `r % 50` of sequence `r / 50`. -/
def colG (c : Dev nD) : S204800x1.Idx → EReal := fun i =>
  Cert.Tower.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    ⟨(i 0).val / 50, by have h : (i 0).val < 204800 := (i 0).isLt; omega⟩ ⟨(i 0).val % 50, Nat.mod_lt _ (by decide)⟩

/-- The features of row `p` of the blocks at point `t` are the features of token `4096 t + p`. -/
theorem features_at (hr : ∀ c : Dev nD, InRange (m ((c : Thread nD τ).loc main_arg0))) (c : Dev nD) (t : Fin cfg0.N) (p : Fin 4096)
    (hrow : 4096 * t.val + p.val < 204800) (k : Fin 48) :
    blkFeat (blockAt m c 0 t) (blockAt m c 1 t) (blockAt m c 2 t) (blockAt m c 3 t) p k
      = Cert.Tower.feat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
          ⟨(4096 * t.val + p.val) / 50, by omega⟩ ⟨(4096 * t.val + p.val) % 50, Nat.mod_lt _ (by decide)⟩ k := by
  unfold blkFeat
  by_cases h0 : k.val < 32
  · rw [dif_pos h0, pre_block m c t p ⟨k.val, h0⟩]
    exact (v13_apply (fun b => m (c, b)) (hr c) (m ((c : Thread nD τ).loc main_arg5)) (m ((c : Thread nD τ).loc main_arg6)) ⟨4096 * t.val + p.val, hrow⟩ ⟨k.val, h0⟩)
  · rw [dif_neg h0]
    by_cases h1 : k.val < 40
    · rw [dif_pos h1, t4_block, ids_block m c t p 0]
      rw [show (atEntry m c main_v14 : S204800x2.Idx → BitVec 32) (ix2 ⟨4096 * t.val + p.val, hrow⟩ 0) = _ from
        v14_apply (fun b => m (c, b)) ⟨4096 * t.val + p.val, hrow⟩ 0]
      unfold Cert.Tower.feat
      rw [dif_neg (by omega), dif_neg (by omega), dif_neg (by omega), dif_neg (by omega), dif_pos h1]
      rfl
    · rw [dif_neg h1, t5_block, ids_block m c t p 1]
      rw [show (atEntry m c main_v14 : S204800x2.Idx → BitVec 32) (ix2 ⟨4096 * t.val + p.val, hrow⟩ 1) = _ from
        v14_apply (fun b => m (c, b)) ⟨4096 * t.val + p.val, hrow⟩ 1]
      unfold Cert.Tower.feat
      rw [dif_neg (by omega), dif_neg (by omega), dif_neg (by omega), dif_neg (by omega), dif_neg h1]
      rfl

/-- What the body stores for row `p` at point `t` is the tower's output for token `4096 t + p`. -/
theorem stored_row (hr : ∀ c : Dev nD, InRange (m ((c : Thread nD τ).loc main_arg0))) (c : Dev nD) (t : Fin cfg0.N) (j : S4096x1.Idx) :
    k0_pay1 (F := Ideal) (k0_pay2 (blockAt m c 1 t) (blockAt m c 2 t) (blockAt m c 3 t) (blockAt m c 0 t) (blockAt m c 4 t) (blockAt m c 5 t) (blockAt m c 6 t))
        (k0_pay3 (blockAt m c 7 t)) j
      = colG m c (ix2 ⟨4096 * t.val + (j 0).val, by have := t.isLt; have hN : cfg0.N = 50 := N_0; have hj : (j 0).val < 4096 := (j 0).isLt; omega⟩ 0) := by
  have hN : cfg0.N = 50 := N_0
  have ht := t.isLt
  obtain ⟨p, q, rfl⟩ : ∃ (p : Fin 4096) (q : Fin 1), j = ix2 p q := ⟨j 0, j 1, eq_ix2 j⟩
  obtain rfl : q = 0 := Subsingleton.elim _ _
  have hrow : 4096 * t.val + p.val < 204800 := by have := p.isLt; omega
  have hid : ∀ q : Fin 2, (blockAt m c 1 t : S4096x2.Idx → BitVec 32) (ix2 p q)
      = (m ((c : Thread nD τ).loc main_arg0)) (ix3 ⟨(4096 * t.val + p.val) / 50, by omega⟩ ⟨(4096 * t.val + p.val) % 50, Nat.mod_lt _ (by decide)⟩ ⟨4 + q.val, by omega⟩) := fun q =>
    (ids_block m c t p q).trans (v14_apply (fun b => m (c, b)) ⟨4096 * t.val + p.val, hrow⟩ q)
  have h4 := hr c ⟨(4096 * t.val + p.val) / 50, by omega⟩ ⟨(4096 * t.val + p.val) % 50, Nat.mod_lt _ (by decide)⟩ 4
  have h5 := hr c ⟨(4096 * t.val + p.val) / 50, by omega⟩ ⟨(4096 * t.val + p.val) % 50, Nat.mod_lt _ (by decide)⟩ 5
  refine (block_apply (blockAt m c 0 t) (blockAt m c 1 t) (blockAt m c 2 t) (blockAt m c 3 t) (blockAt m c 4 t) (blockAt m c 5 t)
    (blockAt m c 6 t) (blockAt m c 7 t) p (by rw [hid 0]; exact h4) (by rw [hid 1]; exact h5)).trans ?_
  unfold colG Cert.Tower.out
  rw [w1_block, b1_block, w2_block, b2_block]
  exact congrArg (fun f => Cert.Tower.outRow f _ _ _ _) (funext fun k => features_at m hr c t p hrow k)

/-- What point `t` writes back is block `t` of the column of results. -/
theorem flushed_out (hr : ∀ c : Dev nD, InRange (m ((c : Thread nD τ).loc main_arg0))) (c : Dev nD) (t : Fin cfg0.N)
    (hf : (cfg0.win 8).flush t = true) :
    (data m 0 c).flushed 8 t = ((cfg0.win 8).blk t).view.read (Elt Ideal) (colG m c) := by
  obtain ⟨-, -, -, -, -, -, -, -, -, -, -, -, -, -, e0, e1⟩ := index_facts t
  show (cfg0.win 8).cut (grid0.coords t) ((data m 0 c).after 8 t) = _
  rw [after8]
  unfold storedBlock
  rw [View.canon_unit_zero zero2]
  simp only [View.ld_unit_zero (S := S4096x32) zero2, View.ld_unit_zero (S := S4096x2) zero2, View.ld_unit_zero (S := S1000x8) zero2,
    View.ld_unit_zero (S := S100x8) zero2, View.ld_unit_zero (S := S48x32) zero2, View.ld_unit_zero (S := S32) zero1,
    View.ld_unit_zero (S := S32x1) zero2, View.ld_unit_zero (S := S1) zero1]
  funext j
  refine (stored_row m hr c t j).trans ?_
  show colG m c _ = colG m c (((cfg0.win 8).blk t).view.emb j)
  congr 1
  funext a; apply Fin.ext
  match a with
  | ⟨0, _⟩ => show 4096 * t.val + (j 0).val = win0_8.index t (0 : Fin 2) * 4096 + 1 * (j 0).val; omega
  | ⟨1, _⟩ => show 0 = win0_8.index t (1 : Fin 2) * 1 + 1 * (j 1).val; have hj : (j 1).val < 1 := (j 1).isLt; omega

/-- So the output array ends holding the column of results. -/
theorem out_final (hr : ∀ c : Dev nD, InRange (m ((c : Thread nD τ).loc main_arg0))) (c : Dev nD) :
    (data m 0 c).arrAt 8 cfg0.N = colG m c :=
  (data m 0 c).arrAt_eq_of_cover 8 (colG m c) (flushed_out m hr c) (out_cover c)

/-- The closing line reshapes the column into `[4096, 50]`: row-major, entry `(b, t)` is token `50 b + t`. -/
theorem result_final (hr : ∀ c : Dev nD, InRange (m ((c : Thread nD τ).loc main_arg0))) (c : Dev nD) :
    Pipeline.afterTail₀ cfgs (data m) 0 (atEntry0 m) [hostOps1] c main_v16
      = Cert.Tower.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold Pipeline.afterTail₀
  show StableHlo.after hostOps1 _ (Proc.devRef .tc main_v16) = _
  after_results
  rw [show Pipeline.withArrays spec0 c (atEntry0 m c) (fun w => (data m 0 c).arrAt w cfg0.N) (Proc.devRef .tc main_v15) = colG m c from
    (Pipeline.withArrays_arr spec0 launch0.win.arr_inj c _ _ 8).trans (out_final m hr c)]
  funext i
  obtain ⟨b, s, rfl⟩ : ∃ (b : Fin 4096) (s : Fin 50), i = ix2 b s := ⟨i 0, i 1, eq_ix2 i⟩
  refine (shapeCast_apply (colG m c) shapeCasts_S204800x1_S4096x50 (ix2 b s) (ix2 ⟨50 * b.val + s.val, by have := b.isLt; have := s.isLt; omega⟩ 0) ?_).trans ?_
  · rw [Shape.rowMajor_val_two, Shape.rowMajor_val_two]
    show (50 * b.val + s.val) * 1 + 0 = b.val * 50 + s.val
    omega
  · unfold colG Cert.Tower.G
    have hb : (⟨(50 * b.val + s.val) / 50, by have := b.isLt; have := s.isLt; omega⟩ : Fin 4096) = b := Fin.ext (by have := s.isLt; show (50 * b.val + s.val) / 50 = b.val; omega)
    have hs : (⟨(50 * b.val + s.val) % 50, Nat.mod_lt _ (by decide)⟩ : Fin 50) = s := Fin.ext (by have := s.isLt; show (50 * b.val + s.val) % 50 = s.val; omega)
    show Cert.Tower.out _ _ _ _ _ _ _ _ _ _ _ ⟨(50 * b.val + s.val) / 50, _⟩ ⟨(50 * b.val + s.val) % 50, _⟩ = Cert.Tower.out _ _ _ _ _ _ _ _ _ _ _ b s
    rw [hb, hs]

/-- THE KERNEL PROGRAM'S RUN, READ: under the range condition on the ids its result array ends at the specification
    of its arguments, and the arguments end as launched. -/
theorem run_spec (hr : ∀ c : Dev nD, InRange (m ((c : Thread nD τ).loc main_arg0))) :
    θ_run defs (onTc (τ := τ) (main (F := Ideal))) ⟨m, fun _ => 0, ρ⟩ (fun r => ∀ c : Dev nD,
      r.2.mem ((c.tc : Thread nD τ).loc main_v16) = Cert.Tower.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v16 (Pipeline.mem_restRefs_of main_v16 (by decide) (by decide))).trans (result_final m hr c),
      ((h c).2 main_arg0 (Pipeline.mem_restRefs_of main_arg0 (by decide) (by decide))).trans (end_arg0 m (data m) c),
      ((h c).2 main_arg1 (Pipeline.mem_restRefs_of main_arg1 (by decide) (by decide))).trans (end_arg1 m (data m) c),
      ((h c).2 main_arg2 (Pipeline.mem_restRefs_of main_arg2 (by decide) (by decide))).trans (end_arg2 m (data m) c),
      ((h c).2 main_arg3 (Pipeline.mem_restRefs_of main_arg3 (by decide) (by decide))).trans (end_arg3 m (data m) c),
      ((h c).2 main_arg4 (Pipeline.mem_restRefs_of main_arg4 (by decide) (by decide))).trans (end_arg4 m (data m) c),
      ((h c).1 2).trans ((((data m 0 c).arrAt_in 2 rfl _).trans ((data_A m c 2).trans (entry_arg5 m c)))),
      ((h c).1 3).trans ((((data m 0 c).arrAt_in 3 rfl _).trans ((data_A m c 3).trans (entry_arg6 m c)))),
      ((h c).1 4).trans ((((data m 0 c).arrAt_in 4 rfl _).trans ((data_A m c 4).trans (entry_arg7 m c)))),
      ((h c).1 5).trans ((((data m 0 c).arrAt_in 5 rfl _).trans ((data_A m c 5).trans (entry_arg8 m c)))),
      ((h c).1 6).trans ((((data m 0 c).arrAt_in 6 rfl _).trans ((data_A m c 6).trans (entry_arg9 m c)))),
      ((h c).1 7).trans ((((data m 0 c).arrAt_in 7 rfl _).trans ((data_A m c 7).trans (entry_arg10 m c))))⟩) (run_region m ρ)

end Cert.KernelIdeal.Hand

end
-- ==== Proof.RefTerm.lean ====
/-
  The reference program's result as one pure term: the operations of its host function in their
  printed order, each value bound to the pure function its operation carries, the module-local
  functions (the exponential linear unit and its two selections) written out in place. The chain is cut
  into a few short reducible stages, composed by application.
-/
import proofs.«407622_j82471962018216_3_alg».proof.Proof.Gen.ReferenceIdeal

noncomputable section

namespace Cert.ReferenceIdeal.Hand

open Idealize.ShloMosaic Idealize.SL.Sem
open Cert.ReferenceIdeal Cert.ReferenceIdeal.Facts₀

variable {F : FTy → Type} [FloatOps F]

/-- One id column: the slice of the ids at offset `off` (one feature column), its unit axis dropped. -/
abbrev idCol (ids : IVec S4096x50x6 32) (off : Fin S4096x50x6.rank → Nat) (h : S4096x50x6.Slices off S4096x50x1) : IVec S4096x50 32 :=
  let v0 : IVec S4096x50x1 32 := extractStridedSlice S4096x50x1 off ids h
  let v1 : IVec S4096x50 32 := shapeCast S4096x50 v0 shapeCasts_S4096x50x1_S4096x50
  v1

/-- The start indices of a gather from a table of `n` rows: a negative id has `n` added, and a unit axis is
    put back behind. -/
abbrev wrapIds (col : IVec S4096x50 32) (n : BitVec 32) : IVec S4096x50x1 32 :=
  let c : IVec S_ 32 := constantI S_ 32 0#32
  let v2 : IVec S4096x50 32 := broadcastInDim S4096x50 ![] bcast_S_S4096x50 c
  let v3 : IVec S4096x50 1 := cmpi .slt col v2
  let c_0 : IVec S_ 32 := constantI S_ 32 n
  let v4 : IVec S4096x50 32 := broadcastInDim S4096x50 ![] bcast_S_S4096x50 c_0
  let v5 : IVec S4096x50 32 := addi col v4
  let v6 : IVec S4096x50 32 := select v3 v5 col
  let v7 : IVec S4096x50x1 32 := broadcastInDim S4096x50x1 ![0, 1] bcast_S4096x50_S4096x50x1_0_1 v6
  v7

/-- The 48 features of every token: the six gathered arrays side by side, the tokens flattened. -/
abbrev flatFeatures (g0 g1 g2 g3 g4 g5 : FVec F S4096x50x8 .f32) : FVec F S204800x48 .f32 :=
  let v54 : FVec F S4096x50x48 .f32 := concatenate S4096x50x48 2 [⟨S4096x50x8, g0⟩, ⟨S4096x50x8, g1⟩, ⟨S4096x50x8, g2⟩, ⟨S4096x50x8, g3⟩, ⟨S4096x50x8, g4⟩, ⟨S4096x50x8, g5⟩] concatenates_S4096x50x8_S4096x50x8_S4096x50x8_S4096x50x8_S4096x50x8_S4096x50x8_S4096x50x48_d2
  let v55 : FVec F S204800x48 .f32 := shapeCast S204800x48 v54 shapeCasts_S4096x50x48_S204800x48
  v55

/-- The hidden layer before its activation: features times `w1`, plus `b1` along every row. -/
abbrev hiddenPre (x : FVec F S204800x48 .f32) (w1 : FVec F S48x32 .f32) (b1 : FVec F S32 .f32) : FVec F S204800x32 .f32 :=
  let v56 : FVec F S204800x32 .f32 := Host.dotGeneral dot_S204800x48_S48x32_S204800x32_1_0_0_1_n_n none x w1
  let v57 : FVec F S1x32 .f32 := broadcastInDim S1x32 ![1] bcast_S32_S1x32_1 b1
  let v58 : FVec F S204800x32 .f32 := broadcastInDim S204800x32 ![0, 1] bcast_S1x32_S204800x32_0_1 v57
  let v59 : FVec F S204800x32 .f32 := addf v56 v58
  v59

/-- The first selection inside the exponential linear unit: the scalar `z` where the mask is set, `x` elsewhere. -/
abbrev whereScalar (m : IVec S204800x32 1) (z : FVec F S_ .f32) (x : FVec F S204800x32 .f32) : FVec F S204800x32 .f32 :=
  let v0 : FVec F S_ .f32 := id z
  let v1 : FVec F S204800x32 .f32 := broadcastInDim S204800x32 ![] bcast_S_S204800x32 v0
  let v2 : FVec F S204800x32 .f32 := select m v1 x
  v2

/-- The exponential linear unit as the reference spells it: `x` where positive, elsewhere one times
    `exp − 1` of (`x` with its positive entries replaced by zero). -/
abbrev eluOf (x : FVec F S204800x32 .f32) : FVec F S204800x32 .f32 :=
  let cst : FVec F S_ .f32 := constant S_ .f32 0x00000000#32
  let v0 : FVec F S204800x32 .f32 := broadcastInDim S204800x32 ![] bcast_S_S204800x32 cst
  let v1 : IVec S204800x32 1 := cmpf .ogt x v0
  let cst_0 : FVec F S_ .f32 := constant S_ .f32 0x00000000#32
  let v2 : FVec F S204800x32 .f32 := broadcastInDim S204800x32 ![] bcast_S_S204800x32 cst_0
  let v3 : IVec S204800x32 1 := cmpf .ogt x v2
  let cst_1 : FVec F S_ .f32 := constant S_ .f32 0x00000000#32
  let v4 : FVec F S204800x32 .f32 := whereScalar v3 cst_1 x
  let v5 : FVec F S204800x32 .f32 := Host.expm1 v4
  let cst_2 : FVec F S_ .f32 := constant S_ .f32 0x3F800000#32
  let v6 : FVec F S204800x32 .f32 := broadcastInDim S204800x32 ![] bcast_S_S204800x32 cst_2
  let v7 : FVec F S204800x32 .f32 := mulf v6 v5
  let v8 : FVec F S204800x32 .f32 := select v1 x v7
  v8

/-- The output layer: hidden units times `w2`, plus `b2`, one number per token. -/
abbrev outLayer (h : FVec F S204800x32 .f32) (w2 : FVec F S32x1 .f32) (b2 : FVec F S1 .f32) : FVec F S4096x50 .f32 :=
  let v61 : FVec F S204800x1 .f32 := Host.dotGeneral dot_S204800x32_S32x1_S204800x1_1_0_0_1_n_n none h w2
  let v62 : FVec F S1x1 .f32 := broadcastInDim S1x1 ![1] bcast_S1_S1x1_1 b2
  let v63 : FVec F S204800x1 .f32 := broadcastInDim S204800x1 ![0, 1] bcast_S1x1_S204800x1_0_1 v62
  let v64 : FVec F S204800x1 .f32 := addf v61 v63
  let v65 : FVec F S4096x50 .f32 := shapeCast S4096x50 v64 shapeCasts_S204800x1_S4096x50
  v65

/-- The value the reference returns, from its eleven arguments: six id columns sliced off, each wrapped
    where negative and used to gather rows of its table; the six gathered arrays side by side; the two-layer
    tower over the flattened tokens; the result reshaped to one number per token. -/
def refOut (ids : IVec S4096x50x6 32) (e0 : FVec F S1000000x8 .f32) (e1 : FVec F S500000x8 .f32) (e2 : FVec F S100000x8 .f32) (e3 : FVec F S10000x8 .f32) (e4 : FVec F S1000x8 .f32) (e5 : FVec F S100x8 .f32) (w1 : FVec F S48x32 .f32) (b1 : FVec F S32 .f32) (w2 : FVec F S32x1 .f32) (b2 : FVec F S1 .f32) : FVec F S4096x50 .f32 :=
  outLayer (eluOf (hiddenPre (flatFeatures
    (Host.gather gather_S1000000x8_S4096x50x1_S4096x50x8_2_0_n_n_0_2_18 e0 (wrapIds (idCol ids ![0, 0, 0] slices_S4096x50x6_S4096x50x1_0_0_0) 1000000#32))
    (Host.gather gather_S500000x8_S4096x50x1_S4096x50x8_2_0_n_n_0_2_18 e1 (wrapIds (idCol ids ![0, 0, 1] slices_S4096x50x6_S4096x50x1_0_0_1) 500000#32))
    (Host.gather gather_S100000x8_S4096x50x1_S4096x50x8_2_0_n_n_0_2_18 e2 (wrapIds (idCol ids ![0, 0, 2] slices_S4096x50x6_S4096x50x1_0_0_2) 100000#32))
    (Host.gather gather_S10000x8_S4096x50x1_S4096x50x8_2_0_n_n_0_2_18 e3 (wrapIds (idCol ids ![0, 0, 3] slices_S4096x50x6_S4096x50x1_0_0_3) 10000#32))
    (Host.gather gather_S1000x8_S4096x50x1_S4096x50x8_2_0_n_n_0_2_18 e4 (wrapIds (idCol ids ![0, 0, 4] slices_S4096x50x6_S4096x50x1_0_0_4) 1000#32))
    (Host.gather gather_S100x8_S4096x50x1_S4096x50x8_2_0_n_n_0_2_18 e5 (wrapIds (idCol ids ![0, 0, 5] slices_S4096x50x6_S4096x50x1_0_0_5) 100#32)))
    w1 b1)) w2 b2

end Cert.ReferenceIdeal.Hand

end
-- ==== Proof.RefRun.lean ====
/-
  The reference program's @main read as a straight line of host operations, and its run.

  @main is ninety-two whole-array operations in order: for each of the six feature columns the column of ids is
  sliced out, reshaped to [4096, 50], a negative id is wrapped once by the table's row count (compare with zero, add,
  select), the result is given a unit last axis and the table's rows are gathered; the six [4096, 50, 8] blocks are
  concatenated along the last axis and flattened to [204800, 48]; the first layer is a matrix product with the
  bias broadcast and added; the exponential linear unit is the outlined function's fifteen operations written out at
  its call over that call's buffers (two comparisons with zero, the inner select that feeds `expm1` only the
  non-positive entries, the unit scale, the outer select); the second layer is a matrix product, bias and the reshape
  to [4096, 50].

  Every buffer of the signature is a tensor value's, none scoped, so the straight line runs from any memory and ends
  with each buffer at the fold of the operations' results over the launch contents (`run_after`).

  That fold is then read at the result buffer: the line is cut into its stages (six columns, the features and the first
  layer, the unit, the second layer), each stage a short line over any contents whose result is one stage of the
  reference's pure term, and a buffer a stage does not write is carried through it; composed, the result buffer holds the
  reference's pure term of the arguments' contents (`out_eq`). No operation writes an argument (`argK_eq`). Together:
  the run ends with the result at that term of the launch contents and the arguments unchanged (`run`).
-/
import proofs.«407622_j82471962018216_3_alg».proof.Proof.Gen.ReferenceIdeal
import Idealize.ShloMosaic.Lib.StableHlo.Run
import proofs.«407622_j82471962018216_3_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the call of the exponential linear unit (and the two selects it calls in turn)
    written out over the call's own buffers. -/
abbrev ops : List (HloOp τ sig (Elt F)) :=
  [ StableHlo.unary main_arg0 main_v0 ((extractStridedSlice S4096x50x1 ![0, 0, 0] · slices_S4096x50x6_S4096x50x1_0_0_0) : (⟨S4096x50x6, .i32⟩ : BufTy).Contents (Elt F) → (⟨S4096x50x1, .i32⟩ : BufTy).Contents (Elt F)),
    StableHlo.reshape main_v0 main_v1 rfl shapeCasts_S4096x50x1_S4096x50,
    StableHlo.nullary main_c (constantI S_ 32 0#32),
    StableHlo.unary main_c main_v2 (broadcastInDim S4096x50 ![] bcast_S_S4096x50 : (⟨S_, .i32⟩ : BufTy).Contents (Elt F) → (⟨S4096x50, .i32⟩ : BufTy).Contents (Elt F)),
    StableHlo.binary main_v1 main_v2 main_v3 (cmpi .slt : (⟨S4096x50, .i32⟩ : BufTy).Contents (Elt F) → (⟨S4096x50, .i32⟩ : BufTy).Contents (Elt F) → (⟨S4096x50, .i1⟩ : BufTy).Contents (Elt F)),
    StableHlo.nullary main_c_0 (constantI S_ 32 1000000#32),
    StableHlo.unary main_c_0 main_v4 (broadcastInDim S4096x50 ![] bcast_S_S4096x50 : (⟨S_, .i32⟩ : BufTy).Contents (Elt F) → (⟨S4096x50, .i32⟩ : BufTy).Contents (Elt F)),
    StableHlo.binary main_v1 main_v4 main_v5 (addi : (⟨S4096x50, .i32⟩ : BufTy).Contents (Elt F) → (⟨S4096x50, .i32⟩ : BufTy).Contents (Elt F) → (⟨S4096x50, .i32⟩ : BufTy).Contents (Elt F)),
    StableHlo.ternary main_v3 main_v5 main_v1 main_v6 (select : (⟨S4096x50, .i1⟩ : BufTy).Contents (Elt F) → (⟨S4096x50, .i32⟩ : BufTy).Contents (Elt F) → (⟨S4096x50, .i32⟩ : BufTy).Contents (Elt F) → (⟨S4096x50, .i32⟩ : BufTy).Contents (Elt F)),
    StableHlo.unary main_v6 main_v7 (broadcastInDim S4096x50x1 ![0, 1] bcast_S4096x50_S4096x50x1_0_1 : (⟨S4096x50, .i32⟩ : BufTy).Contents (Elt F) → (⟨S4096x50x1, .i32⟩ : BufTy).Contents (Elt F)),
    StableHlo.binary main_arg1 main_v7 main_v8 ((fun x i => Host.gather gather_S1000000x8_S4096x50x1_S4096x50x8_2_0_n_n_0_2_18 x i) : (⟨S1000000x8, .f32⟩ : BufTy).Contents (Elt F) → (⟨S4096x50x1, .i32⟩ : BufTy).Contents (Elt F) → (⟨S4096x50x8, .f32⟩ : BufTy).Contents (Elt F)),
    StableHlo.unary main_arg0 main_v9 ((extractStridedSlice S4096x50x1 ![0, 0, 1] · slices_S4096x50x6_S4096x50x1_0_0_1) : (⟨S4096x50x6, .i32⟩ : BufTy).Contents (Elt F) → (⟨S4096x50x1, .i32⟩ : BufTy).Contents (Elt F)),
    StableHlo.reshape main_v9 main_v10 rfl shapeCasts_S4096x50x1_S4096x50,
    StableHlo.nullary main_c_1 (constantI S_ 32 0#32),
    StableHlo.unary main_c_1 main_v11 (broadcastInDim S4096x50 ![] bcast_S_S4096x50 : (⟨S_, .i32⟩ : BufTy).Contents (Elt F) → (⟨S4096x50, .i32⟩ : BufTy).Contents (Elt F)),
    StableHlo.binary main_v10 main_v11 main_v12 (cmpi .slt : (⟨S4096x50, .i32⟩ : BufTy).Contents (Elt F) → (⟨S4096x50, .i32⟩ : BufTy).Contents (Elt F) → (⟨S4096x50, .i1⟩ : BufTy).Contents (Elt F)),
    StableHlo.nullary main_c_2 (constantI S_ 32 500000#32),
    StableHlo.unary main_c_2 main_v13 (broadcastInDim S4096x50 ![] bcast_S_S4096x50 : (⟨S_, .i32⟩ : BufTy).Contents (Elt F) → (⟨S4096x50, .i32⟩ : BufTy).Contents (Elt F)),
    StableHlo.binary main_v10 main_v13 main_v14 (addi : (⟨S4096x50, .i32⟩ : BufTy).Contents (Elt F) → (⟨S4096x50, .i32⟩ : BufTy).Contents (Elt F) → (⟨S4096x50, .i32⟩ : BufTy).Contents (Elt F)),
    StableHlo.ternary main_v12 main_v14 main_v10 main_v15 (select : (⟨S4096x50, .i1⟩ : BufTy).Contents (Elt F) → (⟨S4096x50, .i32⟩ : BufTy).Contents (Elt F) → (⟨S4096x50, .i32⟩ : BufTy).Contents (Elt F) → (⟨S4096x50, .i32⟩ : BufTy).Contents (Elt F)),
    StableHlo.unary main_v15 main_v16 (broadcastInDim S4096x50x1 ![0, 1] bcast_S4096x50_S4096x50x1_0_1 : (⟨S4096x50, .i32⟩ : BufTy).Contents (Elt F) → (⟨S4096x50x1, .i32⟩ : BufTy).Contents (Elt F)),
    StableHlo.binary main_arg2 main_v16 main_v17 ((fun x i => Host.gather gather_S500000x8_S4096x50x1_S4096x50x8_2_0_n_n_0_2_18 x i) : (⟨S500000x8, .f32⟩ : BufTy).Contents (Elt F) → (⟨S4096x50x1, .i32⟩ : BufTy).Contents (Elt F) → (⟨S4096x50x8, .f32⟩ : BufTy).Contents (Elt F)),
    StableHlo.unary main_arg0 main_v18 ((extractStridedSlice S4096x50x1 ![0, 0, 2] · slices_S4096x50x6_S4096x50x1_0_0_2) : (⟨S4096x50x6, .i32⟩ : BufTy).Contents (Elt F) → (⟨S4096x50x1, .i32⟩ : BufTy).Contents (Elt F)),
    StableHlo.reshape main_v18 main_v19 rfl shapeCasts_S4096x50x1_S4096x50,
    StableHlo.nullary main_c_3 (constantI S_ 32 0#32),
    StableHlo.unary main_c_3 main_v20 (broadcastInDim S4096x50 ![] bcast_S_S4096x50 : (⟨S_, .i32⟩ : BufTy).Contents (Elt F) → (⟨S4096x50, .i32⟩ : BufTy).Contents (Elt F)),
    StableHlo.binary main_v19 main_v20 main_v21 (cmpi .slt : (⟨S4096x50, .i32⟩ : BufTy).Contents (Elt F) → (⟨S4096x50, .i32⟩ : BufTy).Contents (Elt F) → (⟨S4096x50, .i1⟩ : BufTy).Contents (Elt F)),
    StableHlo.nullary main_c_4 (constantI S_ 32 100000#32),
    StableHlo.unary main_c_4 main_v22 (broadcastInDim S4096x50 ![] bcast_S_S4096x50 : (⟨S_, .i32⟩ : BufTy).Contents (Elt F) → (⟨S4096x50, .i32⟩ : BufTy).Contents (Elt F)),
    StableHlo.binary main_v19 main_v22 main_v23 (addi : (⟨S4096x50, .i32⟩ : BufTy).Contents (Elt F) → (⟨S4096x50, .i32⟩ : BufTy).Contents (Elt F) → (⟨S4096x50, .i32⟩ : BufTy).Contents (Elt F)),
    StableHlo.ternary main_v21 main_v23 main_v19 main_v24 (select : (⟨S4096x50, .i1⟩ : BufTy).Contents (Elt F) → (⟨S4096x50, .i32⟩ : BufTy).Contents (Elt F) → (⟨S4096x50, .i32⟩ : BufTy).Contents (Elt F) → (⟨S4096x50, .i32⟩ : BufTy).Contents (Elt F)),
    StableHlo.unary main_v24 main_v25 (broadcastInDim S4096x50x1 ![0, 1] bcast_S4096x50_S4096x50x1_0_1 : (⟨S4096x50, .i32⟩ : BufTy).Contents (Elt F) → (⟨S4096x50x1, .i32⟩ : BufTy).Contents (Elt F)),
    StableHlo.binary main_arg3 main_v25 main_v26 ((fun x i => Host.gather gather_S100000x8_S4096x50x1_S4096x50x8_2_0_n_n_0_2_18 x i) : (⟨S100000x8, .f32⟩ : BufTy).Contents (Elt F) → (⟨S4096x50x1, .i32⟩ : BufTy).Contents (Elt F) → (⟨S4096x50x8, .f32⟩ : BufTy).Contents (Elt F)),
    StableHlo.unary main_arg0 main_v27 ((extractStridedSlice S4096x50x1 ![0, 0, 3] · slices_S4096x50x6_S4096x50x1_0_0_3) : (⟨S4096x50x6, .i32⟩ : BufTy).Contents (Elt F) → (⟨S4096x50x1, .i32⟩ : BufTy).Contents (Elt F)),
    StableHlo.reshape main_v27 main_v28 rfl shapeCasts_S4096x50x1_S4096x50,
    StableHlo.nullary main_c_5 (constantI S_ 32 0#32),
    StableHlo.unary main_c_5 main_v29 (broadcastInDim S4096x50 ![] bcast_S_S4096x50 : (⟨S_, .i32⟩ : BufTy).Contents (Elt F) → (⟨S4096x50, .i32⟩ : BufTy).Contents (Elt F)),
    StableHlo.binary main_v28 main_v29 main_v30 (cmpi .slt : (⟨S4096x50, .i32⟩ : BufTy).Contents (Elt F) → (⟨S4096x50, .i32⟩ : BufTy).Contents (Elt F) → (⟨S4096x50, .i1⟩ : BufTy).Contents (Elt F)),
    StableHlo.nullary main_c_6 (constantI S_ 32 10000#32),
    StableHlo.unary main_c_6 main_v31 (broadcastInDim S4096x50 ![] bcast_S_S4096x50 : (⟨S_, .i32⟩ : BufTy).Contents (Elt F) → (⟨S4096x50, .i32⟩ : BufTy).Contents (Elt F)),
    StableHlo.binary main_v28 main_v31 main_v32 (addi : (⟨S4096x50, .i32⟩ : BufTy).Contents (Elt F) → (⟨S4096x50, .i32⟩ : BufTy).Contents (Elt F) → (⟨S4096x50, .i32⟩ : BufTy).Contents (Elt F)),
    StableHlo.ternary main_v30 main_v32 main_v28 main_v33 (select : (⟨S4096x50, .i1⟩ : BufTy).Contents (Elt F) → (⟨S4096x50, .i32⟩ : BufTy).Contents (Elt F) → (⟨S4096x50, .i32⟩ : BufTy).Contents (Elt F) → (⟨S4096x50, .i32⟩ : BufTy).Contents (Elt F)),
    StableHlo.unary main_v33 main_v34 (broadcastInDim S4096x50x1 ![0, 1] bcast_S4096x50_S4096x50x1_0_1 : (⟨S4096x50, .i32⟩ : BufTy).Contents (Elt F) → (⟨S4096x50x1, .i32⟩ : BufTy).Contents (Elt F)),
    StableHlo.binary main_arg4 main_v34 main_v35 ((fun x i => Host.gather gather_S10000x8_S4096x50x1_S4096x50x8_2_0_n_n_0_2_18 x i) : (⟨S10000x8, .f32⟩ : BufTy).Contents (Elt F) → (⟨S4096x50x1, .i32⟩ : BufTy).Contents (Elt F) → (⟨S4096x50x8, .f32⟩ : BufTy).Contents (Elt F)),
    StableHlo.unary main_arg0 main_v36 ((extractStridedSlice S4096x50x1 ![0, 0, 4] · slices_S4096x50x6_S4096x50x1_0_0_4) : (⟨S4096x50x6, .i32⟩ : BufTy).Contents (Elt F) → (⟨S4096x50x1, .i32⟩ : BufTy).Contents (Elt F)),
    StableHlo.reshape main_v36 main_v37 rfl shapeCasts_S4096x50x1_S4096x50,
    StableHlo.nullary main_c_7 (constantI S_ 32 0#32),
    StableHlo.unary main_c_7 main_v38 (broadcastInDim S4096x50 ![] bcast_S_S4096x50 : (⟨S_, .i32⟩ : BufTy).Contents (Elt F) → (⟨S4096x50, .i32⟩ : BufTy).Contents (Elt F)),
    StableHlo.binary main_v37 main_v38 main_v39 (cmpi .slt : (⟨S4096x50, .i32⟩ : BufTy).Contents (Elt F) → (⟨S4096x50, .i32⟩ : BufTy).Contents (Elt F) → (⟨S4096x50, .i1⟩ : BufTy).Contents (Elt F)),
    StableHlo.nullary main_c_8 (constantI S_ 32 1000#32),
    StableHlo.unary main_c_8 main_v40 (broadcastInDim S4096x50 ![] bcast_S_S4096x50 : (⟨S_, .i32⟩ : BufTy).Contents (Elt F) → (⟨S4096x50, .i32⟩ : BufTy).Contents (Elt F)),
    StableHlo.binary main_v37 main_v40 main_v41 (addi : (⟨S4096x50, .i32⟩ : BufTy).Contents (Elt F) → (⟨S4096x50, .i32⟩ : BufTy).Contents (Elt F) → (⟨S4096x50, .i32⟩ : BufTy).Contents (Elt F)),
    StableHlo.ternary main_v39 main_v41 main_v37 main_v42 (select : (⟨S4096x50, .i1⟩ : BufTy).Contents (Elt F) → (⟨S4096x50, .i32⟩ : BufTy).Contents (Elt F) → (⟨S4096x50, .i32⟩ : BufTy).Contents (Elt F) → (⟨S4096x50, .i32⟩ : BufTy).Contents (Elt F)),
    StableHlo.unary main_v42 main_v43 (broadcastInDim S4096x50x1 ![0, 1] bcast_S4096x50_S4096x50x1_0_1 : (⟨S4096x50, .i32⟩ : BufTy).Contents (Elt F) → (⟨S4096x50x1, .i32⟩ : BufTy).Contents (Elt F)),
    StableHlo.binary main_arg5 main_v43 main_v44 ((fun x i => Host.gather gather_S1000x8_S4096x50x1_S4096x50x8_2_0_n_n_0_2_18 x i) : (⟨S1000x8, .f32⟩ : BufTy).Contents (Elt F) → (⟨S4096x50x1, .i32⟩ : BufTy).Contents (Elt F) → (⟨S4096x50x8, .f32⟩ : BufTy).Contents (Elt F)),
    StableHlo.unary main_arg0 main_v45 ((extractStridedSlice S4096x50x1 ![0, 0, 5] · slices_S4096x50x6_S4096x50x1_0_0_5) : (⟨S4096x50x6, .i32⟩ : BufTy).Contents (Elt F) → (⟨S4096x50x1, .i32⟩ : BufTy).Contents (Elt F)),
    StableHlo.reshape main_v45 main_v46 rfl shapeCasts_S4096x50x1_S4096x50,
    StableHlo.nullary main_c_9 (constantI S_ 32 0#32),
    StableHlo.unary main_c_9 main_v47 (broadcastInDim S4096x50 ![] bcast_S_S4096x50 : (⟨S_, .i32⟩ : BufTy).Contents (Elt F) → (⟨S4096x50, .i32⟩ : BufTy).Contents (Elt F)),
    StableHlo.binary main_v46 main_v47 main_v48 (cmpi .slt : (⟨S4096x50, .i32⟩ : BufTy).Contents (Elt F) → (⟨S4096x50, .i32⟩ : BufTy).Contents (Elt F) → (⟨S4096x50, .i1⟩ : BufTy).Contents (Elt F)),
    StableHlo.nullary main_c_10 (constantI S_ 32 100#32),
    StableHlo.unary main_c_10 main_v49 (broadcastInDim S4096x50 ![] bcast_S_S4096x50 : (⟨S_, .i32⟩ : BufTy).Contents (Elt F) → (⟨S4096x50, .i32⟩ : BufTy).Contents (Elt F)),
    StableHlo.binary main_v46 main_v49 main_v50 (addi : (⟨S4096x50, .i32⟩ : BufTy).Contents (Elt F) → (⟨S4096x50, .i32⟩ : BufTy).Contents (Elt F) → (⟨S4096x50, .i32⟩ : BufTy).Contents (Elt F)),
    StableHlo.ternary main_v48 main_v50 main_v46 main_v51 (select : (⟨S4096x50, .i1⟩ : BufTy).Contents (Elt F) → (⟨S4096x50, .i32⟩ : BufTy).Contents (Elt F) → (⟨S4096x50, .i32⟩ : BufTy).Contents (Elt F) → (⟨S4096x50, .i32⟩ : BufTy).Contents (Elt F)),
    StableHlo.unary main_v51 main_v52 (broadcastInDim S4096x50x1 ![0, 1] bcast_S4096x50_S4096x50x1_0_1 : (⟨S4096x50, .i32⟩ : BufTy).Contents (Elt F) → (⟨S4096x50x1, .i32⟩ : BufTy).Contents (Elt F)),
    StableHlo.binary main_arg6 main_v52 main_v53 ((fun x i => Host.gather gather_S100x8_S4096x50x1_S4096x50x8_2_0_n_n_0_2_18 x i) : (⟨S100x8, .f32⟩ : BufTy).Contents (Elt F) → (⟨S4096x50x1, .i32⟩ : BufTy).Contents (Elt F) → (⟨S4096x50x8, .f32⟩ : BufTy).Contents (Elt F)),
    StableHlo.nary ![main_v8, main_v17, main_v26, main_v35, main_v44, main_v53] main_v54 (fun u => concatenate S4096x50x48 2 [⟨S4096x50x8, u 0⟩, ⟨S4096x50x8, u 1⟩, ⟨S4096x50x8, u 2⟩, ⟨S4096x50x8, u 3⟩, ⟨S4096x50x8, u 4⟩, ⟨S4096x50x8, u 5⟩] concatenates_S4096x50x8_S4096x50x8_S4096x50x8_S4096x50x8_S4096x50x8_S4096x50x8_S4096x50x48_d2),
    StableHlo.reshape main_v54 main_v55 rfl shapeCasts_S4096x50x48_S204800x48,
    StableHlo.binary main_v55 main_arg7 main_v56 ((fun l r => Host.dotGeneral dot_S204800x48_S48x32_S204800x32_1_0_0_1_n_n none l r) : (⟨S204800x48, .f32⟩ : BufTy).Contents (Elt F) → (⟨S48x32, .f32⟩ : BufTy).Contents (Elt F) → (⟨S204800x32, .f32⟩ : BufTy).Contents (Elt F)),
    StableHlo.unary main_arg8 main_v57 (broadcastInDim S1x32 ![1] bcast_S32_S1x32_1 : (⟨S32, .f32⟩ : BufTy).Contents (Elt F) → (⟨S1x32, .f32⟩ : BufTy).Contents (Elt F)),
    StableHlo.unary main_v57 main_v58 (broadcastInDim S204800x32 ![0, 1] bcast_S1x32_S204800x32_0_1 : (⟨S1x32, .f32⟩ : BufTy).Contents (Elt F) → (⟨S204800x32, .f32⟩ : BufTy).Contents (Elt F)),
    StableHlo.binary main_v56 main_v58 main_v59 (addf : (⟨S204800x32, .f32⟩ : BufTy).Contents (Elt F) → (⟨S204800x32, .f32⟩ : BufTy).Contents (Elt F) → (⟨S204800x32, .f32⟩ : BufTy).Contents (Elt F)),
    StableHlo.TRef.nullary main_call0.cst (constant S_ .f32 0x00000000#32),
    StableHlo.TRef.unary main_call0.cst main_call0.v0 (broadcastInDim S204800x32 ![] bcast_S_S204800x32),
    StableHlo.TRef.binary (.of main_v59 : StableHlo.TRef sig ⟨S204800x32, .f32⟩) main_call0.v0 main_call0.v1 (cmpf .ogt),
    StableHlo.TRef.nullary main_call0.cst_0 (constant S_ .f32 0x00000000#32),
    StableHlo.TRef.unary main_call0.cst_0 main_call0.v2 (broadcastInDim S204800x32 ![] bcast_S_S204800x32),
    StableHlo.TRef.binary (.of main_v59 : StableHlo.TRef sig ⟨S204800x32, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S204800x32 ![] bcast_S_S204800x32),
    StableHlo.TRef.ternary main_call0.v3 main_call0.call0.v1 (.of main_v59 : StableHlo.TRef sig ⟨S204800x32, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S204800x32 ![] bcast_S_S204800x32),
    StableHlo.TRef.binary main_call0.v6 main_call0.v5 main_call0.v7 mulf,
    StableHlo.TRef.ternary main_call0.v1 (.of main_v59 : StableHlo.TRef sig ⟨S204800x32, .f32⟩) main_call0.v7 main_call0.call1.v0 select,
    StableHlo.binary main_v60 main_arg9 main_v61 ((fun l r => Host.dotGeneral dot_S204800x32_S32x1_S204800x1_1_0_0_1_n_n none l r) : (⟨S204800x32, .f32⟩ : BufTy).Contents (Elt F) → (⟨S32x1, .f32⟩ : BufTy).Contents (Elt F) → (⟨S204800x1, .f32⟩ : BufTy).Contents (Elt F)),
    StableHlo.unary main_arg10 main_v62 (broadcastInDim S1x1 ![1] bcast_S1_S1x1_1 : (⟨S1, .f32⟩ : BufTy).Contents (Elt F) → (⟨S1x1, .f32⟩ : BufTy).Contents (Elt F)),
    StableHlo.unary main_v62 main_v63 (broadcastInDim S204800x1 ![0, 1] bcast_S1x1_S204800x1_0_1 : (⟨S1x1, .f32⟩ : BufTy).Contents (Elt F) → (⟨S204800x1, .f32⟩ : BufTy).Contents (Elt F)),
    StableHlo.binary main_v61 main_v63 main_v64 (addf : (⟨S204800x1, .f32⟩ : BufTy).Contents (Elt F) → (⟨S204800x1, .f32⟩ : BufTy).Contents (Elt F) → (⟨S204800x1, .f32⟩ : BufTy).Contents (Elt F)),
    StableHlo.reshape main_v64 main_v65 rfl shapeCasts_S204800x1_S4096x50 ]

set_option maxRecDepth 4096 in
set_option maxHeartbeats 4000000 in
/-- @main is that straight line: its two windows in order, the outlined functions' bodies unfolded at their calls
    and the records at their fields; with sequencing reassociated both sides are one chain of host steps. -/
theorem main_eq (c : Dev nD) : main (F := F) c = StableHlo.seq ops := by
  simp only [main, main_part0, main_part1, fn_elu.body, fn_where.body, fn_where_0.body, StableHlo.seq, bind_assoc, pure_bind]

/-- No buffer of the signature is scoped. -/
theorem scopedRefs_eq : (Finset.univ.filter fun b : Ref sig .tc => b.isScoped) = ∅ := by decide
/-- The signature has no semaphore at all. -/
theorem scopedSems_eq : (Finset.univ.filter fun sm : SemLoc sig => sm.isScoped .tc) = ∅ := by decide

/-- Every operation touches TensorCore references only. -/
theorem ops_sub : (ops : List (HloOp τ sig (Elt F))).Forall fun op => op.bufs ⊆ StableHlo.tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    nary_bufs_sub .., reshape_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., binary_bufs_sub .., unary_bufs_sub .., unary_bufs_sub ..,
    binary_bufs_sub .., reshape_bufs_sub ..⟩

set_option maxRecDepth 4096 in
set_option maxHeartbeats 4000000 in
/-- From any memory with zero counters: every weakly fair execution of @main terminates, and every final state has
    each buffer at the fold of the operations' results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (launchContents m c) (b : DevRef τ sig) :=
  run_seq scopedRefs_eq scopedSems_eq defs main (fun _ => ops) main_eq (fun _ => ops_sub) m ρ

/-! ## The line in stages

The fold over the whole line at once is a deep term; it is read instead stage by stage, each stage a short line of
its own over ANY contents `W`: the six columns (slice, reshape, wrap, gather: eleven operations each), the features
and the first layer before its activation (six), the exponential linear unit (fifteen), the second layer (five). -/

/-- The fold over two lines in order is the fold over the second from the fold over the first. -/
theorem after_append (l₁ l₂ : List (HloOp τ sig (Elt F))) (W : Valuation τ sig (Elt F)) :
    after (l₁ ++ l₂) W = after l₂ (after l₁ W) := by
  induction l₁ generalizing W with
  | nil => rfl
  | cons op l ih => simp only [List.cons_append, after_cons, ih]

/-- A six-operand operation's result with each operand's contents read at its own reference (the family of
    operands is a literal, so the contents at index `k` are those at the `k`-th reference). -/
theorem nary6_result' {x0 x1 x2 x3 x4 x5 y : Ref sig .tc}
    (f : ((k : Fin 6) → ((![x0, x1, x2, x3, x4, x5] : Fin 6 → Ref sig .tc) k).ty.Contents (Elt F)) → y.ty.Contents (Elt F)) (hxs hy)
    (W : Valuation τ sig (Elt F)) :
    (nary (τ := τ) ![x0, x1, x2, x3, x4, x5] y f hxs hy).result W (no_index (Proc.devRef .tc y))
      = f (Fin.cons (W (Proc.devRef .tc x0)) (Fin.cons (W (Proc.devRef .tc x1)) (Fin.cons (W (Proc.devRef .tc x2))
          (Fin.cons (W (Proc.devRef .tc x3)) (Fin.cons (W (Proc.devRef .tc x4)) (Fin.cons (W (Proc.devRef .tc x5)) (fun i => i.elim0))))))) := by
  rw [nary_result]; congr 1; funext k; fin_cases k <;> rfl

/-- Column 0: its ids sliced out and reshaped, negative ones wrapped, the table's rows gathered. -/
def colOps0 : List (HloOp τ sig (Elt F)) :=
  [ StableHlo.unary main_arg0 main_v0 ((extractStridedSlice S4096x50x1 ![0, 0, 0] · slices_S4096x50x6_S4096x50x1_0_0_0) : (⟨S4096x50x6, .i32⟩ : BufTy).Contents (Elt F) → (⟨S4096x50x1, .i32⟩ : BufTy).Contents (Elt F)),
    StableHlo.reshape main_v0 main_v1 rfl shapeCasts_S4096x50x1_S4096x50,
    StableHlo.nullary main_c (constantI S_ 32 0#32),
    StableHlo.unary main_c main_v2 (broadcastInDim S4096x50 ![] bcast_S_S4096x50 : (⟨S_, .i32⟩ : BufTy).Contents (Elt F) → (⟨S4096x50, .i32⟩ : BufTy).Contents (Elt F)),
    StableHlo.binary main_v1 main_v2 main_v3 (cmpi .slt : (⟨S4096x50, .i32⟩ : BufTy).Contents (Elt F) → (⟨S4096x50, .i32⟩ : BufTy).Contents (Elt F) → (⟨S4096x50, .i1⟩ : BufTy).Contents (Elt F)),
    StableHlo.nullary main_c_0 (constantI S_ 32 1000000#32),
    StableHlo.unary main_c_0 main_v4 (broadcastInDim S4096x50 ![] bcast_S_S4096x50 : (⟨S_, .i32⟩ : BufTy).Contents (Elt F) → (⟨S4096x50, .i32⟩ : BufTy).Contents (Elt F)),
    StableHlo.binary main_v1 main_v4 main_v5 (addi : (⟨S4096x50, .i32⟩ : BufTy).Contents (Elt F) → (⟨S4096x50, .i32⟩ : BufTy).Contents (Elt F) → (⟨S4096x50, .i32⟩ : BufTy).Contents (Elt F)),
    StableHlo.ternary main_v3 main_v5 main_v1 main_v6 (select : (⟨S4096x50, .i1⟩ : BufTy).Contents (Elt F) → (⟨S4096x50, .i32⟩ : BufTy).Contents (Elt F) → (⟨S4096x50, .i32⟩ : BufTy).Contents (Elt F) → (⟨S4096x50, .i32⟩ : BufTy).Contents (Elt F)),
    StableHlo.unary main_v6 main_v7 (broadcastInDim S4096x50x1 ![0, 1] bcast_S4096x50_S4096x50x1_0_1 : (⟨S4096x50, .i32⟩ : BufTy).Contents (Elt F) → (⟨S4096x50x1, .i32⟩ : BufTy).Contents (Elt F)),
    StableHlo.binary main_arg1 main_v7 main_v8 ((fun x i => Host.gather gather_S1000000x8_S4096x50x1_S4096x50x8_2_0_n_n_0_2_18 x i) : (⟨S1000000x8, .f32⟩ : BufTy).Contents (Elt F) → (⟨S4096x50x1, .i32⟩ : BufTy).Contents (Elt F) → (⟨S4096x50x8, .f32⟩ : BufTy).Contents (Elt F)) ]
/-- The references that stage writes. -/
abbrev colW0 : List (Ref sig .tc) := [main_v0, main_v1, main_c, main_v2, main_v3, main_c_0, main_v4, main_v5, main_v6, main_v7, main_v8]
theorem colOps0_writes : (colOps0 : List (HloOp τ sig (Elt F))).Forall fun op =>
    op.writes ⊆ (colW0.map (Proc.devRef (τ := τ) .tc)).toFinset := by
  simp only [colOps0, List.Forall]
  exact ⟨(by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide))⟩
/-- A buffer that stage does not write keeps its contents through it. -/
theorem colOps0_keep (W : Valuation τ sig (Elt F)) (r : Ref sig .tc) (h : r ∉ colW0) :
    after colOps0 W (no_index (Proc.devRef .tc r)) = W (Proc.devRef .tc r) :=
  after_of_writes_sub colOps0 W colOps0_writes h

/-- Column 1: its ids sliced out and reshaped, negative ones wrapped, the table's rows gathered. -/
def colOps1 : List (HloOp τ sig (Elt F)) :=
  [ StableHlo.unary main_arg0 main_v9 ((extractStridedSlice S4096x50x1 ![0, 0, 1] · slices_S4096x50x6_S4096x50x1_0_0_1) : (⟨S4096x50x6, .i32⟩ : BufTy).Contents (Elt F) → (⟨S4096x50x1, .i32⟩ : BufTy).Contents (Elt F)),
    StableHlo.reshape main_v9 main_v10 rfl shapeCasts_S4096x50x1_S4096x50,
    StableHlo.nullary main_c_1 (constantI S_ 32 0#32),
    StableHlo.unary main_c_1 main_v11 (broadcastInDim S4096x50 ![] bcast_S_S4096x50 : (⟨S_, .i32⟩ : BufTy).Contents (Elt F) → (⟨S4096x50, .i32⟩ : BufTy).Contents (Elt F)),
    StableHlo.binary main_v10 main_v11 main_v12 (cmpi .slt : (⟨S4096x50, .i32⟩ : BufTy).Contents (Elt F) → (⟨S4096x50, .i32⟩ : BufTy).Contents (Elt F) → (⟨S4096x50, .i1⟩ : BufTy).Contents (Elt F)),
    StableHlo.nullary main_c_2 (constantI S_ 32 500000#32),
    StableHlo.unary main_c_2 main_v13 (broadcastInDim S4096x50 ![] bcast_S_S4096x50 : (⟨S_, .i32⟩ : BufTy).Contents (Elt F) → (⟨S4096x50, .i32⟩ : BufTy).Contents (Elt F)),
    StableHlo.binary main_v10 main_v13 main_v14 (addi : (⟨S4096x50, .i32⟩ : BufTy).Contents (Elt F) → (⟨S4096x50, .i32⟩ : BufTy).Contents (Elt F) → (⟨S4096x50, .i32⟩ : BufTy).Contents (Elt F)),
    StableHlo.ternary main_v12 main_v14 main_v10 main_v15 (select : (⟨S4096x50, .i1⟩ : BufTy).Contents (Elt F) → (⟨S4096x50, .i32⟩ : BufTy).Contents (Elt F) → (⟨S4096x50, .i32⟩ : BufTy).Contents (Elt F) → (⟨S4096x50, .i32⟩ : BufTy).Contents (Elt F)),
    StableHlo.unary main_v15 main_v16 (broadcastInDim S4096x50x1 ![0, 1] bcast_S4096x50_S4096x50x1_0_1 : (⟨S4096x50, .i32⟩ : BufTy).Contents (Elt F) → (⟨S4096x50x1, .i32⟩ : BufTy).Contents (Elt F)),
    StableHlo.binary main_arg2 main_v16 main_v17 ((fun x i => Host.gather gather_S500000x8_S4096x50x1_S4096x50x8_2_0_n_n_0_2_18 x i) : (⟨S500000x8, .f32⟩ : BufTy).Contents (Elt F) → (⟨S4096x50x1, .i32⟩ : BufTy).Contents (Elt F) → (⟨S4096x50x8, .f32⟩ : BufTy).Contents (Elt F)) ]
/-- The references that stage writes. -/
abbrev colW1 : List (Ref sig .tc) := [main_v9, main_v10, main_c_1, main_v11, main_v12, main_c_2, main_v13, main_v14, main_v15, main_v16, main_v17]
theorem colOps1_writes : (colOps1 : List (HloOp τ sig (Elt F))).Forall fun op =>
    op.writes ⊆ (colW1.map (Proc.devRef (τ := τ) .tc)).toFinset := by
  simp only [colOps1, List.Forall]
  exact ⟨(by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide))⟩
/-- A buffer that stage does not write keeps its contents through it. -/
theorem colOps1_keep (W : Valuation τ sig (Elt F)) (r : Ref sig .tc) (h : r ∉ colW1) :
    after colOps1 W (no_index (Proc.devRef .tc r)) = W (Proc.devRef .tc r) :=
  after_of_writes_sub colOps1 W colOps1_writes h

/-- Column 2: its ids sliced out and reshaped, negative ones wrapped, the table's rows gathered. -/
def colOps2 : List (HloOp τ sig (Elt F)) :=
  [ StableHlo.unary main_arg0 main_v18 ((extractStridedSlice S4096x50x1 ![0, 0, 2] · slices_S4096x50x6_S4096x50x1_0_0_2) : (⟨S4096x50x6, .i32⟩ : BufTy).Contents (Elt F) → (⟨S4096x50x1, .i32⟩ : BufTy).Contents (Elt F)),
    StableHlo.reshape main_v18 main_v19 rfl shapeCasts_S4096x50x1_S4096x50,
    StableHlo.nullary main_c_3 (constantI S_ 32 0#32),
    StableHlo.unary main_c_3 main_v20 (broadcastInDim S4096x50 ![] bcast_S_S4096x50 : (⟨S_, .i32⟩ : BufTy).Contents (Elt F) → (⟨S4096x50, .i32⟩ : BufTy).Contents (Elt F)),
    StableHlo.binary main_v19 main_v20 main_v21 (cmpi .slt : (⟨S4096x50, .i32⟩ : BufTy).Contents (Elt F) → (⟨S4096x50, .i32⟩ : BufTy).Contents (Elt F) → (⟨S4096x50, .i1⟩ : BufTy).Contents (Elt F)),
    StableHlo.nullary main_c_4 (constantI S_ 32 100000#32),
    StableHlo.unary main_c_4 main_v22 (broadcastInDim S4096x50 ![] bcast_S_S4096x50 : (⟨S_, .i32⟩ : BufTy).Contents (Elt F) → (⟨S4096x50, .i32⟩ : BufTy).Contents (Elt F)),
    StableHlo.binary main_v19 main_v22 main_v23 (addi : (⟨S4096x50, .i32⟩ : BufTy).Contents (Elt F) → (⟨S4096x50, .i32⟩ : BufTy).Contents (Elt F) → (⟨S4096x50, .i32⟩ : BufTy).Contents (Elt F)),
    StableHlo.ternary main_v21 main_v23 main_v19 main_v24 (select : (⟨S4096x50, .i1⟩ : BufTy).Contents (Elt F) → (⟨S4096x50, .i32⟩ : BufTy).Contents (Elt F) → (⟨S4096x50, .i32⟩ : BufTy).Contents (Elt F) → (⟨S4096x50, .i32⟩ : BufTy).Contents (Elt F)),
    StableHlo.unary main_v24 main_v25 (broadcastInDim S4096x50x1 ![0, 1] bcast_S4096x50_S4096x50x1_0_1 : (⟨S4096x50, .i32⟩ : BufTy).Contents (Elt F) → (⟨S4096x50x1, .i32⟩ : BufTy).Contents (Elt F)),
    StableHlo.binary main_arg3 main_v25 main_v26 ((fun x i => Host.gather gather_S100000x8_S4096x50x1_S4096x50x8_2_0_n_n_0_2_18 x i) : (⟨S100000x8, .f32⟩ : BufTy).Contents (Elt F) → (⟨S4096x50x1, .i32⟩ : BufTy).Contents (Elt F) → (⟨S4096x50x8, .f32⟩ : BufTy).Contents (Elt F)) ]
/-- The references that stage writes. -/
abbrev colW2 : List (Ref sig .tc) := [main_v18, main_v19, main_c_3, main_v20, main_v21, main_c_4, main_v22, main_v23, main_v24, main_v25, main_v26]
theorem colOps2_writes : (colOps2 : List (HloOp τ sig (Elt F))).Forall fun op =>
    op.writes ⊆ (colW2.map (Proc.devRef (τ := τ) .tc)).toFinset := by
  simp only [colOps2, List.Forall]
  exact ⟨(by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide))⟩
/-- A buffer that stage does not write keeps its contents through it. -/
theorem colOps2_keep (W : Valuation τ sig (Elt F)) (r : Ref sig .tc) (h : r ∉ colW2) :
    after colOps2 W (no_index (Proc.devRef .tc r)) = W (Proc.devRef .tc r) :=
  after_of_writes_sub colOps2 W colOps2_writes h

/-- Column 3: its ids sliced out and reshaped, negative ones wrapped, the table's rows gathered. -/
def colOps3 : List (HloOp τ sig (Elt F)) :=
  [ StableHlo.unary main_arg0 main_v27 ((extractStridedSlice S4096x50x1 ![0, 0, 3] · slices_S4096x50x6_S4096x50x1_0_0_3) : (⟨S4096x50x6, .i32⟩ : BufTy).Contents (Elt F) → (⟨S4096x50x1, .i32⟩ : BufTy).Contents (Elt F)),
    StableHlo.reshape main_v27 main_v28 rfl shapeCasts_S4096x50x1_S4096x50,
    StableHlo.nullary main_c_5 (constantI S_ 32 0#32),
    StableHlo.unary main_c_5 main_v29 (broadcastInDim S4096x50 ![] bcast_S_S4096x50 : (⟨S_, .i32⟩ : BufTy).Contents (Elt F) → (⟨S4096x50, .i32⟩ : BufTy).Contents (Elt F)),
    StableHlo.binary main_v28 main_v29 main_v30 (cmpi .slt : (⟨S4096x50, .i32⟩ : BufTy).Contents (Elt F) → (⟨S4096x50, .i32⟩ : BufTy).Contents (Elt F) → (⟨S4096x50, .i1⟩ : BufTy).Contents (Elt F)),
    StableHlo.nullary main_c_6 (constantI S_ 32 10000#32),
    StableHlo.unary main_c_6 main_v31 (broadcastInDim S4096x50 ![] bcast_S_S4096x50 : (⟨S_, .i32⟩ : BufTy).Contents (Elt F) → (⟨S4096x50, .i32⟩ : BufTy).Contents (Elt F)),
    StableHlo.binary main_v28 main_v31 main_v32 (addi : (⟨S4096x50, .i32⟩ : BufTy).Contents (Elt F) → (⟨S4096x50, .i32⟩ : BufTy).Contents (Elt F) → (⟨S4096x50, .i32⟩ : BufTy).Contents (Elt F)),
    StableHlo.ternary main_v30 main_v32 main_v28 main_v33 (select : (⟨S4096x50, .i1⟩ : BufTy).Contents (Elt F) → (⟨S4096x50, .i32⟩ : BufTy).Contents (Elt F) → (⟨S4096x50, .i32⟩ : BufTy).Contents (Elt F) → (⟨S4096x50, .i32⟩ : BufTy).Contents (Elt F)),
    StableHlo.unary main_v33 main_v34 (broadcastInDim S4096x50x1 ![0, 1] bcast_S4096x50_S4096x50x1_0_1 : (⟨S4096x50, .i32⟩ : BufTy).Contents (Elt F) → (⟨S4096x50x1, .i32⟩ : BufTy).Contents (Elt F)),
    StableHlo.binary main_arg4 main_v34 main_v35 ((fun x i => Host.gather gather_S10000x8_S4096x50x1_S4096x50x8_2_0_n_n_0_2_18 x i) : (⟨S10000x8, .f32⟩ : BufTy).Contents (Elt F) → (⟨S4096x50x1, .i32⟩ : BufTy).Contents (Elt F) → (⟨S4096x50x8, .f32⟩ : BufTy).Contents (Elt F)) ]
/-- The references that stage writes. -/
abbrev colW3 : List (Ref sig .tc) := [main_v27, main_v28, main_c_5, main_v29, main_v30, main_c_6, main_v31, main_v32, main_v33, main_v34, main_v35]
theorem colOps3_writes : (colOps3 : List (HloOp τ sig (Elt F))).Forall fun op =>
    op.writes ⊆ (colW3.map (Proc.devRef (τ := τ) .tc)).toFinset := by
  simp only [colOps3, List.Forall]
  exact ⟨(by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide))⟩
/-- A buffer that stage does not write keeps its contents through it. -/
theorem colOps3_keep (W : Valuation τ sig (Elt F)) (r : Ref sig .tc) (h : r ∉ colW3) :
    after colOps3 W (no_index (Proc.devRef .tc r)) = W (Proc.devRef .tc r) :=
  after_of_writes_sub colOps3 W colOps3_writes h

/-- Column 4: its ids sliced out and reshaped, negative ones wrapped, the table's rows gathered. -/
def colOps4 : List (HloOp τ sig (Elt F)) :=
  [ StableHlo.unary main_arg0 main_v36 ((extractStridedSlice S4096x50x1 ![0, 0, 4] · slices_S4096x50x6_S4096x50x1_0_0_4) : (⟨S4096x50x6, .i32⟩ : BufTy).Contents (Elt F) → (⟨S4096x50x1, .i32⟩ : BufTy).Contents (Elt F)),
    StableHlo.reshape main_v36 main_v37 rfl shapeCasts_S4096x50x1_S4096x50,
    StableHlo.nullary main_c_7 (constantI S_ 32 0#32),
    StableHlo.unary main_c_7 main_v38 (broadcastInDim S4096x50 ![] bcast_S_S4096x50 : (⟨S_, .i32⟩ : BufTy).Contents (Elt F) → (⟨S4096x50, .i32⟩ : BufTy).Contents (Elt F)),
    StableHlo.binary main_v37 main_v38 main_v39 (cmpi .slt : (⟨S4096x50, .i32⟩ : BufTy).Contents (Elt F) → (⟨S4096x50, .i32⟩ : BufTy).Contents (Elt F) → (⟨S4096x50, .i1⟩ : BufTy).Contents (Elt F)),
    StableHlo.nullary main_c_8 (constantI S_ 32 1000#32),
    StableHlo.unary main_c_8 main_v40 (broadcastInDim S4096x50 ![] bcast_S_S4096x50 : (⟨S_, .i32⟩ : BufTy).Contents (Elt F) → (⟨S4096x50, .i32⟩ : BufTy).Contents (Elt F)),
    StableHlo.binary main_v37 main_v40 main_v41 (addi : (⟨S4096x50, .i32⟩ : BufTy).Contents (Elt F) → (⟨S4096x50, .i32⟩ : BufTy).Contents (Elt F) → (⟨S4096x50, .i32⟩ : BufTy).Contents (Elt F)),
    StableHlo.ternary main_v39 main_v41 main_v37 main_v42 (select : (⟨S4096x50, .i1⟩ : BufTy).Contents (Elt F) → (⟨S4096x50, .i32⟩ : BufTy).Contents (Elt F) → (⟨S4096x50, .i32⟩ : BufTy).Contents (Elt F) → (⟨S4096x50, .i32⟩ : BufTy).Contents (Elt F)),
    StableHlo.unary main_v42 main_v43 (broadcastInDim S4096x50x1 ![0, 1] bcast_S4096x50_S4096x50x1_0_1 : (⟨S4096x50, .i32⟩ : BufTy).Contents (Elt F) → (⟨S4096x50x1, .i32⟩ : BufTy).Contents (Elt F)),
    StableHlo.binary main_arg5 main_v43 main_v44 ((fun x i => Host.gather gather_S1000x8_S4096x50x1_S4096x50x8_2_0_n_n_0_2_18 x i) : (⟨S1000x8, .f32⟩ : BufTy).Contents (Elt F) → (⟨S4096x50x1, .i32⟩ : BufTy).Contents (Elt F) → (⟨S4096x50x8, .f32⟩ : BufTy).Contents (Elt F)) ]
/-- The references that stage writes. -/
abbrev colW4 : List (Ref sig .tc) := [main_v36, main_v37, main_c_7, main_v38, main_v39, main_c_8, main_v40, main_v41, main_v42, main_v43, main_v44]
theorem colOps4_writes : (colOps4 : List (HloOp τ sig (Elt F))).Forall fun op =>
    op.writes ⊆ (colW4.map (Proc.devRef (τ := τ) .tc)).toFinset := by
  simp only [colOps4, List.Forall]
  exact ⟨(by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide))⟩
/-- A buffer that stage does not write keeps its contents through it. -/
theorem colOps4_keep (W : Valuation τ sig (Elt F)) (r : Ref sig .tc) (h : r ∉ colW4) :
    after colOps4 W (no_index (Proc.devRef .tc r)) = W (Proc.devRef .tc r) :=
  after_of_writes_sub colOps4 W colOps4_writes h

/-- Column 5: its ids sliced out and reshaped, negative ones wrapped, the table's rows gathered. -/
def colOps5 : List (HloOp τ sig (Elt F)) :=
  [ StableHlo.unary main_arg0 main_v45 ((extractStridedSlice S4096x50x1 ![0, 0, 5] · slices_S4096x50x6_S4096x50x1_0_0_5) : (⟨S4096x50x6, .i32⟩ : BufTy).Contents (Elt F) → (⟨S4096x50x1, .i32⟩ : BufTy).Contents (Elt F)),
    StableHlo.reshape main_v45 main_v46 rfl shapeCasts_S4096x50x1_S4096x50,
    StableHlo.nullary main_c_9 (constantI S_ 32 0#32),
    StableHlo.unary main_c_9 main_v47 (broadcastInDim S4096x50 ![] bcast_S_S4096x50 : (⟨S_, .i32⟩ : BufTy).Contents (Elt F) → (⟨S4096x50, .i32⟩ : BufTy).Contents (Elt F)),
    StableHlo.binary main_v46 main_v47 main_v48 (cmpi .slt : (⟨S4096x50, .i32⟩ : BufTy).Contents (Elt F) → (⟨S4096x50, .i32⟩ : BufTy).Contents (Elt F) → (⟨S4096x50, .i1⟩ : BufTy).Contents (Elt F)),
    StableHlo.nullary main_c_10 (constantI S_ 32 100#32),
    StableHlo.unary main_c_10 main_v49 (broadcastInDim S4096x50 ![] bcast_S_S4096x50 : (⟨S_, .i32⟩ : BufTy).Contents (Elt F) → (⟨S4096x50, .i32⟩ : BufTy).Contents (Elt F)),
    StableHlo.binary main_v46 main_v49 main_v50 (addi : (⟨S4096x50, .i32⟩ : BufTy).Contents (Elt F) → (⟨S4096x50, .i32⟩ : BufTy).Contents (Elt F) → (⟨S4096x50, .i32⟩ : BufTy).Contents (Elt F)),
    StableHlo.ternary main_v48 main_v50 main_v46 main_v51 (select : (⟨S4096x50, .i1⟩ : BufTy).Contents (Elt F) → (⟨S4096x50, .i32⟩ : BufTy).Contents (Elt F) → (⟨S4096x50, .i32⟩ : BufTy).Contents (Elt F) → (⟨S4096x50, .i32⟩ : BufTy).Contents (Elt F)),
    StableHlo.unary main_v51 main_v52 (broadcastInDim S4096x50x1 ![0, 1] bcast_S4096x50_S4096x50x1_0_1 : (⟨S4096x50, .i32⟩ : BufTy).Contents (Elt F) → (⟨S4096x50x1, .i32⟩ : BufTy).Contents (Elt F)),
    StableHlo.binary main_arg6 main_v52 main_v53 ((fun x i => Host.gather gather_S100x8_S4096x50x1_S4096x50x8_2_0_n_n_0_2_18 x i) : (⟨S100x8, .f32⟩ : BufTy).Contents (Elt F) → (⟨S4096x50x1, .i32⟩ : BufTy).Contents (Elt F) → (⟨S4096x50x8, .f32⟩ : BufTy).Contents (Elt F)) ]
/-- The references that stage writes. -/
abbrev colW5 : List (Ref sig .tc) := [main_v45, main_v46, main_c_9, main_v47, main_v48, main_c_10, main_v49, main_v50, main_v51, main_v52, main_v53]
theorem colOps5_writes : (colOps5 : List (HloOp τ sig (Elt F))).Forall fun op =>
    op.writes ⊆ (colW5.map (Proc.devRef (τ := τ) .tc)).toFinset := by
  simp only [colOps5, List.Forall]
  exact ⟨(by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide))⟩
/-- A buffer that stage does not write keeps its contents through it. -/
theorem colOps5_keep (W : Valuation τ sig (Elt F)) (r : Ref sig .tc) (h : r ∉ colW5) :
    after colOps5 W (no_index (Proc.devRef .tc r)) = W (Proc.devRef .tc r) :=
  after_of_writes_sub colOps5 W colOps5_writes h

/-- The features side by side and flattened, and the first layer before its activation. -/
def mixOps : List (HloOp τ sig (Elt F)) :=
  [ StableHlo.nary ![main_v8, main_v17, main_v26, main_v35, main_v44, main_v53] main_v54 (fun u => concatenate S4096x50x48 2 [⟨S4096x50x8, u 0⟩, ⟨S4096x50x8, u 1⟩, ⟨S4096x50x8, u 2⟩, ⟨S4096x50x8, u 3⟩, ⟨S4096x50x8, u 4⟩, ⟨S4096x50x8, u 5⟩] concatenates_S4096x50x8_S4096x50x8_S4096x50x8_S4096x50x8_S4096x50x8_S4096x50x8_S4096x50x48_d2),
    StableHlo.reshape main_v54 main_v55 rfl shapeCasts_S4096x50x48_S204800x48,
    StableHlo.binary main_v55 main_arg7 main_v56 ((fun l r => Host.dotGeneral dot_S204800x48_S48x32_S204800x32_1_0_0_1_n_n none l r) : (⟨S204800x48, .f32⟩ : BufTy).Contents (Elt F) → (⟨S48x32, .f32⟩ : BufTy).Contents (Elt F) → (⟨S204800x32, .f32⟩ : BufTy).Contents (Elt F)),
    StableHlo.unary main_arg8 main_v57 (broadcastInDim S1x32 ![1] bcast_S32_S1x32_1 : (⟨S32, .f32⟩ : BufTy).Contents (Elt F) → (⟨S1x32, .f32⟩ : BufTy).Contents (Elt F)),
    StableHlo.unary main_v57 main_v58 (broadcastInDim S204800x32 ![0, 1] bcast_S1x32_S204800x32_0_1 : (⟨S1x32, .f32⟩ : BufTy).Contents (Elt F) → (⟨S204800x32, .f32⟩ : BufTy).Contents (Elt F)),
    StableHlo.binary main_v56 main_v58 main_v59 (addf : (⟨S204800x32, .f32⟩ : BufTy).Contents (Elt F) → (⟨S204800x32, .f32⟩ : BufTy).Contents (Elt F) → (⟨S204800x32, .f32⟩ : BufTy).Contents (Elt F)) ]
/-- The references that stage writes. -/
abbrev mixW : List (Ref sig .tc) := [main_v54, main_v55, main_v56, main_v57, main_v58, main_v59]
theorem mixOps_writes : (mixOps : List (HloOp τ sig (Elt F))).Forall fun op =>
    op.writes ⊆ (mixW.map (Proc.devRef (τ := τ) .tc)).toFinset := by
  simp only [mixOps, List.Forall]
  exact ⟨(by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide))⟩
/-- A buffer that stage does not write keeps its contents through it. -/
theorem mixOps_keep (W : Valuation τ sig (Elt F)) (r : Ref sig .tc) (h : r ∉ mixW) :
    after mixOps W (no_index (Proc.devRef .tc r)) = W (Proc.devRef .tc r) :=
  after_of_writes_sub mixOps W mixOps_writes h

/-- The exponential linear unit's fifteen operations over its call's buffers. -/
def eluOps : List (HloOp τ sig (Elt F)) :=
  [ StableHlo.TRef.nullary main_call0.cst (constant S_ .f32 0x00000000#32),
    StableHlo.TRef.unary main_call0.cst main_call0.v0 (broadcastInDim S204800x32 ![] bcast_S_S204800x32),
    StableHlo.TRef.binary (.of main_v59 : StableHlo.TRef sig ⟨S204800x32, .f32⟩) main_call0.v0 main_call0.v1 (cmpf .ogt),
    StableHlo.TRef.nullary main_call0.cst_0 (constant S_ .f32 0x00000000#32),
    StableHlo.TRef.unary main_call0.cst_0 main_call0.v2 (broadcastInDim S204800x32 ![] bcast_S_S204800x32),
    StableHlo.TRef.binary (.of main_v59 : StableHlo.TRef sig ⟨S204800x32, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S204800x32 ![] bcast_S_S204800x32),
    StableHlo.TRef.ternary main_call0.v3 main_call0.call0.v1 (.of main_v59 : StableHlo.TRef sig ⟨S204800x32, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S204800x32 ![] bcast_S_S204800x32),
    StableHlo.TRef.binary main_call0.v6 main_call0.v5 main_call0.v7 mulf,
    StableHlo.TRef.ternary main_call0.v1 (.of main_v59 : StableHlo.TRef sig ⟨S204800x32, .f32⟩) main_call0.v7 main_call0.call1.v0 select ]
/-- The references that stage writes. -/
abbrev eluW : List (Ref sig .tc) := [main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v60]
theorem eluOps_writes : (eluOps : List (HloOp τ sig (Elt F))).Forall fun op =>
    op.writes ⊆ (eluW.map (Proc.devRef (τ := τ) .tc)).toFinset := by
  simp only [eluOps, List.Forall]
  exact ⟨(by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide))⟩
/-- A buffer that stage does not write keeps its contents through it. -/
theorem eluOps_keep (W : Valuation τ sig (Elt F)) (r : Ref sig .tc) (h : r ∉ eluW) :
    after eluOps W (no_index (Proc.devRef .tc r)) = W (Proc.devRef .tc r) :=
  after_of_writes_sub eluOps W eluOps_writes h

/-- The second layer and the reshape to one number per token. -/
def outOps : List (HloOp τ sig (Elt F)) :=
  [ StableHlo.binary main_v60 main_arg9 main_v61 ((fun l r => Host.dotGeneral dot_S204800x32_S32x1_S204800x1_1_0_0_1_n_n none l r) : (⟨S204800x32, .f32⟩ : BufTy).Contents (Elt F) → (⟨S32x1, .f32⟩ : BufTy).Contents (Elt F) → (⟨S204800x1, .f32⟩ : BufTy).Contents (Elt F)),
    StableHlo.unary main_arg10 main_v62 (broadcastInDim S1x1 ![1] bcast_S1_S1x1_1 : (⟨S1, .f32⟩ : BufTy).Contents (Elt F) → (⟨S1x1, .f32⟩ : BufTy).Contents (Elt F)),
    StableHlo.unary main_v62 main_v63 (broadcastInDim S204800x1 ![0, 1] bcast_S1x1_S204800x1_0_1 : (⟨S1x1, .f32⟩ : BufTy).Contents (Elt F) → (⟨S204800x1, .f32⟩ : BufTy).Contents (Elt F)),
    StableHlo.binary main_v61 main_v63 main_v64 (addf : (⟨S204800x1, .f32⟩ : BufTy).Contents (Elt F) → (⟨S204800x1, .f32⟩ : BufTy).Contents (Elt F) → (⟨S204800x1, .f32⟩ : BufTy).Contents (Elt F)),
    StableHlo.reshape main_v64 main_v65 rfl shapeCasts_S204800x1_S4096x50 ]
/-- The references that stage writes. -/
abbrev outW : List (Ref sig .tc) := [main_v61, main_v62, main_v63, main_v64, main_v65]
theorem outOps_writes : (outOps : List (HloOp τ sig (Elt F))).Forall fun op =>
    op.writes ⊆ (outW.map (Proc.devRef (τ := τ) .tc)).toFinset := by
  simp only [outOps, List.Forall]
  exact ⟨(by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide)),
    (by simp only [nullary_writes, unary_writes, binary_writes, ternary_writes, reshape_writes, nary_writes, Finset.singleton_subset_iff, List.mem_toFinset]; exact List.mem_map_of_mem (by decide))⟩
/-- A buffer that stage does not write keeps its contents through it. -/
theorem outOps_keep (W : Valuation τ sig (Elt F)) (r : Ref sig .tc) (h : r ∉ outW) :
    after outOps W (no_index (Proc.devRef .tc r)) = W (Proc.devRef .tc r) :=
  after_of_writes_sub outOps W outOps_writes h

/-- The whole line is the stages in order. -/
theorem ops_split : (ops : List (HloOp τ sig (Elt F)))
    = colOps0 ++ (colOps1 ++ (colOps2 ++ (colOps3 ++ (colOps4 ++ (colOps5 ++ (mixOps ++ (eluOps ++ outOps))))))) := rfl

attribute [local irreducible] Host.gather in
set_option maxRecDepth 4096 in
set_option maxHeartbeats 1000000 in
/-- Column 0's stage leaves at its result the table's rows gathered at the wrapped ids of the column. -/
theorem colOps0_out (W : Valuation τ sig (Elt F)) :
    after colOps0 W (no_index (Proc.devRef .tc main_v8))
      = Host.gather gather_S1000000x8_S4096x50x1_S4096x50x8_2_0_n_n_0_2_18 (W (Proc.devRef .tc main_arg1))
          (wrapIds (idCol (W (Proc.devRef .tc main_arg0)) ![0, 0, 0] slices_S4096x50x6_S4096x50x1_0_0_0) 1000000#32) := by
  unfold colOps0
  simp (disch := decide) only [after_cons, after_nil, nullary_result', unary_result', binary_result', ternary_result', reshape_result', nary6_result',
    nullary_result_ne', unary_result_ne', binary_result_ne', ternary_result_ne', reshape_result_ne', nary_result_ne']
  rfl

attribute [local irreducible] Host.gather in
set_option maxRecDepth 4096 in
set_option maxHeartbeats 1000000 in
/-- Column 1's stage leaves at its result the table's rows gathered at the wrapped ids of the column. -/
theorem colOps1_out (W : Valuation τ sig (Elt F)) :
    after colOps1 W (no_index (Proc.devRef .tc main_v17))
      = Host.gather gather_S500000x8_S4096x50x1_S4096x50x8_2_0_n_n_0_2_18 (W (Proc.devRef .tc main_arg2))
          (wrapIds (idCol (W (Proc.devRef .tc main_arg0)) ![0, 0, 1] slices_S4096x50x6_S4096x50x1_0_0_1) 500000#32) := by
  unfold colOps1
  simp (disch := decide) only [after_cons, after_nil, nullary_result', unary_result', binary_result', ternary_result', reshape_result', nary6_result',
    nullary_result_ne', unary_result_ne', binary_result_ne', ternary_result_ne', reshape_result_ne', nary_result_ne']
  rfl

attribute [local irreducible] Host.gather in
set_option maxRecDepth 4096 in
set_option maxHeartbeats 1000000 in
/-- Column 2's stage leaves at its result the table's rows gathered at the wrapped ids of the column. -/
theorem colOps2_out (W : Valuation τ sig (Elt F)) :
    after colOps2 W (no_index (Proc.devRef .tc main_v26))
      = Host.gather gather_S100000x8_S4096x50x1_S4096x50x8_2_0_n_n_0_2_18 (W (Proc.devRef .tc main_arg3))
          (wrapIds (idCol (W (Proc.devRef .tc main_arg0)) ![0, 0, 2] slices_S4096x50x6_S4096x50x1_0_0_2) 100000#32) := by
  unfold colOps2
  simp (disch := decide) only [after_cons, after_nil, nullary_result', unary_result', binary_result', ternary_result', reshape_result', nary6_result',
    nullary_result_ne', unary_result_ne', binary_result_ne', ternary_result_ne', reshape_result_ne', nary_result_ne']
  rfl

attribute [local irreducible] Host.gather in
set_option maxRecDepth 4096 in
set_option maxHeartbeats 1000000 in
/-- Column 3's stage leaves at its result the table's rows gathered at the wrapped ids of the column. -/
theorem colOps3_out (W : Valuation τ sig (Elt F)) :
    after colOps3 W (no_index (Proc.devRef .tc main_v35))
      = Host.gather gather_S10000x8_S4096x50x1_S4096x50x8_2_0_n_n_0_2_18 (W (Proc.devRef .tc main_arg4))
          (wrapIds (idCol (W (Proc.devRef .tc main_arg0)) ![0, 0, 3] slices_S4096x50x6_S4096x50x1_0_0_3) 10000#32) := by
  unfold colOps3
  simp (disch := decide) only [after_cons, after_nil, nullary_result', unary_result', binary_result', ternary_result', reshape_result', nary6_result',
    nullary_result_ne', unary_result_ne', binary_result_ne', ternary_result_ne', reshape_result_ne', nary_result_ne']
  rfl

attribute [local irreducible] Host.gather in
set_option maxRecDepth 4096 in
set_option maxHeartbeats 1000000 in
/-- Column 4's stage leaves at its result the table's rows gathered at the wrapped ids of the column. -/
theorem colOps4_out (W : Valuation τ sig (Elt F)) :
    after colOps4 W (no_index (Proc.devRef .tc main_v44))
      = Host.gather gather_S1000x8_S4096x50x1_S4096x50x8_2_0_n_n_0_2_18 (W (Proc.devRef .tc main_arg5))
          (wrapIds (idCol (W (Proc.devRef .tc main_arg0)) ![0, 0, 4] slices_S4096x50x6_S4096x50x1_0_0_4) 1000#32) := by
  unfold colOps4
  simp (disch := decide) only [after_cons, after_nil, nullary_result', unary_result', binary_result', ternary_result', reshape_result', nary6_result',
    nullary_result_ne', unary_result_ne', binary_result_ne', ternary_result_ne', reshape_result_ne', nary_result_ne']
  rfl

attribute [local irreducible] Host.gather in
set_option maxRecDepth 4096 in
set_option maxHeartbeats 1000000 in
/-- Column 5's stage leaves at its result the table's rows gathered at the wrapped ids of the column. -/
theorem colOps5_out (W : Valuation τ sig (Elt F)) :
    after colOps5 W (no_index (Proc.devRef .tc main_v53))
      = Host.gather gather_S100x8_S4096x50x1_S4096x50x8_2_0_n_n_0_2_18 (W (Proc.devRef .tc main_arg6))
          (wrapIds (idCol (W (Proc.devRef .tc main_arg0)) ![0, 0, 5] slices_S4096x50x6_S4096x50x1_0_0_5) 100#32) := by
  unfold colOps5
  simp (disch := decide) only [after_cons, after_nil, nullary_result', unary_result', binary_result', ternary_result', reshape_result', nary6_result',
    nullary_result_ne', unary_result_ne', binary_result_ne', ternary_result_ne', reshape_result_ne', nary_result_ne']
  rfl

attribute [local irreducible] concatenate in
set_option maxRecDepth 4096 in
set_option maxHeartbeats 1000000 in
/-- The features' stage leaves the first layer before its activation, of the six gathered blocks. -/
theorem mixOps_out (W : Valuation τ sig (Elt F)) :
    after mixOps W (no_index (Proc.devRef .tc main_v59))
      = hiddenPre (flatFeatures (W (Proc.devRef .tc main_v8)) (W (Proc.devRef .tc main_v17)) (W (Proc.devRef .tc main_v26)) (W (Proc.devRef .tc main_v35)) (W (Proc.devRef .tc main_v44)) (W (Proc.devRef .tc main_v53)))
          (W (Proc.devRef .tc main_arg7)) (W (Proc.devRef .tc main_arg8)) := by
  unfold mixOps
  simp (disch := decide) only [after_cons, after_nil, nullary_result', unary_result', binary_result', ternary_result', reshape_result', nary6_result',
    nullary_result_ne', unary_result_ne', binary_result_ne', ternary_result_ne', reshape_result_ne', nary_result_ne']
  rfl

attribute [local irreducible] Host.expm1 in
set_option maxRecDepth 4096 in
set_option maxHeartbeats 1000000 in
/-- The unit's stage leaves the exponential linear unit of what the first layer left (the typed references'
    transports are the identity at these literal references). -/
theorem eluOps_out (W : Valuation τ sig (Elt F)) :
    after eluOps W (no_index (Proc.devRef .tc main_v60)) = eluOf (W (Proc.devRef .tc main_v59)) := by
  unfold eluOps
  simp (disch := decide) only [after_cons, after_nil, nullary_result', unary_result', binary_result', ternary_result', reshape_result', nary6_result',
    nullary_result_ne', unary_result_ne', binary_result_ne', ternary_result_ne', reshape_result_ne', nary_result_ne']
  rfl

set_option maxRecDepth 4096 in
set_option maxHeartbeats 1000000 in
/-- The last stage leaves the second layer of the hidden units, one number per token. -/
theorem outOps_out (W : Valuation τ sig (Elt F)) :
    after outOps W (no_index (Proc.devRef .tc main_v65))
      = outLayer (W (Proc.devRef .tc main_v60)) (W (Proc.devRef .tc main_arg9)) (W (Proc.devRef .tc main_arg10)) := by
  unfold outOps
  simp (disch := decide) only [after_cons, after_nil, nullary_result', unary_result', binary_result', ternary_result', reshape_result', nary6_result',
    nullary_result_ne', unary_result_ne', binary_result_ne', ternary_result_ne', reshape_result_ne', nary_result_ne']
  rfl

/-! ## The result buffer and the arguments after the line -/

set_option maxRecDepth 4096 in
set_option maxHeartbeats 2000000 in
/-- The fold at the result buffer is the reference's pure term of the arguments' contents: the line cut into its
    stages, each stage's result read off by its own lemma and every buffer a stage does not write carried through
    it unchanged. -/
theorem out_eq (V : Valuation τ sig (Elt F)) :
    after ops V (main_v65 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [ops_split]
  simp only [after_append]
  simp (disch := decide) only [outOps_out, eluOps_out, mixOps_out, colOps0_out, colOps1_out, colOps2_out, colOps3_out,
    colOps4_out, colOps5_out, eluOps_keep, mixOps_keep, colOps0_keep, colOps1_keep, colOps2_keep, colOps3_keep,
    colOps4_keep, colOps5_keep]
  rfl

/-- The references the line writes, in order: one per operation. -/
abbrev opsW : List (Ref sig .tc) :=
  [ main_v0, main_v1, main_c, main_v2, main_v3, main_c_0, main_v4, main_v5,
    main_v6, main_v7, main_v8, main_v9, main_v10, main_c_1, main_v11, main_v12,
    main_c_2, main_v13, main_v14, main_v15, main_v16, main_v17, main_v18, main_v19,
    main_c_3, main_v20, main_v21, main_c_4, main_v22, main_v23, main_v24, main_v25,
    main_v26, main_v27, main_v28, main_c_5, main_v29, main_v30, main_c_6, main_v31,
    main_v32, main_v33, main_v34, main_v35, main_v36, main_v37, main_c_7, main_v38,
    main_v39, main_c_8, main_v40, main_v41, main_v42, main_v43, main_v44, main_v45,
    main_v46, main_c_9, main_v47, main_v48, main_c_10, main_v49, main_v50, main_v51,
    main_v52, main_v53, main_v54, main_v55, main_v56, main_v57, main_v58, main_v59,
    main_call0_cst, main_call0_v0, main_call0_v1, main_call0_cst_0, main_call0_v2, main_call0_v3, main_call0_cst_1, main_call0_call0_v0,
    main_call0_call0_v1, main_call0_v4, main_call0_v5, main_call0_cst_2, main_call0_v6, main_call0_v7, main_v60, main_v61,
    main_v62, main_v63, main_v64, main_v65 ]

set_option maxRecDepth 4096 in
set_option maxHeartbeats 4000000 in
/-- Each operation writes its own result buffer only. -/
theorem ops_writes : (ops : List (HloOp τ sig (Elt F))).Forall fun op =>
    op.writes ⊆ (opsW.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes,
      Finset.singleton_subset_iff, List.mem_toFinset]; exact List.mem_map_of_mem (by decide))

/-- No operation writes argument 0: it keeps its launch contents. -/
theorem arg0_eq (V : Valuation τ sig (Elt F)) : after ops V (main_arg0 : DevRef τ sig) = V (main_arg0 : DevRef τ sig) :=
  after_of_writes_sub ops V ops_writes (by decide)
/-- No operation writes argument 1: it keeps its launch contents. -/
theorem arg1_eq (V : Valuation τ sig (Elt F)) : after ops V (main_arg1 : DevRef τ sig) = V (main_arg1 : DevRef τ sig) :=
  after_of_writes_sub ops V ops_writes (by decide)
/-- No operation writes argument 2: it keeps its launch contents. -/
theorem arg2_eq (V : Valuation τ sig (Elt F)) : after ops V (main_arg2 : DevRef τ sig) = V (main_arg2 : DevRef τ sig) :=
  after_of_writes_sub ops V ops_writes (by decide)
/-- No operation writes argument 3: it keeps its launch contents. -/
theorem arg3_eq (V : Valuation τ sig (Elt F)) : after ops V (main_arg3 : DevRef τ sig) = V (main_arg3 : DevRef τ sig) :=
  after_of_writes_sub ops V ops_writes (by decide)
/-- No operation writes argument 4: it keeps its launch contents. -/
theorem arg4_eq (V : Valuation τ sig (Elt F)) : after ops V (main_arg4 : DevRef τ sig) = V (main_arg4 : DevRef τ sig) :=
  after_of_writes_sub ops V ops_writes (by decide)
/-- No operation writes argument 5: it keeps its launch contents. -/
theorem arg5_eq (V : Valuation τ sig (Elt F)) : after ops V (main_arg5 : DevRef τ sig) = V (main_arg5 : DevRef τ sig) :=
  after_of_writes_sub ops V ops_writes (by decide)
/-- No operation writes argument 6: it keeps its launch contents. -/
theorem arg6_eq (V : Valuation τ sig (Elt F)) : after ops V (main_arg6 : DevRef τ sig) = V (main_arg6 : DevRef τ sig) :=
  after_of_writes_sub ops V ops_writes (by decide)
/-- No operation writes argument 7: it keeps its launch contents. -/
theorem arg7_eq (V : Valuation τ sig (Elt F)) : after ops V (main_arg7 : DevRef τ sig) = V (main_arg7 : DevRef τ sig) :=
  after_of_writes_sub ops V ops_writes (by decide)
/-- No operation writes argument 8: it keeps its launch contents. -/
theorem arg8_eq (V : Valuation τ sig (Elt F)) : after ops V (main_arg8 : DevRef τ sig) = V (main_arg8 : DevRef τ sig) :=
  after_of_writes_sub ops V ops_writes (by decide)
/-- No operation writes argument 9: it keeps its launch contents. -/
theorem arg9_eq (V : Valuation τ sig (Elt F)) : after ops V (main_arg9 : DevRef τ sig) = V (main_arg9 : DevRef τ sig) :=
  after_of_writes_sub ops V ops_writes (by decide)
/-- No operation writes argument 10: it keeps its launch contents. -/
theorem arg10_eq (V : Valuation τ sig (Elt F)) : after ops V (main_arg10 : DevRef τ sig) = V (main_arg10 : DevRef τ sig) :=
  after_of_writes_sub ops V ops_writes (by decide)

/-- From any memory with zero counters: every weakly fair execution of @main terminates with the result buffer at
    the reference's pure term of the arguments' launch contents, and every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v65).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_after m ρ)

end Cert.ReferenceIdeal.Hand

end
-- ==== Proof.LibGatherRows3.lean ====
/-
  A gather that takes whole ROWS of a rank-2 table, the row numbers given as a rank-2 array (what `table[idx]` prints for an
  `[N, C]` table and an `[A, B]` array of row numbers, laid out as `[A, B, 1]` start indices). The result is `[A, B, C]`: its
  one offset axis is the last (axis 2), its two batch axes are the start indices' first two; the operand's row axis is
  collapsed and is the one axis a start index names; the index vector runs along axis 2 of the start indices; a slice is one
  row of `C` entries.

  Read at result index `(a, b, q)` it is the table at `(r, q)`, where `r` is the start index at `(a, b, 0)` read signed and
  clamped into `[0, N − 1]`. On the row axis the operand coordinate is the clamped start alone (there is no batching axis,
  and a collapsed axis carries no offset); on the column axis no start index applies and the offset coordinate is the
  result's own last coordinate.
-/
import Idealize.ShloMosaic.PureOps
import Idealize.ShloMosaic.Lib.ValueIdx

namespace Idealize.ShloMosaic.GatherRows3

open Idealize.ShloMosaic Idealize.ShloMosaic.ValueIdx

variable {α : Type}

/-- The dimension numbers of a row-take from an `[N, C]` table by an `[A, B, 1]` array of row numbers. -/
abbrev rowDims3 (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- The start-indices index at which result index `(a, b, q)` reads the one component of its start index: `(a, b, 0)`, the
    result's two batch coordinates and `0` along the index vector's axis. -/
theorem siIdx_rows3 {N C A B : Nat}
    (wf : GatherDims.WF ⟨2, ![N, C]⟩ ⟨3, ![A, B, 1]⟩ ⟨3, ![A, B, C]⟩ [2] [0] [] [0] [] 2 ![1, C])
    (a : Fin A) (b : Fin B) (q : Fin C) (c : Fin (rowDims3 N C A B wf).startIndexMap.length) :
    (rowDims3 N C A B wf).siIdx (ix3 a b q) c = ix3 a b ⟨0, Nat.one_pos⟩ := by
  have hc : c.val = 0 := by have := c.isLt; simpa using this
  funext e
  refine Fin.ext ?_
  match e with
  | ⟨0, _⟩ => rfl
  | ⟨1, _⟩ => rfl
  | ⟨2, _⟩ => exact hc

/-- The operand's ROW coordinate for result index `(a, b, q)`: the start index at `(a, b, 0)`, read signed and clamped into
    `[0, N − 1]`; no batching coordinate and, the row axis being collapsed, no offset. -/
theorem operandIdx_row {N C A B w : Nat}
    (wf : GatherDims.WF ⟨2, ![N, C]⟩ ⟨3, ![A, B, 1]⟩ ⟨3, ![A, B, C]⟩ [2] [0] [] [0] [] 2 ![1, C])
    (idx : IVec ⟨3, ![A, B, 1]⟩ w) (a : Fin A) (b : Fin B) (q : Fin C) :
    ((rowDims3 N C A B wf).operandIdx (ix3 a b q) idx (⟨0, Nat.zero_lt_two⟩ : Fin 2)).val
      = min (idx (ix3 a b ⟨0, Nat.one_pos⟩)).toInt.toNat (N - 1) := by
  show (rowDims3 N C A B wf).start (ix3 a b q) idx (⟨0, Nat.zero_lt_two⟩ : Fin 2) + (rowDims3 N C A B wf).batchCoord (ix3 a b q) (⟨0, Nat.zero_lt_two⟩ : Fin 2)
    + (rowDims3 N C A B wf).offCoord (ix3 a b q) (⟨0, Nat.zero_lt_two⟩ : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (⟨0, Nat.zero_lt_two⟩ : Fin 2) ∈ (rowDims3 N C A B wf).startIndexMap from List.mem_singleton.mpr rfl),
    siIdx_rows3 wf a b q]
  rfl

/-- The operand's COLUMN coordinate for result index `(a, b, q)`: `q`. No start index names the column axis and it is no
    batching axis; it is the operand's one kept axis, read by the result's one offset axis. -/
theorem operandIdx_col {N C A B w : Nat}
    (wf : GatherDims.WF ⟨2, ![N, C]⟩ ⟨3, ![A, B, 1]⟩ ⟨3, ![A, B, C]⟩ [2] [0] [] [0] [] 2 ![1, C])
    (idx : IVec ⟨3, ![A, B, 1]⟩ w) (a : Fin A) (b : Fin B) (q : Fin C) :
    ((rowDims3 N C A B wf).operandIdx (ix3 a b q) idx (⟨1, Nat.one_lt_two⟩ : Fin 2)).val = q.val := by
  show (rowDims3 N C A B wf).start (ix3 a b q) idx (⟨1, Nat.one_lt_two⟩ : Fin 2) + (rowDims3 N C A B wf).batchCoord (ix3 a b q) (⟨1, Nat.one_lt_two⟩ : Fin 2)
    + (rowDims3 N C A B wf).offCoord (ix3 a b q) (⟨1, Nat.one_lt_two⟩ : Fin 2) = _
  have hs : (rowDims3 N C A B wf).start (ix3 a b q) idx (⟨1, Nat.one_lt_two⟩ : Fin 2) = 0 := by
    unfold GatherDims.start
    rw [dif_neg (fun h => by have := congrArg Fin.val (List.mem_singleton.mp h); simp at this)]
  rw [hs, GatherDims.batchCoord_eq_zero _ _ _ List.not_mem_nil]
  simp only [Nat.add_zero, Nat.zero_add]
  rfl

/-- THE ROW-TAKE READ AT `(a, b, q)`: the table at row `idx[a, b, 0]` (signed, clamped into `[0, N − 1]`), column `q`. -/
theorem gather_rows3_apply {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (q : Fin C) :
    Host.gather (rowDims3 N C A B wf) x idx (ix3 a b q)
      = x (ix2 ⟨min (idx (ix3 a b ⟨0, Nat.one_pos⟩)).toInt.toNat (N - 1), by omega⟩ q) := by
  unfold Host.gather
  congr 1
  funext e
  refine Fin.ext ?_
  match e with
  | ⟨0, _⟩ => exact operandIdx_row wf idx a b q
  | ⟨1, _⟩ => exact operandIdx_col wf idx a b q

/-- The same for ANY dimension-number record whose seven fields are those lists: such a record is the one above. -/
theorem gather_rows3_apply_of {N C A B w : Nat} (hN : 0 < N)
    (d : GatherDims ⟨2, ![N, C]⟩ ⟨3, ![A, B, 1]⟩ ⟨3, ![A, B, C]⟩)
    (hod : d.offsetDims = [2]) (hcd : d.collapsedSliceDims = [0]) (hob : d.operandBatchingDims = [])
    (hsb : d.startIndicesBatchingDims = []) (hsm : d.startIndexMap = [0]) (hiv : d.indexVectorDim = 2)
    (hss : d.sliceSizes = ![1, C])
    (x : (⟨2, ![N, C]⟩ : Shape).Idx → α) (idx : IVec ⟨3, ![A, B, 1]⟩ w) (a : Fin A) (b : Fin B) (q : Fin C) :
    Host.gather d x idx (ix3 a b q)
      = x (ix2 ⟨min (idx (ix3 a b ⟨0, Nat.one_pos⟩)).toInt.toNat (N - 1), by omega⟩ q) := by
  obtain ⟨od, cd, ob, sb, sm, iv, ss, wf⟩ := d
  simp only at hod hcd hob hsb hsm hiv hss
  subst hod hcd hob hsb hsm hiv hss
  exact gather_rows3_apply hN wf x idx a b q

end Idealize.ShloMosaic.GatherRows3
-- ==== Proof.RefValue.lean ====
/-
  The reference's term is the specification: read at a token `(b, t)`, every stage of the reference's
  result is the corresponding stage of the tower of the specification. The ids are in range, so the
  wrap of negative ids is the identity and a gathered row is the row the id names.
-/
import proofs.«407622_j82471962018216_3_alg».proof.Proof.RefTerm
import proofs.«407622_j82471962018216_3_alg».proof.Proof.Spec
import proofs.«407622_j82471962018216_3_alg».proof.Proof.LibGatherRows3
import Idealize.ShloMosaic.Lib.Pipeline.Value
import Idealize.ShloMosaic.Lib.IdealHost
import Idealize.ShloMosaic.Lib.ValueIdx
import Idealize.ShloMosaic.PureOps.Ideal.Laws

noncomputable section

namespace Cert.ReferenceIdeal.Hand

open Idealize.ShloMosaic Idealize.ShloMosaic.ValueIdx
open Cert.ReferenceIdeal Cert.ReferenceIdeal.Facts₀
open scoped BigOperators

/-! ## The id columns -/

/-- Column `c` of the ids at token `(b, t)`. -/
theorem idCol_apply (ids : IVec S4096x50x6 32) (c : Nat) (hc : c < 6)
    (h : S4096x50x6.Slices ![0, 0, c] S4096x50x1) (b : Fin 4096) (t : Fin 50) :
    idCol ids ![0, 0, c] h (ix2 b t) = ids (ix3 b t ⟨c, hc⟩) := by
  show shapeCast S4096x50 (extractStridedSlice S4096x50x1 ![0, 0, c] ids h) shapeCasts_S4096x50x1_S4096x50 (ix2 b t) = _
  refine (shapeCast_apply _ _ (ix2 b t) (ix3 b t (⟨0, Nat.one_pos⟩ : Fin 1)) ?_).trans ?_
  · rw [Shape.rowMajor_val_three, Shape.rowMajor_val_two]
    show (b.val * 50 + t.val) * 1 + 0 = b.val * 50 + t.val
    omega
  · refine extractStridedSlice_apply _ _ _ _ _ fun a => ?_
    match a with
    | ⟨0, _⟩ => show b.val = 0 + b.val; omega
    | ⟨1, _⟩ => show t.val = 0 + t.val; omega
    | ⟨2, _⟩ => show c = c + 0; omega

/-- A word that is not negative is not below zero in the signed order. -/
theorem cmpi_slt_zero_of_nonneg (w : BitVec 32) (h0 : 0 ≤ w.toInt) : IntOp.cmpi .slt w 0#32 = 0#1 := by
  have hs : w.slt 0#32 = false := by
    unfold BitVec.slt
    rw [decide_eq_false_iff_not]
    simp only [BitVec.toInt_zero]
    omega
  show BitVec.ofBool (w.slt 0#32) = 0#1
  rw [hs]
  rfl

/-- Where the id is not negative the wrap leaves it as it is. -/
theorem wrapIds_apply (col : IVec S4096x50 32) (n : BitVec 32) (b : Fin 4096) (t : Fin 50)
    (h0 : 0 ≤ (col (ix2 b t)).toInt) :
    wrapIds col n (ix3 b t (⟨0, Nat.one_pos⟩ : Fin 1)) = col (ix2 b t) := by
  show broadcastInDim S4096x50x1 ![0, 1] bcast_S4096x50_S4096x50x1_0_1
      (select (cmpi .slt col (broadcastInDim S4096x50 ![] bcast_S_S4096x50 (constantI S_ 32 0#32)))
        (addi col (broadcastInDim S4096x50 ![] bcast_S_S4096x50 (constantI S_ 32 n))) col)
      (ix3 b t (⟨0, Nat.one_pos⟩ : Fin 1)) = _
  refine (broadcastInDim_apply _ _ _ (ix3 b t (⟨0, Nat.one_pos⟩ : Fin 1)) (ix2 b t) fun a => ?_).trans ?_
  · match a with
    | ⟨0, _⟩ => rfl
    | ⟨1, _⟩ => rfl
  · rw [select_apply]
    have hc : cmpi .slt col (broadcastInDim S4096x50 ![] bcast_S_S4096x50 (constantI S_ 32 0#32)) (ix2 b t) = 0#1 :=
      cmpi_slt_zero_of_nonneg _ h0
    rw [hc, select_zero]

/-- The start index of token `(b, t)` for column `c`, the id being not negative, is the id. -/
theorem wrapped_col (ids : IVec S4096x50x6 32) (c : Nat) (hc : c < 6)
    (h : S4096x50x6.Slices ![0, 0, c] S4096x50x1) (n : BitVec 32) (b : Fin 4096) (t : Fin 50)
    (h0 : 0 ≤ (ids (ix3 b t ⟨c, hc⟩)).toInt) :
    wrapIds (idCol ids ![0, 0, c] h) n (ix3 b t (⟨0, Nat.one_pos⟩ : Fin 1)) = ids (ix3 b t ⟨c, hc⟩) := by
  rw [wrapIds_apply _ _ _ _ (by rw [idCol_apply ids c hc h b t]; exact h0), idCol_apply ids c hc h b t]

/-! ## The gathered rows -/

/-- A gather of rows of a table of `N` rows at start indices whose entry at `(b, t)` is `w` reads row `w`,
    clamped into the table. -/
theorem rows_apply {N : Nat} (hN : 0 < N)
    (wf : GatherDims.WF ⟨2, ![N, 8]⟩ ⟨3, ![4096, 50, 1]⟩ ⟨3, ![4096, 50, 8]⟩ [2] [0] [] [0] [] 2 ![1, 8])
    (e : FVec Ideal ⟨2, ![N, 8]⟩ .f32) (idx : IVec ⟨3, ![4096, 50, 1]⟩ 32) (w : BitVec 32)
    (b : Fin 4096) (t : Fin 50) (q : Fin 8) (hw : idx (ix3 b t (⟨0, Nat.one_pos⟩ : Fin 1)) = w) :
    Host.gather (GatherRows3.rowDims3 N 8 4096 50 wf) e idx (ix3 b t q) = Cert.Tower.look hN e w q := by
  rw [GatherRows3.gather_rows3_apply hN wf e idx b t q]
  subst hw
  rfl

/-! ## The 48 features of a flattened token -/

/-- The six gathered arrays as the list the concatenation takes. -/
abbrev pieces (g0 g1 g2 g3 g4 g5 : FVec Ideal S4096x50x8 .f32) : List ((s : Shape) × (s.Idx → Ideal .f32)) :=
  [⟨S4096x50x8, g0⟩, ⟨S4096x50x8, g1⟩, ⟨S4096x50x8, g2⟩, ⟨S4096x50x8, g3⟩, ⟨S4096x50x8, g4⟩, ⟨S4096x50x8, g5⟩]

/-- Feature `k` of flattened token `50 b + t`, when `k` is entry `q` of piece `c`: that piece at `(b, t, q)`. -/
theorem flat_piece (g0 g1 g2 g3 g4 g5 : FVec Ideal S4096x50x8 .f32) (c : Nat) (hc : c < (pieces g0 g1 g2 g3 g4 g5).length)
    (x : FVec Ideal S4096x50x8 .f32) (hx : (pieces g0 g1 g2 g3 g4 g5)[c] = ⟨S4096x50x8, x⟩)
    (hpre : ((((pieces g0 g1 g2 g3 g4 g5).take c).map (·.1)).map fun s =>
      if h : s.rank = S4096x50x48.rank then s.size ((2 : Fin S4096x50x48.rank).cast h.symm) else 0).sum = 8 * c)
    (b : Fin 4096) (t : Fin 50) (r : Fin 204800) (hr : r.val = 50 * b.val + t.val) (k : Fin 48) (q : Fin 8)
    (hq : 8 * c + q.val = k.val) :
    flatFeatures g0 g1 g2 g3 g4 g5 (ix2 r k) = x (ix3 b t q) := by
  show shapeCast S204800x48 (concatenate S4096x50x48 2 (pieces g0 g1 g2 g3 g4 g5)
      concatenates_S4096x50x8_S4096x50x8_S4096x50x8_S4096x50x8_S4096x50x8_S4096x50x8_S4096x50x48_d2)
      shapeCasts_S4096x50x48_S204800x48 (ix2 r k) = _
  refine (shapeCast_apply _ _ (ix2 r k) (ix3 b t k) ?_).trans ?_
  · rw [Shape.rowMajor_val_three, Shape.rowMajor_val_two]
    show (b.val * 50 + t.val) * 48 + k.val = r.val * 48 + k.val
    omega
  · exact concatenate_apply_piece 2 (pieces g0 g1 g2 g3 g4 g5) _ (ix3 b t k) c hc S4096x50x8 x hx rfl (8 * c) hpre (ix3 b t q)
      (fun a ha => match a, ha with
        | ⟨0, _⟩, _ => rfl
        | ⟨1, _⟩, _ => rfl
        | ⟨2, _⟩, ha => absurd rfl ha)
      hq

/-- Feature `k` of flattened token `50 b + t`: entry `k % 8` of piece `k / 8`. -/
theorem flatFeatures_apply (g0 g1 g2 g3 g4 g5 : FVec Ideal S4096x50x8 .f32) (b : Fin 4096) (t : Fin 50) (r : Fin 204800)
    (hr : r.val = 50 * b.val + t.val) (k : Fin 48) :
    flatFeatures g0 g1 g2 g3 g4 g5 (ix2 r k) =
      if h0 : k.val < 8 then g0 (ix3 b t ⟨k.val, h0⟩)
      else if h1 : k.val < 16 then g1 (ix3 b t ⟨k.val - 8, by omega⟩)
      else if h2 : k.val < 24 then g2 (ix3 b t ⟨k.val - 16, by omega⟩)
      else if h3 : k.val < 32 then g3 (ix3 b t ⟨k.val - 24, by omega⟩)
      else if h4 : k.val < 40 then g4 (ix3 b t ⟨k.val - 32, by omega⟩)
      else g5 (ix3 b t ⟨k.val - 40, by omega⟩) := by
  split_ifs with h0 h1 h2 h3 h4
  · exact flat_piece g0 g1 g2 g3 g4 g5 0 (by show (0 : Nat) < 6; decide) g0 rfl rfl b t r hr k _ (by show 8 * 0 + k.val = k.val; omega)
  · exact flat_piece g0 g1 g2 g3 g4 g5 1 (by show (1 : Nat) < 6; decide) g1 rfl rfl b t r hr k _ (by show 8 * 1 + (k.val - 8) = k.val; omega)
  · exact flat_piece g0 g1 g2 g3 g4 g5 2 (by show (2 : Nat) < 6; decide) g2 rfl rfl b t r hr k _ (by show 8 * 2 + (k.val - 16) = k.val; omega)
  · exact flat_piece g0 g1 g2 g3 g4 g5 3 (by show (3 : Nat) < 6; decide) g3 rfl rfl b t r hr k _ (by show 8 * 3 + (k.val - 24) = k.val; omega)
  · exact flat_piece g0 g1 g2 g3 g4 g5 4 (by show (4 : Nat) < 6; decide) g4 rfl rfl b t r hr k _ (by show 8 * 4 + (k.val - 32) = k.val; omega)
  · exact flat_piece g0 g1 g2 g3 g4 g5 5 (by show (5 : Nat) < 6; decide) g5 rfl rfl b t r hr k _ (by show 8 * 5 + (k.val - 40) = k.val; have := k.isLt; omega)

/-! ## The exponential linear unit -/

/-- The reference's spelling of the unit on one extended real. -/
theorem elu_scalar (a : EReal) :
    Scalar.select (Ideal.cmp .ogt a 0) a (1 * (Ideal.exp (Scalar.select (Ideal.cmp .ogt a 0) 0 a) - 1)) = Cert.Tower.elu a := by
  unfold Cert.Tower.elu
  by_cases hp : 0 < a
  · have hcmp : Ideal.cmp .ogt a 0 = 1#1 := by
      show BitVec.ofBool (decide (0 < a)) = 1#1
      rw [decide_eq_true hp]; rfl
    rw [hcmp, select_one, if_pos hp]
  · have hcmp : Ideal.cmp .ogt a 0 = 0#1 := by
      show BitVec.ofBool (decide (0 < a)) = 0#1
      rw [decide_eq_false hp]; rfl
    rw [hcmp, select_zero, select_zero, if_neg hp, one_mul]

/-- The unit of the reference at an index is the unit of the specification at that entry. -/
theorem eluOf_apply (x : FVec Ideal S204800x32 .f32) (i : S204800x32.Idx) : eluOf x i = Cert.Tower.elu (x i) := by
  have hz : broadcastInDim S204800x32 ![] bcast_S_S204800x32 (constant (F := Ideal) S_ .f32 0x00000000#32) i = 0 := by
    rw [broadcastInDim_scalar_apply, constant_apply, Ideal.ofBits_zero_f32]
  have ho : broadcastInDim S204800x32 ![] bcast_S_S204800x32 (constant (F := Ideal) S_ .f32 0x3F800000#32) i = 1 := by
    rw [broadcastInDim_scalar_apply, constant_apply, Ideal.ofBits_one_f32]
  show Scalar.select (Ideal.cmp .ogt (x i) (broadcastInDim S204800x32 ![] bcast_S_S204800x32 (constant (F := Ideal) S_ .f32 0x00000000#32) i))
      (x i)
      (broadcastInDim S204800x32 ![] bcast_S_S204800x32 (constant (F := Ideal) S_ .f32 0x3F800000#32) i *
        (Ideal.exp (Scalar.select (Ideal.cmp .ogt (x i) (broadcastInDim S204800x32 ![] bcast_S_S204800x32 (constant (F := Ideal) S_ .f32 0x00000000#32) i))
          (broadcastInDim S204800x32 ![] bcast_S_S204800x32 (constant (F := Ideal) S_ .f32 0x00000000#32) i) (x i)) - 1)) = _
  rw [hz, ho]
  exact elu_scalar (x i)

/-! ## The biases along the rows -/

/-- The hidden layer's bias, made a row and repeated down the rows, at `(r, j)`. -/
theorem bias1_apply (b1 : FVec Ideal S32 .f32) (r : Fin 204800) (j : Fin 32) :
    broadcastInDim S204800x32 ![0, 1] bcast_S1x32_S204800x32_0_1 (broadcastInDim S1x32 ![1] bcast_S32_S1x32_1 b1) (ix2 r j) = b1 (ix1 j) := by
  refine (broadcastInDim_apply _ _ _ (ix2 r j) (ix2 (⟨0, Nat.one_pos⟩ : Fin 1) j) fun a => ?_).trans ?_
  · match a with
    | ⟨0, _⟩ => rfl
    | ⟨1, _⟩ => rfl
  · refine broadcastInDim_apply _ _ _ _ (ix1 j) fun a => ?_
    match a with
    | ⟨0, _⟩ => rfl

/-- The output layer's bias likewise, at `(r, 0)`. -/
theorem bias2_apply (b2 : FVec Ideal S1 .f32) (r : Fin 204800) :
    broadcastInDim S204800x1 ![0, 1] bcast_S1x1_S204800x1_0_1 (broadcastInDim S1x1 ![1] bcast_S1_S1x1_1 b2) (ix2 r (⟨0, Nat.one_pos⟩ : Fin 1))
      = b2 (ix1 (⟨0, Nat.one_pos⟩ : Fin 1)) := by
  refine (broadcastInDim_apply _ _ _ (ix2 r (⟨0, Nat.one_pos⟩ : Fin 1)) (ix2 (⟨0, Nat.one_pos⟩ : Fin 1) (⟨0, Nat.one_pos⟩ : Fin 1)) fun a => ?_).trans ?_
  · match a with
    | ⟨0, _⟩ => rfl
    | ⟨1, _⟩ => rfl
  · refine broadcastInDim_apply _ _ _ _ (ix1 (⟨0, Nat.one_pos⟩ : Fin 1)) fun a => ?_
    match a with
    | ⟨0, _⟩ => rfl

/-! ## A product of a matrix of rows by a matrix of columns, read at an entry -/

/-- The dimension numbers of a plain product `[R, K] × [K, C] → [R, C]`: one contracting axis, no batch axis. -/
abbrev plainDims (R K C : Nat) (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section PlainProduct
variable {R K C : Nat} (wf : DotDims.WF ⟨2, ![R, K]⟩ ⟨2, ![K, C]⟩ ⟨2, ![R, C]⟩ [1] [0] [0] [1] [] [])

/-- The left operand's row is the result's row. -/
theorem plain_lhs_0 (j : (⟨2, ![R, C]⟩ : Shape).Idx) (k : (plainDims R K C wf).contr.Idx) :
    ((plainDims R K C wf).lhsIdx j k 0).val = (j 0).val := rfl
/-- The left operand's column is the contraction position. -/
theorem plain_lhs_1 (j : (⟨2, ![R, C]⟩ : Shape).Idx) (k : (plainDims R K C wf).contr.Idx) :
    ((plainDims R K C wf).lhsIdx j k 1).val = (k ⟨0, Nat.one_pos⟩).val := rfl
/-- The right operand's row is the contraction position. -/
theorem plain_rhs_0 (j : (⟨2, ![R, C]⟩ : Shape).Idx) (k : (plainDims R K C wf).contr.Idx) :
    ((plainDims R K C wf).rhsIdx j k 0).val = (k ⟨0, Nat.one_pos⟩).val := rfl
/-- The right operand's column is the result's column. -/
theorem plain_rhs_1 (j : (⟨2, ![R, C]⟩ : Shape).Idx) (k : (plainDims R K C wf).contr.Idx) :
    ((plainDims R K C wf).rhsIdx j k 1).val = (j 1).val := rfl

/-- The product at `(r, c)`: row `r` of the left operand against column `c` of the right one. -/
theorem dotGeneral_rows_apply {φ₁ φ₂ : FTy} (prec : Option ContractPrecision)
    (x : FVec Ideal ⟨2, ![R, K]⟩ φ₁) (w : FVec Ideal ⟨2, ![K, C]⟩ φ₂) (r : Fin R) (c : Fin C) :
    Host.dotGeneral (plainDims R K C wf) prec x w (ix2 r c) = ∑ k : Fin K, x (ix2 r k) * w (ix2 k c) := by
  simp only [Host.dotGeneral]
  rw [Ideal.dotGeneral_apply]
  refine (Equiv.sum_comp (contrEquiv1 (plainDims R K C wf) K rfl rfl).symm _).symm.trans ?_
  refine Finset.sum_congr rfl fun i _ => ?_
  have hl : (plainDims R K C wf).lhsIdx (ix2 r c) ((contrEquiv1 (plainDims R K C wf) K rfl rfl).symm i) = ix2 r i := by
    funext a
    refine Fin.ext ?_
    match a with
    | ⟨0, _⟩ => exact plain_lhs_0 wf _ _
    | ⟨1, _⟩ => exact (plain_lhs_1 wf _ _).trans (contrEquiv1_symm_val (plainDims R K C wf) K rfl rfl i)
  have hr : (plainDims R K C wf).rhsIdx (ix2 r c) ((contrEquiv1 (plainDims R K C wf) K rfl rfl).symm i) = ix2 i c := by
    funext a
    refine Fin.ext ?_
    match a with
    | ⟨0, _⟩ => exact (plain_rhs_0 wf _ _).trans (contrEquiv1_symm_val (plainDims R K C wf) K rfl rfl i)
    | ⟨1, _⟩ => exact plain_rhs_1 wf _ _
  rw [hl, hr]

end PlainProduct

/-! ## The two layers -/

/-- The hidden layer before its activation at `(r, j)`: the features of row `r` against column `j` of `w1`, plus the bias. -/
theorem hiddenPre_apply (x : FVec Ideal S204800x48 .f32) (w1 : FVec Ideal S48x32 .f32) (b1 : FVec Ideal S32 .f32)
    (r : Fin 204800) (j : Fin 32) :
    hiddenPre x w1 b1 (ix2 r j) = (∑ k : Fin 48, x (ix2 r k) * w1 (ix2 k j)) + b1 (ix1 j) := by
  show addf (Host.dotGeneral dot_S204800x48_S48x32_S204800x32_1_0_0_1_n_n none x w1)
      (broadcastInDim S204800x32 ![0, 1] bcast_S1x32_S204800x32_0_1 (broadcastInDim S1x32 ![1] bcast_S32_S1x32_1 b1)) (ix2 r j) = _
  rw [addf_apply, bias1_apply]
  congr 1
  exact dotGeneral_rows_apply _ none x w1 r j

/-- The output layer at token `(b, t)`: the hidden units of row `50 b + t` against `w2`, plus the bias. -/
theorem outLayer_apply (h : FVec Ideal S204800x32 .f32) (w2 : FVec Ideal S32x1 .f32) (b2 : FVec Ideal S1 .f32)
    (b : Fin 4096) (t : Fin 50) (r : Fin 204800) (hr : r.val = 50 * b.val + t.val) :
    outLayer h w2 b2 (ix2 b t) =
      (∑ j : Fin 32, h (ix2 r j) * w2 (ix2 j (⟨0, Nat.one_pos⟩ : Fin 1))) + b2 (ix1 (⟨0, Nat.one_pos⟩ : Fin 1)) := by
  show shapeCast S4096x50 (addf (Host.dotGeneral dot_S204800x32_S32x1_S204800x1_1_0_0_1_n_n none h w2)
      (broadcastInDim S204800x1 ![0, 1] bcast_S1x1_S204800x1_0_1 (broadcastInDim S1x1 ![1] bcast_S1_S1x1_1 b2)))
      shapeCasts_S204800x1_S4096x50 (ix2 b t) = _
  refine (shapeCast_apply _ _ (ix2 b t) (ix2 r (⟨0, Nat.one_pos⟩ : Fin 1)) ?_).trans ?_
  · rw [Shape.rowMajor_val_two, Shape.rowMajor_val_two]
    show r.val * 1 + 0 = b.val * 50 + t.val
    omega
  · rw [addf_apply, bias2_apply]
    congr 1
    exact dotGeneral_rows_apply _ none h w2 r (⟨0, Nat.one_pos⟩ : Fin 1)

/-! ## The features are the specification's -/

/-- Feature `k` of flattened token `50 b + t` of the reference is feature `k` of token `(b, t)` of the specification. -/
theorem features_apply (ids : IVec S4096x50x6 32) (e0 : FVec Ideal S1000000x8 .f32) (e1 : FVec Ideal S500000x8 .f32) (e2 : FVec Ideal S100000x8 .f32) (e3 : FVec Ideal S10000x8 .f32) (e4 : FVec Ideal S1000x8 .f32) (e5 : FVec Ideal S100x8 .f32)
    (h : Cert.Tower.InRange ids) (b : Fin 4096) (t : Fin 50) (r : Fin 204800) (hr : r.val = 50 * b.val + t.val) (k : Fin 48) :
    flatFeatures
      (Host.gather gather_S1000000x8_S4096x50x1_S4096x50x8_2_0_n_n_0_2_18 e0 (wrapIds (idCol ids ![0, 0, 0] slices_S4096x50x6_S4096x50x1_0_0_0) 1000000#32))
      (Host.gather gather_S500000x8_S4096x50x1_S4096x50x8_2_0_n_n_0_2_18 e1 (wrapIds (idCol ids ![0, 0, 1] slices_S4096x50x6_S4096x50x1_0_0_1) 500000#32))
      (Host.gather gather_S100000x8_S4096x50x1_S4096x50x8_2_0_n_n_0_2_18 e2 (wrapIds (idCol ids ![0, 0, 2] slices_S4096x50x6_S4096x50x1_0_0_2) 100000#32))
      (Host.gather gather_S10000x8_S4096x50x1_S4096x50x8_2_0_n_n_0_2_18 e3 (wrapIds (idCol ids ![0, 0, 3] slices_S4096x50x6_S4096x50x1_0_0_3) 10000#32))
      (Host.gather gather_S1000x8_S4096x50x1_S4096x50x8_2_0_n_n_0_2_18 e4 (wrapIds (idCol ids ![0, 0, 4] slices_S4096x50x6_S4096x50x1_0_0_4) 1000#32))
      (Host.gather gather_S100x8_S4096x50x1_S4096x50x8_2_0_n_n_0_2_18 e5 (wrapIds (idCol ids ![0, 0, 5] slices_S4096x50x6_S4096x50x1_0_0_5) 100#32))
      (ix2 r k) = Cert.Tower.feat ids e0 e1 e2 e3 e4 e5 b t k := by
  rw [flatFeatures_apply _ _ _ _ _ _ b t r hr k]
  unfold Cert.Tower.feat
  split_ifs with h0 h1 h2 h3 h4
  · exact rows_apply (by decide) _ e0 _ _ b t _ (wrapped_col ids 0 (by decide) _ _ b t (h b t 0).1)
  · exact rows_apply (by decide) _ e1 _ _ b t _ (wrapped_col ids 1 (by decide) _ _ b t (h b t 1).1)
  · exact rows_apply (by decide) _ e2 _ _ b t _ (wrapped_col ids 2 (by decide) _ _ b t (h b t 2).1)
  · exact rows_apply (by decide) _ e3 _ _ b t _ (wrapped_col ids 3 (by decide) _ _ b t (h b t 3).1)
  · exact rows_apply (by decide) _ e4 _ _ b t _ (wrapped_col ids 4 (by decide) _ _ b t (h b t 4).1)
  · exact rows_apply (by decide) _ e5 _ _ b t _ (wrapped_col ids 5 (by decide) _ _ b t (h b t 5).1)

/-! ## The reference's term is the specification -/

theorem refOut_eq_G (ids : IVec S4096x50x6 32) (e0 : FVec Ideal S1000000x8 .f32) (e1 : FVec Ideal S500000x8 .f32) (e2 : FVec Ideal S100000x8 .f32) (e3 : FVec Ideal S10000x8 .f32) (e4 : FVec Ideal S1000x8 .f32) (e5 : FVec Ideal S100x8 .f32) (w1 : FVec Ideal S48x32 .f32) (b1 : FVec Ideal S32 .f32) (w2 : FVec Ideal S32x1 .f32) (b2 : FVec Ideal S1 .f32) (h : Cert.Tower.InRange ids) :
    refOut (F := Ideal) ids e0 e1 e2 e3 e4 e5 w1 b1 w2 b2 = Cert.Tower.G ids e0 e1 e2 e3 e4 e5 w1 b1 w2 b2 := by
  funext i
  obtain ⟨b, t, rfl⟩ : ∃ (b : Fin 4096) (t : Fin 50), i = ix2 b t := ⟨i 0, i 1, eq_ix2 i⟩
  have hrlt : 50 * b.val + t.val < 204800 := by have := b.isLt; have := t.isLt; omega
  show refOut (F := Ideal) ids e0 e1 e2 e3 e4 e5 w1 b1 w2 b2 (ix2 b t)
    = Cert.Tower.outRow (Cert.Tower.feat ids e0 e1 e2 e3 e4 e5 b t) w1 b1 w2 b2
  unfold refOut
  rw [outLayer_apply _ w2 b2 b t ⟨50 * b.val + t.val, hrlt⟩ rfl]
  unfold Cert.Tower.outRow Cert.Tower.hidRow
  congr 1
  refine Finset.sum_congr rfl fun j _ => ?_
  congr 1
  rw [eluOf_apply, hiddenPre_apply]
  congr 2
  refine Finset.sum_congr rfl fun k _ => ?_
  congr 1
  exact features_apply ids e0 e1 e2 e3 e4 e5 h b t _ rfl k

end Cert.ReferenceIdeal.Hand

end
-- ==== Proof.PreDecode.lean ====
/-
  Reading the printed precondition: the six range tests of the ids, decoded.

  The precondition is a conjunction of sixteen one-bit scalars: ten finiteness tests of the float arguments and, last, one
  range test per id column f, "every entry of column f is at least 0 and below the row count of table f". A conjunction
  that is 1 has every conjunct 1; a range test is an "all" (a reduction by "and" from 1 over both axes of a [4096, 50]
  array of bits), so every bit of that array is 1; the bit at (b, t) is the "and" of two signed comparisons of the id at
  (b, t, f) — the column is cut out of the ids by a slice and flattened — against 0 and against the row count.
-/
import proofs.«407622_j82471962018216_3_alg».proof.Pre_finite_inputs
import proofs.«407622_j82471962018216_3_alg».proof.Proof.Gen.Pre_finite_inputs
import proofs.«407622_j82471962018216_3_alg».proof.Proof.Spec
import Idealize.ShloMosaic.Lib.ReduceAll
import Idealize.ShloMosaic.Lib.StableHlo.Predicate
import Idealize.ShloMosaic.Lib.ValueIdx

noncomputable section

namespace Cert.Tower

open Idealize.ShloMosaic Idealize.ShloMosaic.ValueIdx
open Cert.Pre_finite_inputs

/-- The scalar shape has one index. -/
instance scalarIdx_subsingleton : Subsingleton S_.Idx := ⟨fun a b => funext fun d => d.elim0⟩

/-- A conjunction of two scalar bits that is 1 has both bits 1. -/
theorem andi_scalar (x y : IVec S_ 1) (h : andi x y ix0 = 1#1) : x ix0 = 1#1 ∧ y ix0 = 1#1 :=
  IntOp.andi_eq_one.1 h

/-- Column f of the ids, cut out as a [4096, 50, 1] slice at offsets (0, 0, f) and flattened to [4096, 50], read at (b, t):
    the id at (b, t, f). -/
theorem column_apply (ids : IVec S4096x50x6 32) (off : Fin 3 → Nat) (hs : S4096x50x6.Slices off S4096x50x1)
    (hc : S4096x50x1.ShapeCasts S4096x50) (f : Fin 6) (h0 : off 0 = 0) (h1 : off 1 = 0) (h2 : off 2 = f.val)
    (b : Fin 4096) (t : Fin 50) :
    shapeCast S4096x50 (extractStridedSlice S4096x50x1 off ids hs) hc (ix2 b t) = ids (ix3 b t f) := by
  have e : Shape.reshapeEquiv hc (ix2 b t) = (ix3 b t (0 : Fin 1) : S4096x50x1.Idx) := by
    apply Shape.reshapeEquiv_eq_of_rowMajor
    rw [Shape.rowMajor_val_three, Shape.rowMajor_val_two]
    show (b.val * 50 + t.val) * 1 + 0 = b.val * 50 + t.val
    omega
  show extractStridedSlice S4096x50x1 off ids hs (Shape.reshapeEquiv hc (ix2 b t)) = _
  rw [e]
  show ids _ = ids _
  congr 1
  funext a
  match a with
  | ⟨0, _⟩ => exact Fin.ext (by show off 0 + b.val = b.val; omega)
  | ⟨1, _⟩ => exact Fin.ext (by show off 1 + t.val = t.val; omega)
  | ⟨2, _⟩ => exact Fin.ext (by show off 2 + 0 = f.val; omega)

/-- One range test decoded: if "all (column f ≥ 0 and column f < n)" is 1 then every id of column f lies in [0, n). -/
theorem column_inRange (ids : IVec S4096x50x6 32) (off : Fin 3 → Nat) (hs : S4096x50x6.Slices off S4096x50x1)
    (hc : S4096x50x1.ShapeCasts S4096x50) (hb : S_.BroadcastsInDim S4096x50 (![] : Fin 0 → Fin S4096x50.rank))
    (hr : S4096x50.ReducesTo [0, 1] S_) (hu : 0 < S_.numel)
    (f : Fin 6) (h0 : off 0 = 0) (h1 : off 1 = 0) (h2 : off 2 = f.val) (n : Nat) (hn : n < 2 ^ 31)
    (h : Host.reduce IntOp.andi
        (andi
          (cmpi .sge (shapeCast S4096x50 (extractStridedSlice S4096x50x1 off ids hs) hc)
            (broadcastInDim S4096x50 ![] hb (constantI S_ 32 0#32)))
          (cmpi .slt (shapeCast S4096x50 (extractStridedSlice S4096x50x1 off ids hs) hc)
            (broadcastInDim S4096x50 ![] hb (constantI S_ 32 (BitVec.ofNat 32 n)))))
        (constantI S_ 1 1#1) hr hu ix0 = 1#1)
    (b : Fin 4096) (t : Fin 50) :
    0 ≤ (ids (ix3 b t f)).toInt ∧ (ids (ix3 b t f)).toInt < (n : Int) := by
  have e := Host.reduce_andi_all _ _ hr hu ix0 h (ix2 b t)
  have e' : IntOp.andi (IntOp.cmpi .sge (ids (ix3 b t f)) 0#32) (IntOp.cmpi .slt (ids (ix3 b t f)) (BitVec.ofNat 32 n)) = 1#1 := by
    rw [← column_apply ids off hs hc f h0 h1 h2 b t]
    exact e
  obtain ⟨ha, hl⟩ := IntOp.andi_eq_one.1 e'
  have ha' := IntOp.cmpi_sge.1 ha
  have hl' := IntOp.cmpi_slt.1 hl
  rw [StableHlo.Predicate.toInt_ofNat_small n hn] at hl'
  rw [show (0#32 : BitVec 32).toInt = 0 from by decide] at ha'
  exact ⟨ha', hl'⟩

/-- THE PRECONDITION DECODED: where the printed test of the inputs is 1, every id names a row of its own column's table. -/
theorem inRange_of_pre (ids : IVec Cert.Pre_finite_inputs.S4096x50x6 32) (e0 : FVec Ideal Cert.Pre_finite_inputs.S1000000x8 .f32) (e1 : FVec Ideal Cert.Pre_finite_inputs.S500000x8 .f32) (e2 : FVec Ideal Cert.Pre_finite_inputs.S100000x8 .f32) (e3 : FVec Ideal Cert.Pre_finite_inputs.S10000x8 .f32) (e4 : FVec Ideal Cert.Pre_finite_inputs.S1000x8 .f32) (e5 : FVec Ideal Cert.Pre_finite_inputs.S100x8 .f32) (w1 : FVec Ideal Cert.Pre_finite_inputs.S48x32 .f32) (b1 : FVec Ideal Cert.Pre_finite_inputs.S32 .f32) (w2 : FVec Ideal Cert.Pre_finite_inputs.S32x1 .f32) (b2 : FVec Ideal Cert.Pre_finite_inputs.S1 .f32)
    (h : Cert.Pre_finite_inputs.fn (F := Ideal) ids e0 e1 e2 e3 e4 e5 w1 b1 w2 b2 = (fun _ => 1#1)) : Cert.Tower.InRange ids := by
  -- the conjunction, peeled from its last conjunct: the six range tests come last
  obtain ⟨h103, t5⟩ := andi_scalar _ _ (congrFun h ix0)
  obtain ⟨h92, t4⟩ := andi_scalar _ _ h103
  obtain ⟨h81, t3⟩ := andi_scalar _ _ h92
  obtain ⟨h70, t2⟩ := andi_scalar _ _ h81
  obtain ⟨h59, t1⟩ := andi_scalar _ _ h70
  obtain ⟨-, t0⟩ := andi_scalar _ _ h59
  intro b t f
  match f with
  | ⟨0, _⟩ => exact column_inRange ids _ _ _ _ _ _ ⟨0, by omega⟩ rfl rfl rfl 1000000 (by norm_num) t0 b t
  | ⟨1, _⟩ => exact column_inRange ids _ _ _ _ _ _ ⟨1, by omega⟩ rfl rfl rfl 500000 (by norm_num) t1 b t
  | ⟨2, _⟩ => exact column_inRange ids _ _ _ _ _ _ ⟨2, by omega⟩ rfl rfl rfl 100000 (by norm_num) t2 b t
  | ⟨3, _⟩ => exact column_inRange ids _ _ _ _ _ _ ⟨3, by omega⟩ rfl rfl rfl 10000 (by norm_num) t3 b t
  | ⟨4, _⟩ => exact column_inRange ids _ _ _ _ _ _ ⟨4, by omega⟩ rfl rfl rfl 1000 (by norm_num) t4 b t
  | ⟨5, _⟩ => exact column_inRange ids _ _ _ _ _ _ ⟨5, by omega⟩ rfl rfl rfl 100 (by norm_num) t5 b t

end Cert.Tower

end
-- ==== Proof.lean ====
/-
  A tower over six embedding lookups, as a Pallas kernel and as plain array code, compute one function.

  Each of 4096 × 50 tokens carries six integer ids, one per embedding table of 8-wide rows. The 48 features of a token
  are the six rows its ids name; a hidden layer `elu (features · w1 + b1)` of 32 units and an output `hidden · w2 + b2`
  follow. The kernel program gathers the four large tables on the host and stages the result block by block through one
  pallas region of 50 grid points; inside, the two small tables are read by a one-hot row times the table, which over
  the extended reals is exactly the named row (`0 · x = 0` and `1 · x = x` for every extended real). The reference gathers
  all six tables directly. Both then apply the same sums, in the same order of summands, and the same unit: `eˣ - 1`
  below zero on one side, `expm1` of the clipped argument times one on the other.

  The precondition keeps every id inside its own table, `0 ≤ id < rows`. Outside it the two programs part: a host
  `take` fills an out-of-range row with a not-a-number pattern, a one-hot row of an out-of-range or negative id is all
  zeros, while the reference's indexing wraps a negative id and clamps a large one. Finiteness of the float inputs is
  not used: no step distributes, cancels, or moves a factor across a sum.

  The three frames: each program runs to the end, faults nowhere and leaves its eleven arguments as launched. The
  idealization rewrote nothing, so `preserves` has no conjunct.
-/
import proofs.«407622_j82471962018216_3_alg».proof.Defs
import proofs.«407622_j82471962018216_3_alg».proof.Proof.Gen.Kernel
import proofs.«407622_j82471962018216_3_alg».proof.Proof.Gen.KernelIdeal
import proofs.«407622_j82471962018216_3_alg».proof.Proof.Gen.ReferenceIdeal
import proofs.«407622_j82471962018216_3_alg».proof.Proof.Gen.Pre_finite_inputs
import proofs.«407622_j82471962018216_3_alg».proof.Proof.KFrameB
import proofs.«407622_j82471962018216_3_alg».proof.Proof.KValueI
import proofs.«407622_j82471962018216_3_alg».proof.Proof.RefRun
import proofs.«407622_j82471962018216_3_alg».proof.Proof.RefValue
import proofs.«407622_j82471962018216_3_alg».proof.Proof.PreDecode
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Hand.frame m ρ

/-- So does the idealized one. -/
theorem frame_kernel_ideal : Cert.frame_KernelIdeal := fun m ρ _ => Cert.KernelIdeal.Hand.frame m ρ

/-- The reference is host operations only: its run names the result, and the arguments are no operation's result. -/
theorem frame_reference : Cert.frame_ReferenceIdeal := fun m ρ _ =>
  (θ_run Cert.ReferenceIdeal.defs _ _).mono (fun _ h c => (h c).2) (Cert.ReferenceIdeal.Hand.run (F := Ideal) m ρ)

/-- Both idealized programs end with the tower's output `G` of the (agreeing) arguments. -/
theorem algebraic : Cert.algebraic_KernelIdeal_ReferenceIdeal := by
  intro m ρ m' ρ' hpre hagree
  have hr : ∀ c : Dev Cert.KernelIdeal.nD, Cert.Tower.InRange (m ((c.tc : Thread Cert.KernelIdeal.nD Cert.KernelIdeal.τ).loc Cert.KernelIdeal.main_arg0)) :=
    fun c => Cert.Tower.inRange_of_pre _ _ _ _ _ _ _ _ _ _ _ (hpre c)
  refine ⟨fun c => Cert.Tower.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Hand.run_spec m ρ hr, ?_⟩
  refine (θ_run Cert.ReferenceIdeal.defs _ _).mono (fun _ h c => ⟨(h c).1.trans ?_, (h c).2⟩) (Cert.ReferenceIdeal.Hand.run (F := Ideal) m' ρ')
  obtain ⟨a0, a1, a2, a3, a4, a5, a6, a7, a8, a9, a10⟩ := hagree c
  rw [a0, a1, a2, a3, a4, a5, a6, a7, a8, a9, a10]
  exact Cert.ReferenceIdeal.Hand.refOut_eq_G _ _ _ _ _ _ _ _ _ _ _ (hr c)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
